-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S256 .f32) (main_arg14 : FVec F S256 .f32) (main_arg15 : FVec F S256x64 .f32) (main_arg16 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x64 .f32 := Host.absf main_arg15
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg16 main_v63 main_v67

def fn_part2 {F : FTy → Type} [FloatOps F] (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x64 .f32) (main_arg16 : FVec F S64 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x64 .f32) (main_arg16 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256x64 .f32) (main_arg16 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S2000x1 : Shape := ⟨2, ![2000, 1]⟩
abbrev S256x1 : Shape := ⟨2, ![256, 1]⟩
abbrev S1x64 : Shape := ⟨2, ![1, 64]⟩

abbrev nBuf : Space → Nat
  | .hbm => 83
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x64, .f32⟩
  | .hbm, ⟨16, _⟩ => ⟨S64, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S50000x1, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S50000x256, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S50000x256, .f32⟩
  | .hbm, ⟨82, _⟩ => ⟨S256x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x1, .i32⟩
  | .local _ .vmem, ⟨35, _⟩ => ⟨S2000x1, .i32⟩
  | .local _ .vmem, ⟨36, _⟩ => ⟨S256x64, .f32⟩
  | .local _ .vmem, ⟨37, _⟩ => ⟨S64, .f32⟩
  | .local _ .vmem, ⟨38, _⟩ => ⟨S256x64, .f32⟩
  | .local _ .vmem, ⟨39, _⟩ => ⟨S256x256, .f32⟩
  | .local _ .vmem, ⟨40, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_scratch0 : Ref sig .tc := ⟨.vmem, 39, rfl⟩
abbrev cc4_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  shapeCasts_S256_S256 : S256.ShapeCasts S256
  bcast_S_S50000x256 : S_.BroadcastsInDim S50000x256 (![] : Fin 0 → Fin S50000x256.rank)
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  broadcasts_S256x1_S256x256 : S256x1.Broadcasts S256x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S2000x256_S256x256_0_0_1_1_n_n_wf : DotDims.WF S2000x256 S2000x256 S256x256 [0] [0] [1] [1] [] []
  dot_S2000x256_S2000x1_S256x1_0_0_1_1_n_n_wf : DotDims.WF S2000x256 S2000x1 S256x1 [0] [0] [1] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x64.size a ≤ S256x64.size a
  hwx4_2 : ∀ i : grid4.Coords, EltTy.bits .f32 = 32 ∨ (Rect.block (s := S256x64) S256x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x64.size a ≤ S256x64.size a
  hwx4_4 : ∀ i : grid4.Coords, EltTy.bits .f32 = 32 ∨ (Rect.block (s := S256x64) S256x64.size (cc4_transform_4 i) (hinb4_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v50) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S256x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S256x1 : Shape := ⟨2, ![256, 1]⟩
abbrev S1x64 : Shape := ⟨2, ![1, 64]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256x64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x256, .f32⟩
  | 36 => ⟨S1x256, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S_, .f32⟩
  | 49 => ⟨S256, .f32⟩
  | 50 => ⟨S256, .f32⟩
  | 51 => ⟨S1x256, .f32⟩
  | 52 => ⟨S50000x256, .f32⟩
  | 53 => ⟨S50000x256, .f32⟩
  | 54 => ⟨S50000x256, .f32⟩
  | 55 => ⟨S_, .f32⟩
  | 56 => ⟨S256, .f32⟩
  | 57 => ⟨S_, .f32⟩
  | 58 => ⟨S256, .f32⟩
  | 59 => ⟨S256, .f32⟩
  | 60 => ⟨S1x256, .f32⟩
  | 61 => ⟨S50000x256, .f32⟩
  | 62 => ⟨S50000x256, .f32⟩
  | 63 => ⟨S_, .f32⟩
  | 64 => ⟨S256, .f32⟩
  | 65 => ⟨S256, .f32⟩
  | 66 => ⟨S256, .f32⟩
  | 67 => ⟨S1x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S256, .f32⟩
  | 106 => ⟨S_, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S256, .f32⟩
  | 115 => ⟨S_, .f32⟩
  | 116 => ⟨S256, .f32⟩
  | 117 => ⟨S256, .f32⟩
  | 118 => ⟨S1x256, .f32⟩
  | 119 => ⟨S50000x256, .f32⟩
  | 120 => ⟨S50000x256, .f32⟩
  | 121 => ⟨S_, .f32⟩
  | 122 => ⟨S256, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S_, .f32⟩
  | 10 => ⟨S256x256, .f32⟩
  | 11 => ⟨S50000x1, .i32⟩
  | 12 => ⟨S256x256, .f32⟩
  | 13 => ⟨S_, .f32⟩
  | 14 => ⟨S50000, .f32⟩
  | 15 => ⟨S_, .f32⟩
  | 16 => ⟨S256, .f32⟩
  | 17 => ⟨S50000x1, .i32⟩
  | 18 => ⟨S256, .f32⟩
  | 19 => ⟨S_, .f32⟩
  | 20 => ⟨S256, .f32⟩
  | 21 => ⟨S256, .f32⟩
  | 22 => ⟨S256x1, .f32⟩
  | 23 => ⟨S256x256, .f32⟩
  | 24 => ⟨S256x256, .f32⟩
  | 25 => ⟨S256x64, .f32⟩
  | 26 => ⟨S1x64, .f32⟩
  | 27 => ⟨S256x64, .f32⟩
  | 28 => ⟨S256x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_c_6 : Ref sig .tc := ⟨.hbm, 79, rfl⟩
abbrev main_v50 : Ref sig .tc := ⟨.hbm, 80, rfl⟩
abbrev main_v51 : Ref sig .tc := ⟨.hbm, 81, rfl⟩
abbrev main_c_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_11 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_cst_14 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_15 : Ref sig .tc := ⟨.hbm, 141, rfl⟩
abbrev main_v99 : Ref sig .tc := ⟨.hbm, 142, rfl⟩
abbrev main_cst_16 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S256x256 : S_.BroadcastsInDim S256x256 (![] : Fin 0 → Fin S256x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x64_S256x64_1_0_0_1_n_n_wf : DotDims.WF S256x256 S256x64 S256x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

class Facts : Prop extends Facts₀ where

variable [Facts]
-- ==== Proof.Reg0K.lean ====
/- The first perceptron region (region 0 of @main) at a symbolic grid point, stated at the buffer contents `V` the
   region is entered with: the body loads the five input blocks whole, loads the output block (the value is read by
   nothing), stores one payload over the whole output block, and leaves every input block as it was. The proof data
   (`dat0`) name what each staging buffer holds after the body (`out0_5` for the output); the body's triple
   (`sound_kernel0`) is proved once for all 25 points and gives the body obligation (`body_obligation0`). -/
import proofs.«403320_j14680198218264_1_alg».proof.Proof.LaunchK
import proofs.«403320_j14680198218264_1_alg».proof.Proof.Gen.Kernel.Skeleton
import proofs.«403320_j14680198218264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, as one unit-stride rectangle from the origin -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S256 := Rect.unit (s := S256) ![0] S256.size inb_S256_S256_0
abbrev r0_3 : Rect S256x256 := Rect.unit (s := S256x256) ![0, 0] S256x256.size inb_S256x256_S256x256_0_0
abbrev r0_4 : Rect S256 := Rect.unit (s := S256) ![0] S256.size inb_S256_S256_0
abbrev r0_5 : Rect S2000x256 := Rect.unit (s := S2000x256) ![0, 0] S2000x256.size inb_S2000x256_S2000x256_0_0

/-! ## What the body leaves in the output window's buffer -/

/-- Window 5's staging buffer after the body, from the input windows' blocks: its one store, the payload
    `k0_pay1` of the five loaded blocks over the whole buffer. -/
def out0_5 (x0 : Vec F S2000x128 .f32) (x1 : Vec F S128x256 .f32) (x2 : Vec F S256 .f32) (x3 : Vec F S256x256 .f32) (x4 : Vec F S256 .f32) : Vec F S2000x256 .f32 :=
  View.canon [⟨r0_5, k0_pay1 (View.ld x0 r0_0) (View.ld x1 r0_1) (View.ld x2 r0_2) (View.ld x3 r0_3) (View.ld x4 r0_4)⟩]

/-- The store's rectangle is the whole buffer, so it covers it. -/
theorem cover0_5 (p0 : Vec F S2000x256 .f32) (y : S2000x256.Idx) :
    ∃ pc ∈ ([⟨r0_5, p0⟩] : List (View.Piece (Elt F) S2000x256 .f32)), y ∈ pc.1.set :=
  View.cover_of_tiled [⟨r0_5, p0⟩] S2000x256.size (by rfl) y

/-! ## The body's triple -/

set_option maxHeartbeats 4000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg0 : Memref sig .tc .vmem S2000x128 .f32) (harg0 : arg0.IsWhole) (arg1 : Memref sig .tc .vmem S128x256 .f32) (harg1 : arg1.IsWhole) (arg2 : Memref sig .tc .vmem S256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S2000x256 .f32) (harg5 : arg5.IsWhole)
    (x0 : Vec F S2000x128 .f32) (x1 : Vec F S128x256 .f32) (x2 : Vec F S256 .f32) (x3 : Vec F S256x256 .f32) (x4 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen
-- ==== Proof.Reg1K.lean ====
/- The first batch-norm region (region 1 of @main) at a symbolic grid point, stated at the buffer contents `V` the
   region is entered with: the body loads a 2000x256 row block and four 256-vectors (column mean, column variance,
   scale, shift) whole, loads the output block (the value is read by nothing), stores one payload over the whole
   output block, and leaves every input as it was. The proof data (`dat1`) name what each staging buffer holds after
   the body (`out1_5` for the output); the body's triple (`sound_kernel1`) gives the body obligation at all 25 points. -/
import proofs.«403320_j14680198218264_1_alg».proof.Proof.LaunchK
import proofs.«403320_j14680198218264_1_alg».proof.Proof.Gen.Kernel.Skeleton
import proofs.«403320_j14680198218264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before it, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before it, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before it, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before it, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before it, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store are of a whole buffer -/

abbrev r1_0 : Rect S2000x256 := Rect.unit (s := S2000x256) ![0, 0] S2000x256.size inb_S2000x256_S2000x256_0_0
abbrev r1_1 : Rect S256 := Rect.unit (s := S256) ![0] S256.size inb_S256_S256_0
abbrev r1_2 : Rect S256 := Rect.unit (s := S256) ![0] S256.size inb_S256_S256_0
abbrev r1_3 : Rect S256 := Rect.unit (s := S256) ![0] S256.size inb_S256_S256_0
abbrev r1_4 : Rect S256 := Rect.unit (s := S256) ![0] S256.size inb_S256_S256_0
abbrev r1_5 : Rect S2000x256 := Rect.unit (s := S2000x256) ![0, 0] S2000x256.size inb_S2000x256_S2000x256_0_0

/-! ## What the body leaves in the output window's buffer -/

/-- Window 5's staging buffer after the body, from the input windows' blocks: its one store as a piece. -/
def out1_5 (x0 : Vec F S2000x256 .f32) (x1 x2 x3 x4 : Vec F S256 .f32) : Vec F S2000x256 .f32 :=
  View.canon [⟨r1_5, k1_pay1 (View.ld x0 r1_0) (View.ld x1 r1_1) (View.ld x2 r1_2) (View.ld x3 r1_3) (View.ld x4 r1_4)⟩]

/-- The store is of the whole buffer, so it covers it. -/
theorem cover1_5 (p0 : Vec F S2000x256 .f32) (y : S2000x256.Idx) :
    ∃ pc ∈ ([⟨r1_5, p0⟩] : List (View.Piece (Elt F) S2000x256 .f32)), y ∈ pc.1.set :=
  View.cover_of_tiled [⟨r1_5, p0⟩] S2000x256.size (by rfl) y

/-! ## The body's triple -/

set_option maxHeartbeats 1000000 in
/-- The kernel body on whole staging memrefs, the inputs' at read contents `xW` and the output's at anything, runs to
    the continuation holding the inputs' as they were and the output's at `out1_5` of the inputs'. The body also
    loads the output buffer before it stores to it; what it loads is read by nothing. -/
theorem sound_kernel1 (c : Dev nD) (E : Set ℕ) (i : grid1.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 x2 x3 x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.Reg2K.lean ====
/- The second perceptron region (region 2 of @main) at a symbolic grid point, stated at the buffer contents `V` the
   region is entered with: the body loads the five input blocks whole, loads the output block (the value is read by
   nothing), stores one payload over the whole output block, and leaves every input block as it was. The proof data
   (`dat2`) name what each staging buffer holds after the body (`out2_5` for the output); the body's triple
   (`sound_kernel2`) is proved once for all 25 points and gives the body obligation (`body_obligation2`). -/
import proofs.«403320_j14680198218264_1_alg».proof.Proof.LaunchK
import proofs.«403320_j14680198218264_1_alg».proof.Proof.Gen.Kernel.Skeleton
import proofs.«403320_j14680198218264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, as one unit-stride rectangle from the origin -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S256 := Rect.unit (s := S256) ![0] S256.size inb_S256_S256_0
abbrev r2_3 : Rect S256x256 := Rect.unit (s := S256x256) ![0, 0] S256x256.size inb_S256x256_S256x256_0_0
abbrev r2_4 : Rect S256 := Rect.unit (s := S256) ![0] S256.size inb_S256_S256_0
abbrev r2_5 : Rect S2000x256 := Rect.unit (s := S2000x256) ![0, 0] S2000x256.size inb_S2000x256_S2000x256_0_0

/-! ## What the body leaves in the output window's buffer -/

/-- Window 5's staging buffer after the body, from the input windows' blocks: its one store, the payload
    `k2_pay1` of the five loaded blocks over the whole buffer. -/
def out2_5 (x0 : Vec F S2000x256 .f32) (x1 : Vec F S256x256 .f32) (x2 : Vec F S256 .f32) (x3 : Vec F S256x256 .f32) (x4 : Vec F S256 .f32) : Vec F S2000x256 .f32 :=
  View.canon [⟨r2_5, k2_pay1 (View.ld x0 r2_0) (View.ld x1 r2_1) (View.ld x2 r2_2) (View.ld x3 r2_3) (View.ld x4 r2_4)⟩]

/-- The store's rectangle is the whole buffer, so it covers it. -/
theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

/-! ## The body's triple -/

set_option maxHeartbeats 4000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg0 : Memref sig .tc .vmem S2000x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S2000x256 .f32) (harg5 : arg5.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen
-- ==== Proof.Reg3K.lean ====
/- The second batch-norm region (region 3 of @main) at a symbolic grid point, stated at the buffer contents `V` the
   region is entered with: the body loads a 2000x256 row block and four 256-vectors (column mean, column variance,
   scale, shift) whole, loads the output block (the value is read by nothing), stores one payload over the whole
   output block, and leaves every input as it was. The proof data (`dat3`) name what each staging buffer holds after
   the body (`out3_5` for the output); the body's triple (`sound_kernel3`) gives the body obligation at all 25 points. -/
import proofs.«403320_j14680198218264_1_alg».proof.Proof.LaunchK
import proofs.«403320_j14680198218264_1_alg».proof.Proof.Gen.Kernel.Skeleton
import proofs.«403320_j14680198218264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): an unfetched point has the
    block index of the point before it, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): an unfetched point has the
    block index of the point before it, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): an unfetched point has the
    block index of the point before it, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): an unfetched point has the
    block index of the point before it, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): an unfetched point has the
    block index of the point before it, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store are of a whole buffer -/

abbrev r3_0 : Rect S2000x256 := Rect.unit (s := S2000x256) ![0, 0] S2000x256.size inb_S2000x256_S2000x256_0_0
abbrev r3_1 : Rect S256 := Rect.unit (s := S256) ![0] S256.size inb_S256_S256_0
abbrev r3_2 : Rect S256 := Rect.unit (s := S256) ![0] S256.size inb_S256_S256_0
abbrev r3_3 : Rect S256 := Rect.unit (s := S256) ![0] S256.size inb_S256_S256_0
abbrev r3_4 : Rect S256 := Rect.unit (s := S256) ![0] S256.size inb_S256_S256_0
abbrev r3_5 : Rect S2000x256 := Rect.unit (s := S2000x256) ![0, 0] S2000x256.size inb_S2000x256_S2000x256_0_0

/-! ## What the body leaves in the output window's buffer -/

/-- Window 5's staging buffer after the body, from the input windows' blocks: its one store as a piece. -/
def out3_5 (x0 : Vec F S2000x256 .f32) (x1 x2 x3 x4 : Vec F S256 .f32) : Vec F S2000x256 .f32 :=
  View.canon [⟨r3_5, k3_pay1 (View.ld x0 r3_0) (View.ld x1 r3_1) (View.ld x2 r3_2) (View.ld x3 r3_3) (View.ld x4 r3_4)⟩]

/-- The store is of the whole buffer, so it covers it. -/
theorem cover3_5 (p0 : Vec F S2000x256 .f32) (y : S2000x256.Idx) :
    ∃ pc ∈ ([⟨r3_5, p0⟩] : List (View.Piece (Elt F) S2000x256 .f32)), y ∈ pc.1.set :=
  View.cover_of_tiled [⟨r3_5, p0⟩] S2000x256.size (by rfl) y

/-! ## The body's triple -/

set_option maxHeartbeats 1000000 in
/-- The kernel body on whole staging memrefs, the inputs' at read contents `xW` and the output's at anything, runs to
    the continuation holding the inputs' as they were and the output's at `out3_5` of the inputs'. The body also
    loads the output buffer before it stores to it; what it loads is read by nothing. -/
theorem sound_kernel3 (c : Dev nD) (E : Set ℕ) (i : grid3.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 x2 x3 x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.Reg4K.lean ====
/- The pooling and fully-connected region (region 4 of @main) at a symbolic grid point. Two accumulators live across
   the 25 points in the kernel's own buffers — 256x256 one-hot-weighted row sums and 256x1 segment counts (`acc4`,
   `cnt4`) —, zeroed at the first point and stepped at every point; the last point stores their mean through the fully
   connected layer into the output window, idle before. Proved: the body's triple in its three cases, the invariant
   carrying the accumulators (`Phi4`, `dat4`), the body obligation, and the entailments around it (`hin4`, `hout4`). -/
import proofs.«403320_j14680198218264_1_alg».proof.Proof.LaunchK
import proofs.«403320_j14680198218264_1_alg».proof.Proof.Gen.Kernel.Skeleton
import proofs.«403320_j14680198218264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and every store is of a whole buffer -/

abbrev r4_0 : Rect S2000x256 := Rect.unit (s := S2000x256) ![0, 0] S2000x256.size inb_S2000x256_S2000x256_0_0
abbrev r4_1 : Rect S2000x1 := Rect.unit (s := S2000x1) ![0, 0] S2000x1.size inb_S2000x1_S2000x1_0_0
abbrev r4_2 : Rect S256x64 := Rect.unit (s := S256x64) ![0, 0] S256x64.size inb_S256x64_S256x64_0_0
abbrev r4_3 : Rect S64 := Rect.unit (s := S64) ![0] S64.size inb_S64_S64_0
abbrev r4_a : Rect S256x256 := Rect.unit (s := S256x256) ![0, 0] S256x256.size inb_S256x256_S256x256_0_0
abbrev r4_n : Rect S256x1 := Rect.unit (s := S256x1) ![0, 0] S256x1.size inb_S256x1_S256x1_0_0

/-! ## The body's branch conditions -/

/-- The condition of the body's first `scf.if` (the reset of the accumulators), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second `scf.if` (the output's store), from the grid coordinate. -/
abbrev cond4_1 (i : grid4.Coords) : Prop := k4_cond2 i = 1#1
/-- It holds at the last point only — decided over the grid. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle, and where the output is written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the output window is idle (the body stores nothing into it) -/
theorem idleAt4_4 : ∀ t : Fin cfg4.N, ¬cond4_1 (grid4.coords t) → cfg4.idle 4 (grid4.coords t) = true := by decide +kernel
/-- and is not written back; -/
theorem noFlush4_4 : ∀ t : Fin cfg4.N, ¬cond4_1 (grid4.coords t) → (cfg4.win 4).flush t = false := by decide +kernel
/-- at the last point it is live. -/
theorem liveAt4_4 : ∀ t : Fin cfg4.N, cond4_1 (grid4.coords t) → cfg4.idle 4 (grid4.coords t) = false := by decide +kernel

/-! ## The stores cover their buffers -/

/-- The one store into the 256x256 accumulator covers it; -/
theorem cover4_a (p : Vec F S256x256 .f32) (y : S256x256.Idx) :
    ∃ pc ∈ ([⟨r4_a, p⟩] : List (View.Piece (Elt F) S256x256 .f32)), y ∈ pc.1.set :=
  View.cover_of_tiled [⟨r4_a, p⟩] S256x256.size (by rfl) y
/-- the one into the 256x1 accumulator covers it; -/
theorem cover4_n (p : Vec F S256x1 .f32) (y : S256x1.Idx) :
    ∃ pc ∈ ([⟨r4_n, p⟩] : List (View.Piece (Elt F) S256x1 .f32)), y ∈ pc.1.set :=
  View.cover_of_tiled [⟨r4_n, p⟩] S256x1.size (by rfl) y
/-- the one into the output window's buffer covers it. -/
theorem cover4_o (p : Vec F S256x64 .f32) (y : S256x64.Idx) :
    ∃ pc ∈ ([⟨r4_2, p⟩] : List (View.Piece (Elt F) S256x64 .f32)), y ∈ pc.1.set :=
  View.cover_of_tiled [⟨r4_2, p⟩] S256x64.size (by rfl) y

/-! ## One step of each accumulator, and the output -/

/-- The 256x256 accumulator after a point that found it at `a`, the point's blocks being `x0` (rows) and `x1` (segment ids). -/
def accStep4 (x0 : Vec F S2000x256 .f32) (x1 : Vec F S2000x1 .i32) (a : Vec F S256x256 .f32) : Vec F S256x256 .f32 :=
  View.canon [⟨r4_a, k4_pay4 (View.ld x0 r4_0) (View.ld x1 r4_1) (View.ld a r4_a)⟩]
/-- The 256x1 accumulator after a point that found it at `b`. -/
def cntStep4 (x1 : Vec F S2000x1 .i32) (b : Vec F S256x1 .f32) : Vec F S256x1 .f32 :=
  View.canon [⟨r4_n, k4_pay5 (View.ld x1 r4_1) (View.ld b r4_n)⟩]
/-- What the first point's reset leaves in the accumulators: zeros. -/
def accZero4 : Vec F S256x256 .f32 := View.canon [⟨r4_a, k4_pay1 (F := F)⟩]
def cntZero4 : Vec F S256x1 .f32 := View.canon [⟨r4_n, k4_pay2 (F := F)⟩]
/-- What the last point stores into the output window's buffer, from the accumulators `a`, `b` as that point leaves them
    and the blocks of the weight `x2` and the bias `x3`. -/
def outStep4 (a : Vec F S256x256 .f32) (b : Vec F S256x1 .f32) (x2 : Vec F S256x64 .f32) (x3 : Vec F S64 .f32) : Vec F S256x64 .f32 :=
  View.canon [⟨r4_2, k4_pay6 (View.ld a r4_a) (View.ld b r4_n) (View.ld x2 r4_2) (View.ld x3 r4_3)⟩]

/-- Every index of the 256x256 accumulator lies in its one store's rectangle; -/
theorem mem4_a (y : S256x256.Idx) : y ∈ r4_a.set := by
  obtain ⟨pc, hm, hy⟩ := View.cover_of_tiled (Val := fun _ => PUnit) (e := .f32) [⟨r4_a, fun _ => ⟨⟩⟩] S256x256.size (by rfl) y
  rw [List.mem_singleton] at hm; subst hm; exact hy
/-- and likewise of the 256x1 accumulator. -/
theorem mem4_n (y : S256x1.Idx) : y ∈ r4_n.set := by
  obtain ⟨pc, hm, hy⟩ := View.cover_of_tiled (Val := fun _ => PUnit) (e := .f32) [⟨r4_n, fun _ => ⟨⟩⟩] S256x1.size (by rfl) y
  rw [List.mem_singleton] at hm; subst hm; exact hy

/-- After the reset's store and the step's store the 256x256 accumulator reads as the step's payload: the second store
    covers the first. -/
theorem read_two4_a (v : View sig .tc .vmem S256x256 .f32) (f : v.ty.Contents (Elt F)) (w w' : r4_a.shape.Idx → Elt F .f32) :
    v.read (Elt F) (v.writes (Elt F) f [⟨r4_a, w⟩, ⟨r4_a, w'⟩]) = View.canon [⟨r4_a, w⟩] :=
  (View.read_writes_of_cover_last v f v f ⟨r4_a, w⟩ [⟨r4_a, w'⟩] [] mem4_a).trans (View.read_writes_eq_canon v f [⟨r4_a, w⟩] (cover4_a w))
/-- Likewise the 256x1 accumulator. -/
theorem read_two4_n (v : View sig .tc .vmem S256x1 .f32) (f : v.ty.Contents (Elt F)) (w w' : r4_n.shape.Idx → Elt F .f32) :
    v.read (Elt F) (v.writes (Elt F) f [⟨r4_n, w⟩, ⟨r4_n, w'⟩]) = View.canon [⟨r4_n, w⟩] :=
  (View.read_writes_of_cover_last v f v f ⟨r4_n, w⟩ [⟨r4_n, w'⟩] [] mem4_n).trans (View.read_writes_eq_canon v f [⟨r4_n, w⟩] (cover4_n w))

/-! ## The body's triple, case by case -/

set_option maxHeartbeats 1000000 in
/-- A MIDDLE point (neither conditional taken): the accumulators, found at `a` and `b`, each take one step; the inputs'
    buffers and the output window's are left as found. -/
theorem sound_kernel4_mid (c : Dev nD) (E : Set ℕ) (i : grid4.Coords) (hc0 : ¬cond4_0 i) (hc1 : ¬cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32) (xo : Vec F S256x64 .f32)
    (a : Vec F S256x256 .f32) (b : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo
        ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (accStep4 x0 x1 a)
            ∗ owns (c : Thread nD τ) arg7 fullShare (cntStep4 x1 b)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns accStep4 cntStep4
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1; subst hf2; subst hf3; subst hf4; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover4_a _)
  iexists _; isplitr
  swap; · iexact H7
  ipureintro; exact View.read_writes_eq_canon _ _ _ (cover4_n _)

set_option maxHeartbeats 1000000 in
/-- The FIRST point (the reset taken, the output's store not): the accumulators, found at anything, are reset to zeros and
    then each take one step; the inputs' buffers and the output window's are left as found. -/
theorem sound_kernel4_first (c : Dev nD) (E : Set ℕ) (i : grid4.Coords) (hc0 : cond4_0 i) (hc1 : ¬cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32) (xo : Vec F S256x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo
        ∗ (∃ a, owns (c : Thread nD τ) arg6 fullShare a) ∗ (∃ b, owns (c : Thread nD τ) arg7 fullShare b)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (accStep4 x0 x1 accZero4)
            ∗ owns (c : Thread nD τ) arg7 fullShare (cntStep4 x1 cntZero4)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns accStep4 cntStep4 accZero4 cntZero4
  iintro ⟨⟨%f1, %hf1, H1⟩, ⟨%f2, %hf2, H2⟩, ⟨%f3, %hf3, H3⟩, ⟨%f4, %hf4, H4⟩, ⟨%f5, %hf5, H5⟩, ⟨%a, %f6, -, H6⟩, ⟨%b, %f7, -, H7⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon_ld _ _ r4_a (cover4_a _)]
    exact read_two4_a arg6.view f6 _ _
  iexists _; isplitr
  swap; · iexact H7
  ipureintro
  sl_unfold_run_names
  rw [View.readCov_eq_canon_ld _ _ r4_n (cover4_n _)]
  exact read_two4_n arg7.view f7 _ _

set_option maxHeartbeats 1000000 in
/-- The LAST point (the reset not taken, the output's store taken): the accumulators, found at `a` and `b`, each take one
    step, and the output window's buffer, found at anything, is stored whole from the accumulators as that step leaves them. -/
theorem sound_kernel4_last (c : Dev nD) (E : Set ℕ) (i : grid4.Coords) (hc0 : ¬cond4_0 i) (hc1 : cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32)
    (a : Vec F S256x256 .f32) (b : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ xo, owns (c : Thread nD τ) arg5 fullShare xo)
        ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outStep4 (accStep4 x0 x1 a) (cntStep4 x1 b) x2 x3)
            ∗ owns (c : Thread nD τ) arg6 fullShare (accStep4 x0 x1 a)
            ∗ owns (c : Thread nD τ) arg7 fullShare (cntStep4 x1 b)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns outStep4 accStep4 cntStep4
  iintro ⟨⟨%f1, %hf1, H1⟩, ⟨%f2, %hf2, H2⟩, ⟨%f3, %hf3, H3⟩, ⟨%f4, %hf4, H4⟩, ⟨%xo, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon_ld _ _ r4_a (cover4_a _), View.readCov_eq_canon_ld _ _ r4_n (cover4_n _)]
    exact View.read_writes_eq_canon _ _ _ (cover4_o _)
  isplitl [H6]
  · iexists _; isplitr
    swap; · iexact H6
    ipureintro
    sl_unfold_run_names
    exact View.read_writes_eq_canon _ _ _ (cover4_a _)
  iexists _; isplitr
  swap; · iexact H7
  ipureintro
  sl_unfold_run_names
  exact View.read_writes_eq_canon _ _ _ (cover4_n _)

/-! ## The accumulators, point by point -/

/-- The 256x256 accumulator's contents after the first `n` points: zeros, then one step per point over that point's
    blocks of the rows (window 0) and of the segment ids (window 1). -/
def acc4 (c : Dev nD) : ℕ → Vec F S256x256 .f32
  | 0 => accZero4
  | n + 1 => if h : n < cfg4.N then accStep4 (iblk4 V c 0 ⟨n, h⟩) (iblk4 V c 1 ⟨n, h⟩) (acc4 c n) else acc4 c n

/-- The 256x1 accumulator's contents after the first `n` points. -/
def cnt4 (c : Dev nD) : ℕ → Vec F S256x1 .f32
  | 0 => cntZero4
  | n + 1 => if h : n < cfg4.N then cntStep4 (iblk4 V c 1 ⟨n, h⟩) (cnt4 c n) else cnt4 c n

theorem acc4_zero (c : Dev nD) : acc4 V c 0 = View.canon [⟨r4_a, k4_pay1 (F := F)⟩] := rfl

theorem acc4_succ (c : Dev nD) (n : ℕ) (h : n < cfg4.N) :
    acc4 V c (n + 1) = View.canon [⟨r4_a, k4_pay4 (View.ld (iblk4 V c 0 ⟨n, h⟩) r4_0) (View.ld (iblk4 V c 1 ⟨n, h⟩) r4_1) (View.ld (acc4 V c n) r4_a)⟩] := by
  rw [acc4, dif_pos h]; rfl

theorem cnt4_zero (c : Dev nD) : cnt4 V c 0 = View.canon [⟨r4_n, k4_pay2 (F := F)⟩] := rfl

theorem cnt4_succ (c : Dev nD) (n : ℕ) (h : n < cfg4.N) :
    cnt4 V c (n + 1) = View.canon [⟨r4_n, k4_pay5 (View.ld (iblk4 V c 1 ⟨n, h⟩) r4_1) (View.ld (cnt4 V c n) r4_n)⟩] := by
  rw [cnt4, dif_pos h]; rfl

/-- The step at a grid point, -/
theorem acc4_step (c : Dev nD) (t : Fin cfg4.N) : acc4 V c (t.val + 1) = accStep4 (iblk4 V c 0 t) (iblk4 V c 1 t) (acc4 V c t.val) := by
  rw [acc4, dif_pos t.isLt]
theorem cnt4_step (c : Dev nD) (t : Fin cfg4.N) : cnt4 V c (t.val + 1) = cntStep4 (iblk4 V c 1 t) (cnt4 V c t.val) := by
  rw [cnt4, dif_pos t.isLt]
/-- at the first one from zeros. -/
theorem acc4_at_zero (c : Dev nD) (n : ℕ) (hz : n = 0) : acc4 V c n = accZero4 := by subst hz; rfl
theorem cnt4_at_zero (c : Dev nD) (n : ℕ) (hz : n = 0) : cnt4 V c n = cntZero4 := by subst hz; rfl

/-! ## The invariant: the two scratch buffers, the rest of the scoped buffers, the generator register -/

/-- The scratch operands: whole scoped buffers of the kernel's own, passed beside the windows. -/
abbrev scM4_0 : Memref sig .tc .vmem S256x256 .f32 := Memref.whole cc4_scratch0
abbrev scM4_1 : Memref sig .tc .vmem S256x1 .f32 := Memref.whole cc4_scratch1

/-- The two scratch buffers before point `n`: before the first at anything, afterwards at the accumulators' contents
    after the first `n` points. -/
def scr4 (c : Dev nD) : ℕ → sProp 𝕄
  | 0 => iprop((∃ a, owns (c : Thread nD τ) scM4_0 fullShare a) ∗ (∃ b, owns (c : Thread nD τ) scM4_1 fullShare b))
  | n + 1 => iprop(owns (c : Thread nD τ) scM4_0 fullShare (acc4 V c (n + 1)) ∗ owns (c : Thread nD τ) scM4_1 fullShare (cnt4 V c (n + 1)))

theorem scr4_zero (c : Dev nD) (n : ℕ) (hz : n = 0) :
    scr4 V c n = iprop((∃ a, owns (c : Thread nD τ) scM4_0 fullShare a) ∗ (∃ b, owns (c : Thread nD τ) scM4_1 fullShare b)) := by
  subst hz; rfl

theorem scr4_pos (c : Dev nD) (n : ℕ) (hz : n ≠ 0) :
    scr4 V c n = iprop(owns (c : Thread nD τ) scM4_0 fullShare (acc4 V c n) ∗ owns (c : Thread nD τ) scM4_1 fullShare (cnt4 V c n)) := by
  cases n with
  | zero => exact absurd rfl hz
  | succ n => rfl

/-- The region invariant before point `n`: the two scratch buffers (`scr4`), every other scoped buffer that is no
    staging buffer of this pipeline at some contents, and the generator register at some state. -/
def Phi4 (c : Dev nD) (n : ℕ) : sProp 𝕄 :=
  iprop(scr4 V c n
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The proof data of pipeline 4 on core `c`: the arrays as the region finds them (`V`); after the body at point `t`
    each input's buffer at its block, and the output's — live at the last point only — at what that point stores: the
    output step over the accumulators after all 25 points; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outStep4 (acc4 V c 25) (cnt4 V c 25) (iblk4 V c 2 t) (iblk4 V c 3 t)
  Φ t := Phi4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = outStep4 (acc4 V c 25) (cnt4 V c 25) (iblk4 V c 2 t) (iblk4 V c 3 t) := by dsimp only [dat4]

/-- The invariant at a point's start and at its end. -/
theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := by
  dsimp only [dat4]; simp only [Fin.val_succ]

/-- Each input's current staging buffer holds its block at every point, fetched there or not: unfetched, the block
    index has not moved; the inputs are uncut and never idle. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- An input window's buffer is left at its block. -/
theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (iblk4 V c 3 t) := by
  unfold Dat.leavesExact; rw [liveAt4_3 t, after4_3]
/-- The output window's buffer: before the last point handed back as found, at the last point at the output step. -/
theorem leaves4_4_idle (c : Dev nD) (t : Fin cfg4.N) (hc1 : ¬cond4_1 (grid4.coords t)) :
    (dat4 V c).leavesExact 4 t = iprop(∃ d, owns (c : Thread nD τ) (st4_4 t) fullShare ((dat4 V c).before 4 t d)) :=
  Dat.leavesExact_idle (dat4 V c) 4 t (idleAt4_4 t hc1) (noFlush4_4 t hc1)
theorem leaves4_4_live (c : Dev nD) (t : Fin cfg4.N) (hc1 : cond4_1 (grid4.coords t)) :
    (dat4 V c).leavesExact 4 t = owns (c : Thread nD τ) (st4_4 t) fullShare (outStep4 (acc4 V c 25) (cnt4 V c 25) (iblk4 V c 2 t) (iblk4 V c 3 t)) := by
  unfold Dat.leavesExact; rw [liveAt4_4 t hc1, after4_4]

set_option maxHeartbeats 1000000 in
/-- The body at any point. The inputs' memrefs hold their blocks (`before4_W`); the closed forms of the two conditions say
    which of the three cases the point is in. The invariant hands the body the two scratch buffers — at anything at the
    first point, else at the accumulators after the points before — and takes them back one step further; the rest of the
    scoped buffers, the generator register and the core's `owes` pass through unread. The output window's buffer is handed
    back untouched before the last point, and at the last point is left at the output step over the accumulators after
    all 25 points. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    Phi4_castSucc, Phi4_succ, leaves4_0, leaves4_1, leaves4_2, leaves4_3]
  unfold Phi4
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [leaves4_4_idle V c t hc1, scr4_zero V c _ h0, scr4_pos V c _ (Nat.succ_ne_zero _), acc4_step, cnt4_step,
      acc4_at_zero V c _ h0, cnt4_at_zero V c _ h0]
    iintro ⟨⟨⟨HS0, HS1⟩, Hr, Hg⟩, Ho, ⟨%d0, H0⟩, ⟨%d1, H1⟩, ⟨%d2, H2⟩, ⟨%d3, H3⟩, ⟨%d4, H4⟩⟩
    iapply (sound_kernel4_first c Set.univ (grid4.coords t) hc0 hc1 _ _ _ _ _ _ _ _ _ _ _ _ _ _
      (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => h0 ((hcond4_0 t).mp h)
    by_cases h1 : t.val = 24
    · have hc1 : cond4_1 (grid4.coords t) := (hcond4_1 t).mpr h1
      have e25 : t.val + 1 = 25 := by omega
      rw [leaves4_4_live V c t hc1, scr4_pos V c _ h0, scr4_pos V c _ (Nat.succ_ne_zero _), ← e25, acc4_step, cnt4_step]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_last c Set.univ (grid4.coords t) hc0 hc1 _ _ _ _ _ _ _ _ _ _ _ _ _ _
        (iblk4 V c 0 t) (iblk4 V c 1 t) (iblk4 V c 2 t) (iblk4 V c 3 t) (acc4 V c t.val) (cnt4 V c t.val) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [leaves4_4_idle V c t hc1, scr4_pos V c _ h0, scr4_pos V c _ (Nat.succ_ne_zero _), acc4_step, cnt4_step]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_mid c Set.univ (grid4.coords t) hc0 hc1 _ _ _ _ _ _ _ _ _ _ _ _ _ _
        (iblk4 V c 0 t) (iblk4 V c 1 t) (iblk4 V c 2 t) (iblk4 V c 3 t) ((dat4 V c).before 4 t d4) (acc4 V c t.val) (cnt4 V c t.val) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the region is entered with — the generator register, (the prefetched tables: none, whatever stands for them
    is dropped) and the scoped buffers no window stages — is the invariant before the first point: the scoped rest split
    at the two scratch buffers, each whole at some contents. -/
theorem hin4 (c : Dev nD) (T : sProp 𝕄) :
    iprop((∃ r, prngReg c r) ∗ T
        ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl]; unfold Phi4
  rw [scopedRest4_split, scr4_zero V c 0 rfl]
  simp only [owns_whole]
  iintro ⟨Hp, -, ⟨H0, H1⟩, Hr⟩
  isplitl [H0 H1]
  · isplitl [H0]; · iexact H0
    iexact H1
  isplitl [Hr]; · iexact Hr
  iexact Hp

/-- After the last point the invariant gives back the generator register, no semaphore of the kernel's own, and the
    scoped buffers no window stages: the accumulators' named contents are forgotten. -/
theorem hout4 (c : Dev nD) :
    (dat4 V c).Φ (Fin.last cfg4.N)
      ⊢ iprop((∃ r, prngReg c r) ∗ (Pipeline.ownSems0 (fun k : PEmpty => k.elim) c : sProp 𝕄)
        ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c 25 from rfl]; unfold Phi4
  rw [scopedRest4_split, scr4_pos V c 25 (by decide)]
  simp only [owns_whole]
  iintro ⟨⟨H0, H1⟩, Hr, Hp⟩
  isplitl [Hp]; · iexact Hp
  isplitr; · iempintro
  isplitl [H0 H1]
  · isplitl [H0]; · iexists _; iexact H0
    iexists _; iexact H1
  iexact Hr

end Cert.Kernel.Gen

end
-- ==== Proof.RunK.lean ====
import proofs.«403320_j14680198218264_1_alg».proof.Proof.LaunchK
import proofs.«403320_j14680198218264_1_alg».proof.Proof.Reg0K
import proofs.«403320_j14680198218264_1_alg».proof.Proof.Reg1K
import proofs.«403320_j14680198218264_1_alg».proof.Proof.Reg2K
import proofs.«403320_j14680198218264_1_alg».proof.Proof.Reg3K
import proofs.«403320_j14680198218264_1_alg».proof.Proof.Reg4K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its nine segments

@main is four stretches of host operations and five kernel regions: `hostOps0 ; region 0 ; hostOps1 ; region 1 ;
hostOps2 ; region 2 ; hostOps3 ; region 3 ; region 4`. The TensorCore's buffer contents are folded through the nine
segments from the launch memory (`W0 … W9`), each region a segment between two of those valuations. Every weakly fair
execution terminates with every unscoped reference at `W9` (`run_all`); each argument array, read back through the
fold, is its launch contents (`W9_main_argJ`): the frame claim (`frame`). -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_c, main_v5, main_v6, main_c_0, main_v7, main_v8, main_v9, main_v10, main_v11, main_cst, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_1, main_v17, main_cst_2, main_v18, main_v19, main_v20, main_v21, main_v22, main_v23, main_cst_3, main_v24, main_cst_4, main_v25, main_v26]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_5, main_v28, main_v29, main_c_6, main_v30, main_v31, main_v32, main_v33, main_v34, main_cst_7, main_v35, main_v36, main_v37, main_v38]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_cst_8, main_v40, main_cst_9, main_v41, main_v42, main_v43, main_v44, main_v45, main_v46, main_cst_10, main_v47, main_cst_11, main_v48, main_v49]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered it (an input array is never written). -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered it (an input array is never written). -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference `hostOps2` does not write holds after it what it held before. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered it (an input array is never written). -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference `hostOps3` does not write holds after it what it held before. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered it (an input array is never written). -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves (the inputs as entered, the output's write-backs
    folded: `Dat.arrAt … N`), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- An input window's array leaves region 4 as it entered it (an input array is never written). -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`). -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- The result array at the end is what region 4's pipeline leaves in its output window. -/
theorem W9_main_v51 (c : Dev nD) : W9 m ρ c (Proc.devRef .tc main_v51) = (dat4 (V8 m ρ) c).arrAt 4 cfg4.N :=
  W9_arr m ρ c 4

/-! ### The arguments end as launched: no host operation writes one, and a region reads it through an input window
    or bypasses it, so the fold at an argument's buffer walks back to the launch memory -/
theorem W9_main_arg0 (c : Dev nD) : W9 m ρ c (Proc.devRef .tc main_arg0) = m ((c : Thread nD τ).loc main_arg0) :=
  (W9_of_ne m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W9_main_arg1 (c : Dev nD) : W9 m ρ c (Proc.devRef .tc main_arg1) = m ((c : Thread nD τ).loc main_arg1) :=
  (W9_of_ne m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of_ne m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of_ne m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans rfl
theorem W9_main_arg4 (c : Dev nD) : W9 m ρ c (Proc.devRef .tc main_arg4) = m ((c : Thread nD τ).loc main_arg4) :=
  (W9_of_ne m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 2 rfl).trans <|
  (W1_of m ρ c main_arg4 (by decide)).trans rfl
theorem W9_main_arg5 (c : Dev nD) : W9 m ρ c (Proc.devRef .tc main_arg5) = m ((c : Thread nD τ).loc main_arg5) :=
  (W9_of_ne m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_in m ρ c 3 rfl).trans <|
  (W1_of m ρ c main_arg5 (by decide)).trans rfl
theorem W9_main_arg6 (c : Dev nD) : W9 m ρ c (Proc.devRef .tc main_arg6) = m ((c : Thread nD τ).loc main_arg6) :=
  (W9_of_ne m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_in m ρ c 4 rfl).trans <|
  (W1_of m ρ c main_arg6 (by decide)).trans rfl
theorem W9_main_arg7 (c : Dev nD) : W9 m ρ c (Proc.devRef .tc main_arg7) = m ((c : Thread nD τ).loc main_arg7) :=
  (W9_of_ne m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_in m ρ c 3 rfl).trans <|
  (W3_of m ρ c main_arg7 (by decide)).trans <|
  (W2_of_ne m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of_ne m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_in m ρ c 4 rfl).trans <|
  (W3_of m ρ c main_arg8 (by decide)).trans <|
  (W2_of_ne m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of_ne m ρ c main_arg9 (by decide)).trans <|
  (W8_of_ne m ρ c main_arg9 (by decide)).trans <|
  (W7_of m ρ c main_arg9 (by decide)).trans <|
  (W6_in m ρ c 1 rfl).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of_ne m ρ c main_arg10 (by decide)).trans <|
  (W8_of_ne m ρ c main_arg10 (by decide)).trans <|
  (W7_of m ρ c main_arg10 (by decide)).trans <|
  (W6_in m ρ c 2 rfl).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W9_main_arg11 (c : Dev nD) : W9 m ρ c (Proc.devRef .tc main_arg11) = m ((c : Thread nD τ).loc main_arg11) :=
  (W9_of_ne m ρ c main_arg11 (by decide)).trans <|
  (W8_of_ne m ρ c main_arg11 (by decide)).trans <|
  (W7_of m ρ c main_arg11 (by decide)).trans <|
  (W6_in m ρ c 3 rfl).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W9_main_arg12 (c : Dev nD) : W9 m ρ c (Proc.devRef .tc main_arg12) = m ((c : Thread nD τ).loc main_arg12) :=
  (W9_of_ne m ρ c main_arg12 (by decide)).trans <|
  (W8_of_ne m ρ c main_arg12 (by decide)).trans <|
  (W7_of m ρ c main_arg12 (by decide)).trans <|
  (W6_in m ρ c 4 rfl).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W9_main_arg13 (c : Dev nD) : W9 m ρ c (Proc.devRef .tc main_arg13) = m ((c : Thread nD τ).loc main_arg13) :=
  (W9_of_ne m ρ c main_arg13 (by decide)).trans <|
  (W8_in m ρ c 3 rfl).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl
theorem W9_main_arg14 (c : Dev nD) : W9 m ρ c (Proc.devRef .tc main_arg14) = m ((c : Thread nD τ).loc main_arg14) :=
  (W9_of_ne m ρ c main_arg14 (by decide)).trans <|
  (W8_in m ρ c 4 rfl).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl
theorem W9_main_arg15 (c : Dev nD) : W9 m ρ c (Proc.devRef .tc main_arg15) = m ((c : Thread nD τ).loc main_arg15) :=
  (W9_in m ρ c 2 rfl).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl
theorem W9_main_arg16 (c : Dev nD) : W9 m ρ c (Proc.devRef .tc main_arg16) = m ((c : Thread nD τ).loc main_arg16) :=
  (W9_in m ρ c 3 rfl).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 (custom_call 0) over the thread state: entered from every unscoped buffer at `W1`, left at `W2`. Its
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`. Its
    arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W7`, left at `W8`. Its
    arrays split out of the unscoped buffers and put back at the exit contents; the generator register into the
    region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W8`, left at `W9`. Its
    arrays split out of the unscoped buffers and put back at the exit contents; the generator register into the
    region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V8 m ρ) c _
  hout c := hout4 (V8 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]
/-- The segments' fragments of @main, in order. -/
theorem segs_progs : (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] := rfl
/-- @main IS the run of the segments: @main's chain of items, then the segments' run as the chain of their fragments. -/
theorem main_run (c : Dev nD) : main (F := F) c = Pipeline.Seg.run (segs m ρ) := by
  rw [main_chain c, Pipeline.Seg.run_eq_chain, segs_progs]

set_option backward.isDefEq.respectTransparency.types false in
/-- THE RUN: at the compiled mesh, from any memory with zero counters, every weakly fair execution of @main on the
    TensorCores terminates, nothing faulting, and every final state holds at every unscoped reference the last
    boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: at the compiled mesh, from any memory with zero counters, every weakly fair execution of @main on the
    TensorCores terminates, nothing faulting, and every final state has the argument arrays as launched: each
    argument's buffer is an unscoped reference, read off `W9` and walked back through the fold (`W9_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c)⟩) (run_all m ρ)

end Cert.Kernel.Gen

end
-- ==== Proof.Reg0I.lean ====
/- The first perceptron region (region 0 of @main) at a symbolic grid point, stated at the buffer contents `V` the
   region is entered with: the body loads the five input blocks whole, loads the output block (the value is read by
   nothing), stores one payload over the whole output block, and leaves every input block as it was. The proof data
   (`dat0`) name what each staging buffer holds after the body (`out0_5` for the output); the body's triple
   (`sound_kernel0`) is proved once for all 25 points and gives the body obligation (`body_obligation0`). -/
import proofs.«403320_j14680198218264_1_alg».proof.Proof.LaunchI
import proofs.«403320_j14680198218264_1_alg».proof.Proof.Gen.KernelIdeal.Skeleton
import proofs.«403320_j14680198218264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, as one unit-stride rectangle from the origin -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S256 := Rect.unit (s := S256) ![0] S256.size inb_S256_S256_0
abbrev r0_3 : Rect S256x256 := Rect.unit (s := S256x256) ![0, 0] S256x256.size inb_S256x256_S256x256_0_0
abbrev r0_4 : Rect S256 := Rect.unit (s := S256) ![0] S256.size inb_S256_S256_0
abbrev r0_5 : Rect S2000x256 := Rect.unit (s := S2000x256) ![0, 0] S2000x256.size inb_S2000x256_S2000x256_0_0

/-! ## What the body leaves in the output window's buffer -/

/-- Window 5's staging buffer after the body, from the input windows' blocks: its one store, the payload
    `k0_pay1` of the five loaded blocks over the whole buffer. -/
def out0_5 (x0 : Vec F S2000x128 .f32) (x1 : Vec F S128x256 .f32) (x2 : Vec F S256 .f32) (x3 : Vec F S256x256 .f32) (x4 : Vec F S256 .f32) : Vec F S2000x256 .f32 :=
  View.canon [⟨r0_5, k0_pay1 (View.ld x0 r0_0) (View.ld x1 r0_1) (View.ld x2 r0_2) (View.ld x3 r0_3) (View.ld x4 r0_4)⟩]

/-- The store's rectangle is the whole buffer, so it covers it. -/
theorem cover0_5 (p0 : Vec F S2000x256 .f32) (y : S2000x256.Idx) :
    ∃ pc ∈ ([⟨r0_5, p0⟩] : List (View.Piece (Elt F) S2000x256 .f32)), y ∈ pc.1.set :=
  View.cover_of_tiled [⟨r0_5, p0⟩] S2000x256.size (by rfl) y

/-! ## The body's triple -/

set_option maxHeartbeats 4000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg0 : Memref sig .tc .vmem S2000x128 .f32) (harg0 : arg0.IsWhole) (arg1 : Memref sig .tc .vmem S128x256 .f32) (harg1 : arg1.IsWhole) (arg2 : Memref sig .tc .vmem S256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S2000x256 .f32) (harg5 : arg5.IsWhole)
    (x0 : Vec F S2000x128 .f32) (x1 : Vec F S128x256 .f32) (x2 : Vec F S256 .f32) (x3 : Vec F S256x256 .f32) (x4 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen
-- ==== Proof.Reg1I.lean ====
/- The first batch-norm region (region 1 of @main) at a symbolic grid point, stated at the buffer contents `V` the
   region is entered with: the body loads a 2000x256 row block and four 256-vectors (column mean, column variance,
   scale, shift) whole, loads the output block (the value is read by nothing), stores one payload over the whole
   output block, and leaves every input as it was. The proof data (`dat1`) name what each staging buffer holds after
   the body (`out1_5` for the output); the body's triple (`sound_kernel1`) gives the body obligation at all 25 points. -/
import proofs.«403320_j14680198218264_1_alg».proof.Proof.LaunchI
import proofs.«403320_j14680198218264_1_alg».proof.Proof.Gen.KernelIdeal.Skeleton
import proofs.«403320_j14680198218264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before it, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before it, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before it, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before it, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before it, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store are of a whole buffer -/

abbrev r1_0 : Rect S2000x256 := Rect.unit (s := S2000x256) ![0, 0] S2000x256.size inb_S2000x256_S2000x256_0_0
abbrev r1_1 : Rect S256 := Rect.unit (s := S256) ![0] S256.size inb_S256_S256_0
abbrev r1_2 : Rect S256 := Rect.unit (s := S256) ![0] S256.size inb_S256_S256_0
abbrev r1_3 : Rect S256 := Rect.unit (s := S256) ![0] S256.size inb_S256_S256_0
abbrev r1_4 : Rect S256 := Rect.unit (s := S256) ![0] S256.size inb_S256_S256_0
abbrev r1_5 : Rect S2000x256 := Rect.unit (s := S2000x256) ![0, 0] S2000x256.size inb_S2000x256_S2000x256_0_0

/-! ## What the body leaves in the output window's buffer -/

/-- Window 5's staging buffer after the body, from the input windows' blocks: its one store as a piece. -/
def out1_5 (x0 : Vec F S2000x256 .f32) (x1 x2 x3 x4 : Vec F S256 .f32) : Vec F S2000x256 .f32 :=
  View.canon [⟨r1_5, k1_pay1 (View.ld x0 r1_0) (View.ld x1 r1_1) (View.ld x2 r1_2) (View.ld x3 r1_3) (View.ld x4 r1_4)⟩]

/-- The store is of the whole buffer, so it covers it. -/
theorem cover1_5 (p0 : Vec F S2000x256 .f32) (y : S2000x256.Idx) :
    ∃ pc ∈ ([⟨r1_5, p0⟩] : List (View.Piece (Elt F) S2000x256 .f32)), y ∈ pc.1.set :=
  View.cover_of_tiled [⟨r1_5, p0⟩] S2000x256.size (by rfl) y

/-! ## The body's triple -/

set_option maxHeartbeats 1000000 in
/-- The kernel body on whole staging memrefs, the inputs' at read contents `xW` and the output's at anything, runs to
    the continuation holding the inputs' as they were and the output's at `out1_5` of the inputs'. The body also
    loads the output buffer before it stores to it; what it loads is read by nothing. -/
theorem sound_kernel1 (c : Dev nD) (E : Set ℕ) (i : grid1.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 x2 x3 x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Reg2I.lean ====
/- The second perceptron region (region 2 of @main) at a symbolic grid point, stated at the buffer contents `V` the
   region is entered with: the body loads the five input blocks whole, loads the output block (the value is read by
   nothing), stores one payload over the whole output block, and leaves every input block as it was. The proof data
   (`dat2`) name what each staging buffer holds after the body (`out2_5` for the output); the body's triple
   (`sound_kernel2`) is proved once for all 25 points and gives the body obligation (`body_obligation2`). -/
import proofs.«403320_j14680198218264_1_alg».proof.Proof.LaunchI
import proofs.«403320_j14680198218264_1_alg».proof.Proof.Gen.KernelIdeal.Skeleton
import proofs.«403320_j14680198218264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole, as one unit-stride rectangle from the origin -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S256 := Rect.unit (s := S256) ![0] S256.size inb_S256_S256_0
abbrev r2_3 : Rect S256x256 := Rect.unit (s := S256x256) ![0, 0] S256x256.size inb_S256x256_S256x256_0_0
abbrev r2_4 : Rect S256 := Rect.unit (s := S256) ![0] S256.size inb_S256_S256_0
abbrev r2_5 : Rect S2000x256 := Rect.unit (s := S2000x256) ![0, 0] S2000x256.size inb_S2000x256_S2000x256_0_0

/-! ## What the body leaves in the output window's buffer -/

/-- Window 5's staging buffer after the body, from the input windows' blocks: its one store, the payload
    `k2_pay1` of the five loaded blocks over the whole buffer. -/
def out2_5 (x0 : Vec F S2000x256 .f32) (x1 : Vec F S256x256 .f32) (x2 : Vec F S256 .f32) (x3 : Vec F S256x256 .f32) (x4 : Vec F S256 .f32) : Vec F S2000x256 .f32 :=
  View.canon [⟨r2_5, k2_pay1 (View.ld x0 r2_0) (View.ld x1 r2_1) (View.ld x2 r2_2) (View.ld x3 r2_3) (View.ld x4 r2_4)⟩]

/-- The store's rectangle is the whole buffer, so it covers it. -/
theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

/-! ## The body's triple -/

set_option maxHeartbeats 4000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg0 : Memref sig .tc .vmem S2000x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S2000x256 .f32) (harg5 : arg5.IsWhole)
    (x0 : Vec F S2000x256 .f32) (x1 : Vec F S256x256 .f32) (x2 : Vec F S256 .f32) (x3 : Vec F S256x256 .f32) (x4 : Vec F S256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and the output's at `out2_5` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen
-- ==== Proof.Reg3I.lean ====
/- The second batch-norm region (region 3 of @main) at a symbolic grid point, stated at the buffer contents `V` the
   region is entered with: the body loads a 2000x256 row block and four 256-vectors (column mean, column variance,
   scale, shift) whole, loads the output block (the value is read by nothing), stores one payload over the whole
   output block, and leaves every input as it was. The proof data (`dat3`) name what each staging buffer holds after
   the body (`out3_5` for the output); the body's triple (`sound_kernel3`) gives the body obligation at all 25 points. -/
import proofs.«403320_j14680198218264_1_alg».proof.Proof.LaunchI
import proofs.«403320_j14680198218264_1_alg».proof.Proof.Gen.KernelIdeal.Skeleton
import proofs.«403320_j14680198218264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): an unfetched point has the
    block index of the point before it, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): an unfetched point has the
    block index of the point before it, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): an unfetched point has the
    block index of the point before it, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): an unfetched point has the
    block index of the point before it, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): an unfetched point has the
    block index of the point before it, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store are of a whole buffer -/

abbrev r3_0 : Rect S2000x256 := Rect.unit (s := S2000x256) ![0, 0] S2000x256.size inb_S2000x256_S2000x256_0_0
abbrev r3_1 : Rect S256 := Rect.unit (s := S256) ![0] S256.size inb_S256_S256_0
abbrev r3_2 : Rect S256 := Rect.unit (s := S256) ![0] S256.size inb_S256_S256_0
abbrev r3_3 : Rect S256 := Rect.unit (s := S256) ![0] S256.size inb_S256_S256_0
abbrev r3_4 : Rect S256 := Rect.unit (s := S256) ![0] S256.size inb_S256_S256_0
abbrev r3_5 : Rect S2000x256 := Rect.unit (s := S2000x256) ![0, 0] S2000x256.size inb_S2000x256_S2000x256_0_0

/-! ## What the body leaves in the output window's buffer -/

/-- Window 5's staging buffer after the body, from the input windows' blocks: its one store as a piece. -/
def out3_5 (x0 : Vec F S2000x256 .f32) (x1 x2 x3 x4 : Vec F S256 .f32) : Vec F S2000x256 .f32 :=
  View.canon [⟨r3_5, k3_pay1 (View.ld x0 r3_0) (View.ld x1 r3_1) (View.ld x2 r3_2) (View.ld x3 r3_3) (View.ld x4 r3_4)⟩]

/-- The store is of the whole buffer, so it covers it. -/
theorem cover3_5 (p0 : Vec F S2000x256 .f32) (y : S2000x256.Idx) :
    ∃ pc ∈ ([⟨r3_5, p0⟩] : List (View.Piece (Elt F) S2000x256 .f32)), y ∈ pc.1.set :=
  View.cover_of_tiled [⟨r3_5, p0⟩] S2000x256.size (by rfl) y

/-! ## The body's triple -/

set_option maxHeartbeats 1000000 in
/-- The kernel body on whole staging memrefs, the inputs' at read contents `xW` and the output's at anything, runs to
    the continuation holding the inputs' as they were and the output's at `out3_5` of the inputs'. The body also
    loads the output buffer before it stores to it; what it loads is read by nothing. -/
theorem sound_kernel3 (c : Dev nD) (E : Set ℕ) (i : grid3.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 x2 x3 x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' memrefs hold their blocks (`before3_W`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Reg4I.lean ====
/- The pooling and fully-connected region (region 4 of @main) at a symbolic grid point. Two accumulators live across
   the 25 points in the kernel's own buffers — 256x256 one-hot-weighted row sums and 256x1 segment counts (`acc4`,
   `cnt4`) —, zeroed at the first point and stepped at every point; the last point stores their mean through the fully
   connected layer into the output window, idle before. Proved: the body's triple in its three cases, the invariant
   carrying the accumulators (`Phi4`, `dat4`), the body obligation, and the entailments around it (`hin4`, `hout4`). -/
import proofs.«403320_j14680198218264_1_alg».proof.Proof.LaunchI
import proofs.«403320_j14680198218264_1_alg».proof.Proof.Gen.KernelIdeal.Skeleton
import proofs.«403320_j14680198218264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and every store is of a whole buffer -/

abbrev r4_0 : Rect S2000x256 := Rect.unit (s := S2000x256) ![0, 0] S2000x256.size inb_S2000x256_S2000x256_0_0
abbrev r4_1 : Rect S2000x1 := Rect.unit (s := S2000x1) ![0, 0] S2000x1.size inb_S2000x1_S2000x1_0_0
abbrev r4_2 : Rect S256x64 := Rect.unit (s := S256x64) ![0, 0] S256x64.size inb_S256x64_S256x64_0_0
abbrev r4_3 : Rect S64 := Rect.unit (s := S64) ![0] S64.size inb_S64_S64_0
abbrev r4_a : Rect S256x256 := Rect.unit (s := S256x256) ![0, 0] S256x256.size inb_S256x256_S256x256_0_0
abbrev r4_n : Rect S256x1 := Rect.unit (s := S256x1) ![0, 0] S256x1.size inb_S256x1_S256x1_0_0

/-! ## The body's branch conditions -/

/-- The condition of the body's first `scf.if` (the reset of the accumulators), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second `scf.if` (the output's store), from the grid coordinate. -/
abbrev cond4_1 (i : grid4.Coords) : Prop := k4_cond2 i = 1#1
/-- It holds at the last point only — decided over the grid. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle, and where the output is written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the output window is idle (the body stores nothing into it) -/
theorem idleAt4_4 : ∀ t : Fin cfg4.N, ¬cond4_1 (grid4.coords t) → cfg4.idle 4 (grid4.coords t) = true := by decide +kernel
/-- and is not written back; -/
theorem noFlush4_4 : ∀ t : Fin cfg4.N, ¬cond4_1 (grid4.coords t) → (cfg4.win 4).flush t = false := by decide +kernel
/-- at the last point it is live. -/
theorem liveAt4_4 : ∀ t : Fin cfg4.N, cond4_1 (grid4.coords t) → cfg4.idle 4 (grid4.coords t) = false := by decide +kernel

/-! ## The stores cover their buffers -/

/-- The one store into the 256x256 accumulator covers it; -/
theorem cover4_a (p : Vec F S256x256 .f32) (y : S256x256.Idx) :
    ∃ pc ∈ ([⟨r4_a, p⟩] : List (View.Piece (Elt F) S256x256 .f32)), y ∈ pc.1.set :=
  View.cover_of_tiled [⟨r4_a, p⟩] S256x256.size (by rfl) y
/-- the one into the 256x1 accumulator covers it; -/
theorem cover4_n (p : Vec F S256x1 .f32) (y : S256x1.Idx) :
    ∃ pc ∈ ([⟨r4_n, p⟩] : List (View.Piece (Elt F) S256x1 .f32)), y ∈ pc.1.set :=
  View.cover_of_tiled [⟨r4_n, p⟩] S256x1.size (by rfl) y
/-- the one into the output window's buffer covers it. -/
theorem cover4_o (p : Vec F S256x64 .f32) (y : S256x64.Idx) :
    ∃ pc ∈ ([⟨r4_2, p⟩] : List (View.Piece (Elt F) S256x64 .f32)), y ∈ pc.1.set :=
  View.cover_of_tiled [⟨r4_2, p⟩] S256x64.size (by rfl) y

/-! ## One step of each accumulator, and the output -/

/-- The 256x256 accumulator after a point that found it at `a`, the point's blocks being `x0` (rows) and `x1` (segment ids). -/
def accStep4 (x0 : Vec F S2000x256 .f32) (x1 : Vec F S2000x1 .i32) (a : Vec F S256x256 .f32) : Vec F S256x256 .f32 :=
  View.canon [⟨r4_a, k4_pay4 (View.ld x0 r4_0) (View.ld x1 r4_1) (View.ld a r4_a)⟩]
/-- The 256x1 accumulator after a point that found it at `b`. -/
def cntStep4 (x1 : Vec F S2000x1 .i32) (b : Vec F S256x1 .f32) : Vec F S256x1 .f32 :=
  View.canon [⟨r4_n, k4_pay5 (View.ld x1 r4_1) (View.ld b r4_n)⟩]
/-- What the first point's reset leaves in the accumulators: zeros. -/
def accZero4 : Vec F S256x256 .f32 := View.canon [⟨r4_a, k4_pay1 (F := F)⟩]
def cntZero4 : Vec F S256x1 .f32 := View.canon [⟨r4_n, k4_pay2 (F := F)⟩]
/-- What the last point stores into the output window's buffer, from the accumulators `a`, `b` as that point leaves them
    and the blocks of the weight `x2` and the bias `x3`. -/
def outStep4 (a : Vec F S256x256 .f32) (b : Vec F S256x1 .f32) (x2 : Vec F S256x64 .f32) (x3 : Vec F S64 .f32) : Vec F S256x64 .f32 :=
  View.canon [⟨r4_2, k4_pay6 (View.ld a r4_a) (View.ld b r4_n) (View.ld x2 r4_2) (View.ld x3 r4_3)⟩]

/-- Every index of the 256x256 accumulator lies in its one store's rectangle; -/
theorem mem4_a (y : S256x256.Idx) : y ∈ r4_a.set := by
  obtain ⟨pc, hm, hy⟩ := View.cover_of_tiled (Val := fun _ => PUnit) (e := .f32) [⟨r4_a, fun _ => ⟨⟩⟩] S256x256.size (by rfl) y
  rw [List.mem_singleton] at hm; subst hm; exact hy
/-- and likewise of the 256x1 accumulator. -/
theorem mem4_n (y : S256x1.Idx) : y ∈ r4_n.set := by
  obtain ⟨pc, hm, hy⟩ := View.cover_of_tiled (Val := fun _ => PUnit) (e := .f32) [⟨r4_n, fun _ => ⟨⟩⟩] S256x1.size (by rfl) y
  rw [List.mem_singleton] at hm; subst hm; exact hy

/-- After the reset's store and the step's store the 256x256 accumulator reads as the step's payload: the second store
    covers the first. -/
theorem read_two4_a (v : View sig .tc .vmem S256x256 .f32) (f : v.ty.Contents (Elt F)) (w w' : r4_a.shape.Idx → Elt F .f32) :
    v.read (Elt F) (v.writes (Elt F) f [⟨r4_a, w⟩, ⟨r4_a, w'⟩]) = View.canon [⟨r4_a, w⟩] :=
  (View.read_writes_of_cover_last v f v f ⟨r4_a, w⟩ [⟨r4_a, w'⟩] [] mem4_a).trans (View.read_writes_eq_canon v f [⟨r4_a, w⟩] (cover4_a w))
/-- Likewise the 256x1 accumulator. -/
theorem read_two4_n (v : View sig .tc .vmem S256x1 .f32) (f : v.ty.Contents (Elt F)) (w w' : r4_n.shape.Idx → Elt F .f32) :
    v.read (Elt F) (v.writes (Elt F) f [⟨r4_n, w⟩, ⟨r4_n, w'⟩]) = View.canon [⟨r4_n, w⟩] :=
  (View.read_writes_of_cover_last v f v f ⟨r4_n, w⟩ [⟨r4_n, w'⟩] [] mem4_n).trans (View.read_writes_eq_canon v f [⟨r4_n, w⟩] (cover4_n w))

/-! ## The body's triple, case by case -/

set_option maxHeartbeats 1000000 in
/-- A MIDDLE point (neither conditional taken): the accumulators, found at `a` and `b`, each take one step; the inputs'
    buffers and the output window's are left as found. -/
theorem sound_kernel4_mid (c : Dev nD) (E : Set ℕ) (i : grid4.Coords) (hc0 : ¬cond4_0 i) (hc1 : ¬cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32) (xo : Vec F S256x64 .f32)
    (a : Vec F S256x256 .f32) (b : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo
        ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (accStep4 x0 x1 a)
            ∗ owns (c : Thread nD τ) arg7 fullShare (cntStep4 x1 b)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns accStep4 cntStep4
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1; subst hf2; subst hf3; subst hf4; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover4_a _)
  iexists _; isplitr
  swap; · iexact H7
  ipureintro; exact View.read_writes_eq_canon _ _ _ (cover4_n _)

set_option maxHeartbeats 1000000 in
/-- The FIRST point (the reset taken, the output's store not): the accumulators, found at anything, are reset to zeros and
    then each take one step; the inputs' buffers and the output window's are left as found. -/
theorem sound_kernel4_first (c : Dev nD) (E : Set ℕ) (i : grid4.Coords) (hc0 : cond4_0 i) (hc1 : ¬cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32) (xo : Vec F S256x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo
        ∗ (∃ a, owns (c : Thread nD τ) arg6 fullShare a) ∗ (∃ b, owns (c : Thread nD τ) arg7 fullShare b)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xo
            ∗ owns (c : Thread nD τ) arg6 fullShare (accStep4 x0 x1 accZero4)
            ∗ owns (c : Thread nD τ) arg7 fullShare (cntStep4 x1 cntZero4)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns accStep4 cntStep4 accZero4 cntZero4
  iintro ⟨⟨%f1, %hf1, H1⟩, ⟨%f2, %hf2, H2⟩, ⟨%f3, %hf3, H3⟩, ⟨%f4, %hf4, H4⟩, ⟨%f5, %hf5, H5⟩, ⟨%a, %f6, -, H6⟩, ⟨%b, %f7, -, H7⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon_ld _ _ r4_a (cover4_a _)]
    exact read_two4_a arg6.view f6 _ _
  iexists _; isplitr
  swap; · iexact H7
  ipureintro
  sl_unfold_run_names
  rw [View.readCov_eq_canon_ld _ _ r4_n (cover4_n _)]
  exact read_two4_n arg7.view f7 _ _

set_option maxHeartbeats 1000000 in
/-- The LAST point (the reset not taken, the output's store taken): the accumulators, found at `a` and `b`, each take one
    step, and the output window's buffer, found at anything, is stored whole from the accumulators as that step leaves them. -/
theorem sound_kernel4_last (c : Dev nD) (E : Set ℕ) (i : grid4.Coords) (hc0 : ¬cond4_0 i) (hc1 : cond4_1 i)
    (arg1 : Memref sig .tc .vmem S2000x256 .f32) (harg1 : arg1.IsWhole) (arg2 : Memref sig .tc .vmem S2000x1 .i32) (harg2 : arg2.IsWhole)
    (arg3 : Memref sig .tc .vmem S256x64 .f32) (harg3 : arg3.IsWhole) (arg4 : Memref sig .tc .vmem S64 .f32) (harg4 : arg4.IsWhole)
    (arg5 : Memref sig .tc .vmem S256x64 .f32) (harg5 : arg5.IsWhole) (arg6 : Memref sig .tc .vmem S256x256 .f32) (harg6 : arg6.IsWhole)
    (arg7 : Memref sig .tc .vmem S256x1 .f32) (harg7 : arg7.IsWhole)
    (x0 : Vec F S2000x256 .f32) (x1 : Vec F S2000x1 .i32) (x2 : Vec F S256x64 .f32) (x3 : Vec F S64 .f32)
    (a : Vec F S256x256 .f32) (b : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ xo, owns (c : Thread nD τ) arg5 fullShare xo)
        ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (outStep4 (accStep4 x0 x1 a) (cntStep4 x1 b) x2 x3)
            ∗ owns (c : Thread nD τ) arg6 fullShare (accStep4 x0 x1 a)
            ∗ owns (c : Thread nD τ) arg7 fullShare (cntStep4 x1 b)) -∗ K ⟨⟩))
      ⊢ wp frame (wpE (defs₀ (F := F)) Variants.none c none) E (cc4__pool_fc_kernel i arg1 harg1 arg2 harg2 arg3 harg3 arg4 harg4 arg5 harg5 arg6 harg6 arg7 harg7) K := by
  simp only [cc4__pool_fc_kernel_eq_skeleton]; unfold cc4__pool_fc_kernel_skel
  unfold owns outStep4 accStep4 cntStep4
  iintro ⟨⟨%f1, %hf1, H1⟩, ⟨%f2, %hf2, H2⟩, ⟨%f3, %hf3, H3⟩, ⟨%f4, %hf4, H4⟩, ⟨%xo, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.readCov_eq_canon_ld _ _ r4_a (cover4_a _), View.readCov_eq_canon_ld _ _ r4_n (cover4_n _)]
    exact View.read_writes_eq_canon _ _ _ (cover4_o _)
  isplitl [H6]
  · iexists _; isplitr
    swap; · iexact H6
    ipureintro
    sl_unfold_run_names
    exact View.read_writes_eq_canon _ _ _ (cover4_a _)
  iexists _; isplitr
  swap; · iexact H7
  ipureintro
  sl_unfold_run_names
  exact View.read_writes_eq_canon _ _ _ (cover4_n _)

/-! ## The accumulators, point by point -/

/-- The 256x256 accumulator's contents after the first `n` points: zeros, then one step per point over that point's
    blocks of the rows (window 0) and of the segment ids (window 1). -/
def acc4 (c : Dev nD) : ℕ → Vec F S256x256 .f32
  | 0 => accZero4
  | n + 1 => if h : n < cfg4.N then accStep4 (iblk4 V c 0 ⟨n, h⟩) (iblk4 V c 1 ⟨n, h⟩) (acc4 c n) else acc4 c n

/-- The 256x1 accumulator's contents after the first `n` points. -/
def cnt4 (c : Dev nD) : ℕ → Vec F S256x1 .f32
  | 0 => cntZero4
  | n + 1 => if h : n < cfg4.N then cntStep4 (iblk4 V c 1 ⟨n, h⟩) (cnt4 c n) else cnt4 c n

theorem acc4_zero (c : Dev nD) : acc4 V c 0 = View.canon [⟨r4_a, k4_pay1 (F := F)⟩] := rfl

theorem acc4_succ (c : Dev nD) (n : ℕ) (h : n < cfg4.N) :
    acc4 V c (n + 1) = View.canon [⟨r4_a, k4_pay4 (View.ld (iblk4 V c 0 ⟨n, h⟩) r4_0) (View.ld (iblk4 V c 1 ⟨n, h⟩) r4_1) (View.ld (acc4 V c n) r4_a)⟩] := by
  rw [acc4, dif_pos h]; rfl

theorem cnt4_zero (c : Dev nD) : cnt4 V c 0 = View.canon [⟨r4_n, k4_pay2 (F := F)⟩] := rfl

theorem cnt4_succ (c : Dev nD) (n : ℕ) (h : n < cfg4.N) :
    cnt4 V c (n + 1) = View.canon [⟨r4_n, k4_pay5 (View.ld (iblk4 V c 1 ⟨n, h⟩) r4_1) (View.ld (cnt4 V c n) r4_n)⟩] := by
  rw [cnt4, dif_pos h]; rfl

/-- The step at a grid point, -/
theorem acc4_step (c : Dev nD) (t : Fin cfg4.N) : acc4 V c (t.val + 1) = accStep4 (iblk4 V c 0 t) (iblk4 V c 1 t) (acc4 V c t.val) := by
  rw [acc4, dif_pos t.isLt]
theorem cnt4_step (c : Dev nD) (t : Fin cfg4.N) : cnt4 V c (t.val + 1) = cntStep4 (iblk4 V c 1 t) (cnt4 V c t.val) := by
  rw [cnt4, dif_pos t.isLt]
/-- at the first one from zeros. -/
theorem acc4_at_zero (c : Dev nD) (n : ℕ) (hz : n = 0) : acc4 V c n = accZero4 := by subst hz; rfl
theorem cnt4_at_zero (c : Dev nD) (n : ℕ) (hz : n = 0) : cnt4 V c n = cntZero4 := by subst hz; rfl

/-! ## The invariant: the two scratch buffers, the rest of the scoped buffers, the generator register -/

/-- The scratch operands: whole scoped buffers of the kernel's own, passed beside the windows. -/
abbrev scM4_0 : Memref sig .tc .vmem S256x256 .f32 := Memref.whole cc4_scratch0
abbrev scM4_1 : Memref sig .tc .vmem S256x1 .f32 := Memref.whole cc4_scratch1

/-- The two scratch buffers before point `n`: before the first at anything, afterwards at the accumulators' contents
    after the first `n` points. -/
def scr4 (c : Dev nD) : ℕ → sProp 𝕄
  | 0 => iprop((∃ a, owns (c : Thread nD τ) scM4_0 fullShare a) ∗ (∃ b, owns (c : Thread nD τ) scM4_1 fullShare b))
  | n + 1 => iprop(owns (c : Thread nD τ) scM4_0 fullShare (acc4 V c (n + 1)) ∗ owns (c : Thread nD τ) scM4_1 fullShare (cnt4 V c (n + 1)))

theorem scr4_zero (c : Dev nD) (n : ℕ) (hz : n = 0) :
    scr4 V c n = iprop((∃ a, owns (c : Thread nD τ) scM4_0 fullShare a) ∗ (∃ b, owns (c : Thread nD τ) scM4_1 fullShare b)) := by
  subst hz; rfl

theorem scr4_pos (c : Dev nD) (n : ℕ) (hz : n ≠ 0) :
    scr4 V c n = iprop(owns (c : Thread nD τ) scM4_0 fullShare (acc4 V c n) ∗ owns (c : Thread nD τ) scM4_1 fullShare (cnt4 V c n)) := by
  cases n with
  | zero => exact absurd rfl hz
  | succ n => rfl

/-- The region invariant before point `n`: the two scratch buffers (`scr4`), every other scoped buffer that is no
    staging buffer of this pipeline at some contents, and the generator register at some state. -/
def Phi4 (c : Dev nD) (n : ℕ) : sProp 𝕄 :=
  iprop(scr4 V c n
    ∗ Pipeline.scopedRestBut (Ix := Unit) (Name := ℕ) (U := UR sig nD τ) (Lvl := ℕ) (Val := Elt F) spec4 c [cc4_scratch0, cc4_scratch1]
    ∗ ∃ r, prngReg c r)

/-! ## The pipeline's proof data -/

/-- The proof data of pipeline 4 on core `c`: the arrays as the region finds them (`V`); after the body at point `t`
    each input's buffer at its block, and the output's — live at the last point only — at what that point stores: the
    output step over the accumulators after all 25 points; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outStep4 (acc4 V c 25) (cnt4 V c 25) (iblk4 V c 2 t) (iblk4 V c 3 t)
  Φ t := Phi4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = outStep4 (acc4 V c 25) (cnt4 V c 25) (iblk4 V c 2 t) (iblk4 V c 3 t) := by dsimp only [dat4]

/-- The invariant at a point's start and at its end. -/
theorem Phi4_castSucc (c : Dev nD) (t : Fin cfg4.N) : (dat4 V c).Φ t.castSucc = Phi4 V c t.val := by
  dsimp only [dat4]; simp only [Fin.coe_castSucc]
theorem Phi4_succ (c : Dev nD) (t : Fin cfg4.N) : (dat4 V c).Φ t.succ = Phi4 V c (t.val + 1) := by
  dsimp only [dat4]; simp only [Fin.val_succ]

/-- Each input's current staging buffer holds its block at every point, fetched there or not: unfetched, the block
    index has not moved; the inputs are uncut and never idle. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- An input window's buffer is left at its block. -/
theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (iblk4 V c 3 t) := by
  unfold Dat.leavesExact; rw [liveAt4_3 t, after4_3]
/-- The output window's buffer: before the last point handed back as found, at the last point at the output step. -/
theorem leaves4_4_idle (c : Dev nD) (t : Fin cfg4.N) (hc1 : ¬cond4_1 (grid4.coords t)) :
    (dat4 V c).leavesExact 4 t = iprop(∃ d, owns (c : Thread nD τ) (st4_4 t) fullShare ((dat4 V c).before 4 t d)) :=
  Dat.leavesExact_idle (dat4 V c) 4 t (idleAt4_4 t hc1) (noFlush4_4 t hc1)
theorem leaves4_4_live (c : Dev nD) (t : Fin cfg4.N) (hc1 : cond4_1 (grid4.coords t)) :
    (dat4 V c).leavesExact 4 t = owns (c : Thread nD τ) (st4_4 t) fullShare (outStep4 (acc4 V c 25) (cnt4 V c 25) (iblk4 V c 2 t) (iblk4 V c 3 t)) := by
  unfold Dat.leavesExact; rw [liveAt4_4 t hc1, after4_4]

set_option maxHeartbeats 1000000 in
/-- The body at any point. The inputs' memrefs hold their blocks (`before4_W`); the closed forms of the two conditions say
    which of the three cases the point is in. The invariant hands the body the two scratch buffers — at anything at the
    first point, else at the accumulators after the points before — and takes them back one step further; the rest of the
    scoped buffers, the generator register and the core's `owes` pass through unread. The output window's buffer is handed
    back untouched before the last point, and at the last point is left at the output step over the accumulators after
    all 25 points. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    Phi4_castSucc, Phi4_succ, leaves4_0, leaves4_1, leaves4_2, leaves4_3]
  unfold Phi4
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [leaves4_4_idle V c t hc1, scr4_zero V c _ h0, scr4_pos V c _ (Nat.succ_ne_zero _), acc4_step, cnt4_step,
      acc4_at_zero V c _ h0, cnt4_at_zero V c _ h0]
    iintro ⟨⟨⟨HS0, HS1⟩, Hr, Hg⟩, Ho, ⟨%d0, H0⟩, ⟨%d1, H1⟩, ⟨%d2, H2⟩, ⟨%d3, H3⟩, ⟨%d4, H4⟩⟩
    iapply (sound_kernel4_first c Set.univ (grid4.coords t) hc0 hc1 _ _ _ _ _ _ _ _ _ _ _ _ _ _
      (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  · have hc0 : ¬cond4_0 (grid4.coords t) := fun h => h0 ((hcond4_0 t).mp h)
    by_cases h1 : t.val = 24
    · have hc1 : cond4_1 (grid4.coords t) := (hcond4_1 t).mpr h1
      have e25 : t.val + 1 = 25 := by omega
      rw [leaves4_4_live V c t hc1, scr4_pos V c _ h0, scr4_pos V c _ (Nat.succ_ne_zero _), ← e25, acc4_step, cnt4_step]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_last c Set.univ (grid4.coords t) hc0 hc1 _ _ _ _ _ _ _ _ _ _ _ _ _ _
        (iblk4 V c 0 t) (iblk4 V c 1 t) (iblk4 V c 2 t) (iblk4 V c 3 t) (acc4 V c t.val) (cnt4 V c t.val) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [leaves4_4_idle V c t hc1, scr4_pos V c _ h0, scr4_pos V c _ (Nat.succ_ne_zero _), acc4_step, cnt4_step]
      iintro ⟨⟨⟨HS0, HS1⟩, Hr, Hg⟩, Ho, ⟨%d0, H0⟩, ⟨%d1, H1⟩, ⟨%d2, H2⟩, ⟨%d3, H3⟩, ⟨%d4, H4⟩⟩
      iapply (sound_kernel4_mid c Set.univ (grid4.coords t) hc0 hc1 _ _ _ _ _ _ _ _ _ _ _ _ _ _
        (iblk4 V c 0 t) (iblk4 V c 1 t) (iblk4 V c 2 t) (iblk4 V c 3 t) ((dat4 V c).before 4 t d4) (acc4 V c t.val) (cnt4 V c t.val) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the region is entered with — the generator register, (the prefetched tables: none, whatever stands for them
    is dropped) and the scoped buffers no window stages — is the invariant before the first point: the scoped rest split
    at the two scratch buffers, each whole at some contents. -/
theorem hin4 (c : Dev nD) (T : sProp 𝕄) :
    iprop((∃ r, prngReg c r) ∗ T
        ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl]; unfold Phi4
  rw [scopedRest4_split, scr4_zero V c 0 rfl]
  simp only [owns_whole]
  iintro ⟨Hp, -, ⟨H0, H1⟩, Hr⟩
  isplitl [H0 H1]
  · isplitl [H0]; · iexact H0
    iexact H1
  isplitl [Hr]; · iexact Hr
  iexact Hp

/-- After the last point the invariant gives back the generator register, no semaphore of the kernel's own, and the
    scoped buffers no window stages: the accumulators' named contents are forgotten. -/
theorem hout4 (c : Dev nD) :
    (dat4 V c).Φ (Fin.last cfg4.N)
      ⊢ iprop((∃ r, prngReg c r) ∗ (Pipeline.ownSems0 (fun k : PEmpty => k.elim) c : sProp 𝕄)
        ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c 25 from rfl]; unfold Phi4
  rw [scopedRest4_split, scr4_pos V c 25 (by decide)]
  simp only [owns_whole]
  iintro ⟨⟨H0, H1⟩, Hr, Hp⟩
  isplitl [Hp]; · iexact Hp
  isplitr; · iempintro
  isplitl [H0 H1]
  · isplitl [H0]; · iexists _; iexact H0
    iexists _; iexact H1
  iexact Hr

end Cert.KernelIdeal.Gen

end
-- ==== Proof.RunI.lean ====
import proofs.«403320_j14680198218264_1_alg».proof.Proof.LaunchI
import proofs.«403320_j14680198218264_1_alg».proof.Proof.Reg0I
import proofs.«403320_j14680198218264_1_alg».proof.Proof.Reg1I
import proofs.«403320_j14680198218264_1_alg».proof.Proof.Reg2I
import proofs.«403320_j14680198218264_1_alg».proof.Proof.Reg3I
import proofs.«403320_j14680198218264_1_alg».proof.Proof.Reg4I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its nine segments

@main is four stretches of host operations and five kernel regions: `hostOps0 ; region 0 ; hostOps1 ; region 1 ;
hostOps2 ; region 2 ; hostOps3 ; region 3 ; region 4`. The TensorCore's buffer contents are folded through the nine
segments from the launch memory (`W0 … W9`), each region a segment between two of those valuations. Every weakly fair
execution terminates with every unscoped reference at `W9` (`run_all`); each argument array, read back through the
fold, is its launch contents (`W9_main_argJ`): the frame claim (`frame`). -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_c, main_v5, main_v6, main_c_0, main_v7, main_v8, main_v9, main_v10, main_v11, main_cst, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_1, main_v17, main_cst_2, main_v18, main_v19, main_v20, main_v21, main_v22, main_v23, main_cst_3, main_v24, main_cst_4, main_v25, main_v26]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_5, main_v28, main_v29, main_c_6, main_v30, main_v31, main_v32, main_v33, main_v34, main_cst_7, main_v35, main_v36, main_v37, main_v38]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_cst_8, main_v40, main_cst_9, main_v41, main_v42, main_v43, main_v44, main_v45, main_v46, main_cst_10, main_v47, main_cst_11, main_v48, main_v49]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered it (an input array is never written). -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered it (an input array is never written). -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference `hostOps2` does not write holds after it what it held before. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered it (an input array is never written). -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A reference `hostOps3` does not write holds after it what it held before. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered it (an input array is never written). -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves (the inputs as entered, the output's write-backs
    folded: `Dat.arrAt … N`), every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- An input window's array leaves region 4 as it entered it (an input array is never written). -/
theorem W9_in (c : Dev nD) (w : Fin cfg4.W) (hin : (cfg4.win w).isOut = false) :
    W9 m ρ c (Proc.devRef .tc (Pipeline.arrRef spec4 w)) = W8 m ρ c (Proc.devRef .tc (Pipeline.arrRef spec4 w)) :=
  (W9_arr m ρ c w).trans (((dat4 (V8 m ρ) c).arrAt_in w hin _).trans (A_eq4 (V8 m ρ) c w))
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`). -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- The result array at the end is what region 4's pipeline leaves in its output window. -/
theorem W9_main_v51 (c : Dev nD) : W9 m ρ c (Proc.devRef .tc main_v51) = (dat4 (V8 m ρ) c).arrAt 4 cfg4.N :=
  W9_arr m ρ c 4

/-! ### The arguments end as launched: no host operation writes one, and a region reads it through an input window
    or bypasses it, so the fold at an argument's buffer walks back to the launch memory -/
theorem W9_main_arg0 (c : Dev nD) : W9 m ρ c (Proc.devRef .tc main_arg0) = m ((c : Thread nD τ).loc main_arg0) :=
  (W9_of_ne m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans rfl
theorem W9_main_arg1 (c : Dev nD) : W9 m ρ c (Proc.devRef .tc main_arg1) = m ((c : Thread nD τ).loc main_arg1) :=
  (W9_of_ne m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of_ne m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of_ne m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans rfl
theorem W9_main_arg4 (c : Dev nD) : W9 m ρ c (Proc.devRef .tc main_arg4) = m ((c : Thread nD τ).loc main_arg4) :=
  (W9_of_ne m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 2 rfl).trans <|
  (W1_of m ρ c main_arg4 (by decide)).trans rfl
theorem W9_main_arg5 (c : Dev nD) : W9 m ρ c (Proc.devRef .tc main_arg5) = m ((c : Thread nD τ).loc main_arg5) :=
  (W9_of_ne m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_in m ρ c 3 rfl).trans <|
  (W1_of m ρ c main_arg5 (by decide)).trans rfl
theorem W9_main_arg6 (c : Dev nD) : W9 m ρ c (Proc.devRef .tc main_arg6) = m ((c : Thread nD τ).loc main_arg6) :=
  (W9_of_ne m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_in m ρ c 4 rfl).trans <|
  (W1_of m ρ c main_arg6 (by decide)).trans rfl
theorem W9_main_arg7 (c : Dev nD) : W9 m ρ c (Proc.devRef .tc main_arg7) = m ((c : Thread nD τ).loc main_arg7) :=
  (W9_of_ne m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_in m ρ c 3 rfl).trans <|
  (W3_of m ρ c main_arg7 (by decide)).trans <|
  (W2_of_ne m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of_ne m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_in m ρ c 4 rfl).trans <|
  (W3_of m ρ c main_arg8 (by decide)).trans <|
  (W2_of_ne m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of_ne m ρ c main_arg9 (by decide)).trans <|
  (W8_of_ne m ρ c main_arg9 (by decide)).trans <|
  (W7_of m ρ c main_arg9 (by decide)).trans <|
  (W6_in m ρ c 1 rfl).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of_ne m ρ c main_arg10 (by decide)).trans <|
  (W8_of_ne m ρ c main_arg10 (by decide)).trans <|
  (W7_of m ρ c main_arg10 (by decide)).trans <|
  (W6_in m ρ c 2 rfl).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W9_main_arg11 (c : Dev nD) : W9 m ρ c (Proc.devRef .tc main_arg11) = m ((c : Thread nD τ).loc main_arg11) :=
  (W9_of_ne m ρ c main_arg11 (by decide)).trans <|
  (W8_of_ne m ρ c main_arg11 (by decide)).trans <|
  (W7_of m ρ c main_arg11 (by decide)).trans <|
  (W6_in m ρ c 3 rfl).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W9_main_arg12 (c : Dev nD) : W9 m ρ c (Proc.devRef .tc main_arg12) = m ((c : Thread nD τ).loc main_arg12) :=
  (W9_of_ne m ρ c main_arg12 (by decide)).trans <|
  (W8_of_ne m ρ c main_arg12 (by decide)).trans <|
  (W7_of m ρ c main_arg12 (by decide)).trans <|
  (W6_in m ρ c 4 rfl).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W9_main_arg13 (c : Dev nD) : W9 m ρ c (Proc.devRef .tc main_arg13) = m ((c : Thread nD τ).loc main_arg13) :=
  (W9_of_ne m ρ c main_arg13 (by decide)).trans <|
  (W8_in m ρ c 3 rfl).trans <|
  (W7_of m ρ c main_arg13 (by decide)).trans <|
  (W6_of_ne m ρ c main_arg13 (by decide)).trans <|
  (W5_of m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl
theorem W9_main_arg14 (c : Dev nD) : W9 m ρ c (Proc.devRef .tc main_arg14) = m ((c : Thread nD τ).loc main_arg14) :=
  (W9_of_ne m ρ c main_arg14 (by decide)).trans <|
  (W8_in m ρ c 4 rfl).trans <|
  (W7_of m ρ c main_arg14 (by decide)).trans <|
  (W6_of_ne m ρ c main_arg14 (by decide)).trans <|
  (W5_of m ρ c main_arg14 (by decide)).trans <|
  (W4_of_ne m ρ c main_arg14 (by decide)).trans <|
  (W3_of m ρ c main_arg14 (by decide)).trans <|
  (W2_of_ne m ρ c main_arg14 (by decide)).trans <|
  (W1_of m ρ c main_arg14 (by decide)).trans rfl
theorem W9_main_arg15 (c : Dev nD) : W9 m ρ c (Proc.devRef .tc main_arg15) = m ((c : Thread nD τ).loc main_arg15) :=
  (W9_in m ρ c 2 rfl).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of_ne m ρ c main_arg15 (by decide)).trans <|
  (W3_of m ρ c main_arg15 (by decide)).trans <|
  (W2_of_ne m ρ c main_arg15 (by decide)).trans <|
  (W1_of m ρ c main_arg15 (by decide)).trans rfl
theorem W9_main_arg16 (c : Dev nD) : W9 m ρ c (Proc.devRef .tc main_arg16) = m ((c : Thread nD τ).loc main_arg16) :=
  (W9_in m ρ c 3 rfl).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of_ne m ρ c main_arg16 (by decide)).trans <|
  (W3_of m ρ c main_arg16 (by decide)).trans <|
  (W2_of_ne m ρ c main_arg16 (by decide)).trans <|
  (W1_of m ρ c main_arg16 (by decide)).trans rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 (custom_call 0) over the thread state: entered from every unscoped buffer at `W1`, left at `W2`. Its
    arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`. Its
    arrays split out of the unscoped buffers and put back at the exit contents; the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W7`, left at `W8`. Its
    arrays split out of the unscoped buffers and put back at the exit contents; the generator register into the
    region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W8`, left at `W9`. Its
    arrays split out of the unscoped buffers and put back at the exit contents; the generator register into the
    region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (V8 m ρ) c _
  hout c := hout4 (V8 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]
/-- The segments' fragments of @main, in order. -/
theorem segs_progs : (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()) ] := rfl
/-- @main IS the run of the segments: @main's chain of items, then the segments' run as the chain of their fragments. -/
theorem main_run (c : Dev nD) : main (F := F) c = Pipeline.Seg.run (segs m ρ) := by
  rw [main_chain c, Pipeline.Seg.run_eq_chain, segs_progs]

set_option backward.isDefEq.respectTransparency.types false in
/-- THE RUN: at the compiled mesh, from any memory with zero counters, every weakly fair execution of @main on the
    TensorCores terminates, nothing faulting, and every final state holds at every unscoped reference the last
    boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: at the compiled mesh, from any memory with zero counters, every weakly fair execution of @main on the
    TensorCores terminates, nothing faulting, and every final state has the argument arrays as launched: each
    argument's buffer is an unscoped reference, read off `W9` and walked back through the fold (`W9_main_argJ`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c)⟩) (run_all m ρ)

end Cert.KernelIdeal.Gen

end
-- ==== Proof.RefRun.lean ====
/- The reference's run and its stages read at an index: the generated modules, gathered for the value modules to import. -/
import proofs.«403320_j14680198218264_1_alg».proof.Proof.Gen.ReferenceIdeal.Run
import proofs.«403320_j14680198218264_1_alg».proof.Proof.Gen.ReferenceIdeal.Read
-- ==== Proof.PoolLaw.lean ====
import proofs.«403320_j14680198218264_1_alg».proof.Proof.Gen.KernelIdeal.Skeleton
import proofs.«403320_j14680198218264_1_alg».proof.Proof.RefRun
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

/-! Global mean pool and final linear layer: the pooling kernel's accumulation over the 25 row blocks
    against the reference's segment sums and segment counts, at the ideal values. -/

noncomputable section

namespace Cert.Bridge.Pool

open Idealize.ShloMosaic Idealize.SL.Sem Idealize.ShloMosaic.ValueIdx

/-! ## Words and literals -/

/-- The f32 word of 1.0 is the extended real one. -/
theorem ofBits_one_f32 : Ideal.ofBits .f32 0x3F800000#32 = 1 := by
  simp [Ideal.ofBits, Ideal.ieee]
  rw [← EReal.coe_mul]
  norm_num

/-- The bf16 word of 1.0 is the extended real one. -/
theorem ofBits_one_bf16 : Ideal.ofBits .bf16 0x3F80#16 = 1 := by
  simp [Ideal.ofBits, Ideal.ieee]
  rw [← EReal.coe_mul]
  norm_num

/-- A comparison bit widened to 32 bits and converted to a float is one or zero. -/
theorem sitofp_extui_cmpi_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have e : ((IntOp.cmpi .eq a b).setWidth 32).toInt = 1 := by
      subst h; simp [IntOp.cmpi]
    rw [e, if_pos h]; simp
  · have e : ((IntOp.cmpi .eq a b).setWidth 32).toInt = 0 := by
      have hb : (a == b) = false := by simpa using h
      simp [IntOp.cmpi, hb]
    rw [e, if_neg h]; simp

section KernelSide

open Cert.KernelIdeal Cert.KernelIdeal.Gen

/-! ## The kernel's payloads at an index -/

/-- The one-hot block: row r has a one in the column of its graph id, zeros elsewhere. -/
theorem onehot_apply (v6 : Vec Ideal S2000x1 .i32) (r : Fin 2000) (g : Fin 256) :
    k4_pay3 (F := Ideal) v6 (ix2 r g) = if v6 (ix2 r (0 : Fin 1)) = BitVec.ofNat 32 g.val then (1 : EReal) else 0 := by
  unfold k4_pay3
  have e9 : broadcastTo S2000x256 (shapeCast S2000x1 v6 shapeCasts_S2000x1_S2000x1) broadcasts_S2000x1_S2000x256 (ix2 r g)
      = v6 (ix2 r (0 : Fin 1)) := by
    rw [shapeCast_self]
    exact broadcastTo_apply v6 broadcasts_S2000x1_S2000x256 (ix2 r g) (ix2 r (0 : Fin 1)) (fun a => match a with
      | ⟨0, _⟩ => by show r.val = if (2000 : Nat) = 1 then 0 else r.val; rw [if_neg (by decide)]
      | ⟨1, _⟩ => by show 0 = if (1 : Nat) = 1 then 0 else g.val; rw [if_pos rfl])
  have e8 : iota .tc S2000x256 32 [1] iota_S2000x256_d1_w32 (ix2 r g) = BitVec.ofNat 32 g.val :=
    iota_single_apply .tc S2000x256 32 1 iota_S2000x256_d1_w32 (ix2 r g)
  show FloatOps.sitofp (F := Ideal) .f32 ((IntOp.cmpi .eq
    (broadcastTo S2000x256 (shapeCast S2000x1 v6 shapeCasts_S2000x1_S2000x1) broadcasts_S2000x1_S2000x256 (ix2 r g))
    (iota .tc S2000x256 32 [1] iota_S2000x256_d1_w32 (ix2 r g))).setWidth 32) = _
  rw [e9, e8]
  exact sitofp_extui_cmpi_eq _ _

theorem lhs_acc_0 (i : S256x256.Idx) (q : dot_S2000x256_S2000x256_S256x256_0_0_1_1_n_n.contr.Idx) :
    (dot_S2000x256_S2000x256_S256x256_0_0_1_1_n_n.lhsIdx i q 0).val = (q ⟨0, by decide⟩).val :=
  dot_S2000x256_S2000x256_S256x256_0_0_1_1_n_n.lhsIdx_val_of_single rfl i q
theorem lhs_acc_1 (i : S256x256.Idx) (q : dot_S2000x256_S2000x256_S256x256_0_0_1_1_n_n.contr.Idx) :
    (dot_S2000x256_S2000x256_S256x256_0_0_1_1_n_n.lhsIdx i q 1).val = (i 0).val := by
  unfold DotDims.lhsIdx
  rw [dif_neg (show ¬(1 : Fin S2000x256.rank) ∈ dot_S2000x256_S2000x256_S256x256_0_0_1_1_n_n.lhsBatch by decide), dif_pos (show (1 : Fin S2000x256.rank) ∈ dot_S2000x256_S2000x256_S256x256_0_0_1_1_n_n.lhsNonContracting by decide)]
  rfl
theorem rhs_acc_0 (i : S256x256.Idx) (q : dot_S2000x256_S2000x256_S256x256_0_0_1_1_n_n.contr.Idx) :
    (dot_S2000x256_S2000x256_S256x256_0_0_1_1_n_n.rhsIdx i q 0).val = (q ⟨0, by decide⟩).val :=
  dot_S2000x256_S2000x256_S256x256_0_0_1_1_n_n.rhsIdx_val_of_single rfl i q
theorem rhs_acc_1 (i : S256x256.Idx) (q : dot_S2000x256_S2000x256_S256x256_0_0_1_1_n_n.contr.Idx) :
    (dot_S2000x256_S2000x256_S256x256_0_0_1_1_n_n.rhsIdx i q 1).val = (i 1).val := by
  unfold DotDims.rhsIdx
  rw [dif_neg (show ¬(1 : Fin S2000x256.rank) ∈ dot_S2000x256_S2000x256_S256x256_0_0_1_1_n_n.rhsBatch by decide), dif_pos (show (1 : Fin S2000x256.rank) ∈ dot_S2000x256_S2000x256_S256x256_0_0_1_1_n_n.rhsNonContracting by decide)]
  rfl

/-- The sums' update: the accumulator plus, over the block's 2000 rows, the one-hot entry times the row's feature. -/
theorem pay4_apply (v3 : Vec Ideal S2000x256 .f32) (v6 : Vec Ideal S2000x1 .i32) (v15 : Vec Ideal S256x256 .f32) (g k : Fin 256) :
    k4_pay4 (F := Ideal) v3 v6 v15 (ix2 g k)
      = v15 (ix2 g k) + ∑ y : Fin 2000, k4_pay3 (F := Ideal) v6 (ix2 y g) * v3 (ix2 y k) := by
  unfold k4_pay4
  simp only [shapeCast_self]
  refine (congrArg (v15 (ix2 g k) + ·) (Ideal.matmul_constant_zero_apply dot_S2000x256_S2000x256_S256x256_0_0_1_1_n_n none
    (k4_pay3 (F := Ideal) v6) (truncf .bf16 v3 bitsLt_bf16_f32) (ix2 g k))).trans ?_
  refine congrArg (v15 (ix2 g k) + ·) ?_
  rw [← Equiv.sum_comp (contrEquiv1 dot_S2000x256_S2000x256_S256x256_0_0_1_1_n_n 2000 rfl rfl).symm]
  refine Finset.sum_congr rfl fun y _ => ?_
  have hy := contrEquiv1_symm_val dot_S2000x256_S2000x256_S256x256_0_0_1_1_n_n 2000 rfl rfl y
  have el : dot_S2000x256_S2000x256_S256x256_0_0_1_1_n_n.lhsIdx (ix2 g k) ((contrEquiv1 dot_S2000x256_S2000x256_S256x256_0_0_1_1_n_n 2000 rfl rfl).symm y) = ix2 y g := funext fun a => Fin.ext (by
    match a with
    | ⟨0, _⟩ => exact (lhs_acc_0 _ _).trans hy
    | ⟨1, _⟩ => exact lhs_acc_1 _ _)
  have er : dot_S2000x256_S2000x256_S256x256_0_0_1_1_n_n.rhsIdx (ix2 g k) ((contrEquiv1 dot_S2000x256_S2000x256_S256x256_0_0_1_1_n_n 2000 rfl rfl).symm y) = ix2 y k := funext fun a => Fin.ext (by
    match a with
    | ⟨0, _⟩ => exact (rhs_acc_0 _ _).trans hy
    | ⟨1, _⟩ => exact rhs_acc_1 _ _)
  rw [el, er]
  rfl

/-- A column broadcast to a matrix reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_cnt_0 (i : S256x1.Idx) (q : dot_S2000x256_S2000x1_S256x1_0_0_1_1_n_n.contr.Idx) :
    (dot_S2000x256_S2000x1_S256x1_0_0_1_1_n_n.lhsIdx i q 0).val = (q ⟨0, by decide⟩).val :=
  dot_S2000x256_S2000x1_S256x1_0_0_1_1_n_n.lhsIdx_val_of_single rfl i q
theorem lhs_cnt_1 (i : S256x1.Idx) (q : dot_S2000x256_S2000x1_S256x1_0_0_1_1_n_n.contr.Idx) :
    (dot_S2000x256_S2000x1_S256x1_0_0_1_1_n_n.lhsIdx i q 1).val = (i 0).val := by
  unfold DotDims.lhsIdx
  rw [dif_neg (show ¬(1 : Fin S2000x256.rank) ∈ dot_S2000x256_S2000x1_S256x1_0_0_1_1_n_n.lhsBatch by decide), dif_pos (show (1 : Fin S2000x256.rank) ∈ dot_S2000x256_S2000x1_S256x1_0_0_1_1_n_n.lhsNonContracting by decide)]
  rfl

/-- The counts' update: the accumulator plus, over the block's 2000 rows, the one-hot entry times one. -/
theorem pay5_apply (v6 : Vec Ideal S2000x1 .i32) (v21 : Vec Ideal S256x1 .f32) (g : Fin 256) :
    k4_pay5 (F := Ideal) v6 v21 (ix2 g (0 : Fin 1))
      = v21 (ix2 g (0 : Fin 1)) + ∑ y : Fin 2000, k4_pay3 (F := Ideal) v6 (ix2 y g) * Ideal.ofBits .bf16 0x3F80#16 := by
  unfold k4_pay5
  simp only [shapeCast_self]
  refine (congrArg (v21 (ix2 g (0 : Fin 1)) + ·) (Ideal.matmul_constant_zero_apply dot_S2000x256_S2000x1_S256x1_0_0_1_1_n_n none
    (k4_pay3 (F := Ideal) v6) (broadcast S2000x1 (Scalar.ofBits (F := Ideal) .bf16 0x3F80#16)) (ix2 g (0 : Fin 1)))).trans ?_
  refine congrArg (v21 (ix2 g (0 : Fin 1)) + ·) ?_
  rw [← Equiv.sum_comp (contrEquiv1 dot_S2000x256_S2000x1_S256x1_0_0_1_1_n_n 2000 rfl rfl).symm]
  refine Finset.sum_congr rfl fun y _ => ?_
  have hy := contrEquiv1_symm_val dot_S2000x256_S2000x1_S256x1_0_0_1_1_n_n 2000 rfl rfl y
  have el : dot_S2000x256_S2000x1_S256x1_0_0_1_1_n_n.lhsIdx (ix2 g (0 : Fin 1)) ((contrEquiv1 dot_S2000x256_S2000x1_S256x1_0_0_1_1_n_n 2000 rfl rfl).symm y) = ix2 y g := funext fun a => Fin.ext (by
    match a with
    | ⟨0, _⟩ => exact (lhs_cnt_0 _ _).trans hy
    | ⟨1, _⟩ => exact lhs_cnt_1 _ _)
  rw [el]
  rfl

theorem lhs_fc_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs_fc_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhs_fc_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhs_fc_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The output block: the sums divided by max(count, 1), times the weights, plus the bias. -/
theorem pay6_apply (v30 : Vec Ideal S256x256 .f32) (v31 : Vec Ideal S256x1 .f32) (v37 : Vec Ideal S256x64 .f32)
    (v40 : Vec Ideal S64 .f32) (g : Fin 256) (o : Fin 64) :
    k4_pay6 (F := Ideal) v30 v31 v37 v40 (ix2 g o)
      = (∑ k : Fin 256, Ideal.div (v30 (ix2 g k)) (max (v31 (ix2 g (0 : Fin 1))) (Ideal.ofBits .f32 0x3F800000#32)) * v37 (ix2 k o))
        + v40 (ix1 o) := by
  unfold k4_pay6
  have eb : broadcastTo S256x64 (shapeCast S1x64 v40 shapeCasts_S64_S1x64) broadcasts_S1x64_S256x64 (ix2 g o) = v40 (ix1 o) :=
    (broadcastTo_1b_ab_apply (shapeCast S1x64 v40 shapeCasts_S64_S1x64) broadcasts_S1x64_S256x64 g o).trans
      (shapeCast_a_1a_apply v40 shapeCasts_S64_S1x64 (0 : Fin 1) o)
  refine (congrArg₂ (· + ·) (Ideal.matmul_constant_zero_apply dot_S256x256_S256x64_S256x64_1_0_0_1_n_n none
    (truncf .bf16 (divf v30 (broadcastTo S256x256 (maximumf v31 (broadcast S256x1 (Scalar.ofBits (F := Ideal) .f32 0x3F800000#32))) broadcasts_S256x1_S256x256)) bitsLt_bf16_f32)
    (truncf .bf16 v37 bitsLt_bf16_f32) (ix2 g o)) eb).trans ?_
  refine congrArg (· + v40 (ix1 o)) ?_
  rw [← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 g o) ((contrEquiv1 dot_S256x256_S256x64_S256x64_1_0_0_1_n_n 256 rfl rfl).symm k) = ix2 g k := funext fun a => Fin.ext (by
    match a with
    | ⟨0, _⟩ => exact lhs_fc_0 _ _
    | ⟨1, _⟩ => exact (lhs_fc_1 _ _).trans hk)
  have er : dot_S256x256_S256x64_S256x64_1_0_0_1_n_n.rhsIdx (ix2 g o) ((contrEquiv1 dot_S256x256_S256x64_S256x64_1_0_0_1_n_n 256 rfl rfl).symm k) = ix2 k o := funext fun a => Fin.ext (by
    match a with
    | ⟨0, _⟩ => exact (rhs_fc_0 _ _).trans hk
    | ⟨1, _⟩ => exact rhs_fc_1 _ _)
  rw [el, er]
  have ec : broadcastTo S256x256 (maximumf v31 (broadcast S256x1 (Scalar.ofBits (F := Ideal) .f32 0x3F800000#32))) broadcasts_S256x1_S256x256 (ix2 g k)
      = max (v31 (ix2 g (0 : Fin 1))) (Ideal.ofBits .f32 0x3F800000#32) :=
    broadcastTo_a1_ab_apply _ broadcasts_S256x1_S256x256 g k
  show Ideal.div (v30 (ix2 g k)) (broadcastTo S256x256 (maximumf v31 (broadcast S256x1 (Scalar.ofBits (F := Ideal) .f32 0x3F800000#32))) broadcasts_S256x1_S256x256 (ix2 g k)) * v37 (ix2 k o) = _
  rw [ec]

/-- The reset of the sums is zero everywhere. -/
theorem pay1_apply (i : S256x256.Idx) : k4_pay1 (F := Ideal) i = 0 := by
  unfold k4_pay1
  rw [shapeCast_self]
  exact Ideal.ofBits_zero_f32

/-- The reset of the counts is zero everywhere. -/
theorem pay2_apply (i : S256x1.Idx) : k4_pay2 (F := Ideal) i = 0 := by
  unfold k4_pay2
  rw [shapeCast_self]
  exact Ideal.ofBits_zero_f32

/-! ## The 25 row blocks as one sum over the 50000 rows -/

/-- A row is a block number and a row inside the block. -/
def rowEquiv : Fin 25 × Fin 2000 ≃ Fin 50000 where
  toFun p := ⟨2000 * p.1.val + p.2.val, by have := p.1.isLt; have := p.2.isLt; omega⟩
  invFun r := (⟨r.val / 2000, by have := r.isLt; omega⟩, ⟨r.val % 2000, by omega⟩)
  left_inv p := by
    have := p.1.isLt
    have := p.2.isLt
    refine Prod.ext (Fin.ext ?_) (Fin.ext ?_)
    · show (2000 * p.1.val + p.2.val) / 2000 = p.1.val
      omega
    · show (2000 * p.1.val + p.2.val) % 2000 = p.2.val
      omega
  right_inv r := Fin.ext (by
    show 2000 * (r.val / 2000) + r.val % 2000 = r.val
    omega)

/-- The row with number 2000 t + y, as a row of the whole array. -/
abbrev rowAt (t y : ℕ) : Fin 50000 := ⟨(2000 * t + y) % 50000, Nat.mod_lt _ (by decide)⟩

/-- Summing block by block, and inside each block row by row, is summing over all the rows. -/
theorem sum_blocks (f : Fin 50000 → EReal) :
    ∑ t ∈ Finset.range 25, ∑ y : Fin 2000, f (rowAt t y.val) = ∑ r : Fin 50000, f r := by
  rw [← Equiv.sum_comp rowEquiv f, Fintype.sum_prod_type, Finset.sum_range]
  refine Finset.sum_congr rfl fun t _ => Finset.sum_congr rfl fun y _ => congrArg f (Fin.ext ?_)
  show (2000 * t.val + y.val) % 50000 = 2000 * t.val + y.val
  have := t.isLt
  have := y.isLt
  omega

/-! ## The scratch contents after n points -/

/-- The n-th block of 2000 rows of the node features. -/
def hblk (H : Vec Ideal S50000x256 .f32) (n : ℕ) : Vec Ideal S2000x256 .f32 :=
  fun y => H (ix2 (rowAt n (y 0).val) (⟨(y 1).val, (y 1).isLt⟩ : Fin 256))

/-- The n-th block of 2000 rows of the graph ids. -/
def bblk (B1 : Vec Ideal S50000x1 .i32) (n : ℕ) : Vec Ideal S2000x1 .i32 :=
  fun y => B1 (ix2 (rowAt n (y 0).val) (⟨(y 1).val, (y 1).isLt⟩ : Fin 1))

/-- The sums scratch after the first n points: reset, then one update per row block. -/
def accK (H : Vec Ideal S50000x256 .f32) (B1 : Vec Ideal S50000x1 .i32) : ℕ → Vec Ideal S256x256 .f32
  | 0 => k4_pay1 (F := Ideal)
  | n + 1 => k4_pay4 (F := Ideal) (hblk H n) (bblk B1 n) (accK H B1 n)

/-- The counts scratch after the first n points. -/
def cntK (B1 : Vec Ideal S50000x1 .i32) : ℕ → Vec Ideal S256x1 .f32
  | 0 => k4_pay2 (F := Ideal)
  | n + 1 => k4_pay5 (F := Ideal) (bblk B1 n) (cntK B1 n)

/-- The kernel's result: the output block computed at the last point from the full sums and counts. -/
def poolK (H : Vec Ideal S50000x256 .f32) (B1 : Vec Ideal S50000x1 .i32) (wfc : Vec Ideal S256x64 .f32)
    (bfc : Vec Ideal S64 .f32) : Vec Ideal S256x64 .f32 :=
  k4_pay6 (F := Ideal) (accK H B1 25) (cntK B1 25) wfc bfc

/-- The sum, over the rows whose graph id is g, of feature k. -/
def segSum (H : Vec Ideal S50000x256 .f32) (B1 : Vec Ideal S50000x1 .i32) (g k : Fin 256) : EReal :=
  ∑ r : Fin 50000, if B1 (ix2 r (0 : Fin 1)) = BitVec.ofNat 32 g.val then H (ix2 r k) else 0

/-- The number of rows whose graph id is g. -/
def segCnt (B1 : Vec Ideal S50000x1 .i32) (g : Fin 256) : EReal :=
  ∑ r : Fin 50000, if B1 (ix2 r (0 : Fin 1)) = BitVec.ofNat 32 g.val then (1 : EReal) else 0

theorem accK_succ_apply (H : Vec Ideal S50000x256 .f32) (B1 : Vec Ideal S50000x1 .i32) (n : ℕ) (g k : Fin 256) :
    accK H B1 (n + 1) (ix2 g k) = accK H B1 n (ix2 g k)
      + ∑ y : Fin 2000, if B1 (ix2 (rowAt n y.val) (0 : Fin 1)) = BitVec.ofNat 32 g.val then H (ix2 (rowAt n y.val) k) else 0 := by
  show k4_pay4 (F := Ideal) (hblk H n) (bblk B1 n) (accK H B1 n) (ix2 g k) = _
  rw [pay4_apply]
  refine congrArg (accK H B1 n (ix2 g k) + ·) (Finset.sum_congr rfl fun y _ => ?_)
  rw [onehot_apply, ite_mul, one_mul, zero_mul]
  rfl

theorem accK_range (H : Vec Ideal S50000x256 .f32) (B1 : Vec Ideal S50000x1 .i32) (g k : Fin 256) : ∀ n : ℕ,
    accK H B1 n (ix2 g k) = ∑ t ∈ Finset.range n, ∑ y : Fin 2000,
      if B1 (ix2 (rowAt t y.val) (0 : Fin 1)) = BitVec.ofNat 32 g.val then H (ix2 (rowAt t y.val) k) else 0
  | 0 => by
    rw [Finset.sum_range_zero]
    exact pay1_apply _
  | n + 1 => by
    rw [accK_succ_apply, accK_range H B1 g k n, Finset.sum_range_succ]

/-- After the 25 points the sums scratch holds the segment sums. -/
theorem accK_total (H : Vec Ideal S50000x256 .f32) (B1 : Vec Ideal S50000x1 .i32) (g k : Fin 256) :
    accK H B1 25 (ix2 g k) = segSum H B1 g k := by
  rw [accK_range]
  exact sum_blocks (fun r => if B1 (ix2 r (0 : Fin 1)) = BitVec.ofNat 32 g.val then H (ix2 r k) else 0)

theorem cntK_succ_apply (B1 : Vec Ideal S50000x1 .i32) (n : ℕ) (g : Fin 256) :
    cntK B1 (n + 1) (ix2 g (0 : Fin 1)) = cntK B1 n (ix2 g (0 : Fin 1))
      + ∑ y : Fin 2000, if B1 (ix2 (rowAt n y.val) (0 : Fin 1)) = BitVec.ofNat 32 g.val then (1 : EReal) else 0 := by
  show k4_pay5 (F := Ideal) (bblk B1 n) (cntK B1 n) (ix2 g (0 : Fin 1)) = _
  rw [pay5_apply]
  refine congrArg (cntK B1 n (ix2 g (0 : Fin 1)) + ·) (Finset.sum_congr rfl fun y _ => ?_)
  rw [onehot_apply, ofBits_one_bf16, mul_one]
  rfl

theorem cntK_range (B1 : Vec Ideal S50000x1 .i32) (g : Fin 256) : ∀ n : ℕ,
    cntK B1 n (ix2 g (0 : Fin 1)) = ∑ t ∈ Finset.range n, ∑ y : Fin 2000,
      if B1 (ix2 (rowAt t y.val) (0 : Fin 1)) = BitVec.ofNat 32 g.val then (1 : EReal) else 0
  | 0 => by
    rw [Finset.sum_range_zero]
    exact pay2_apply _
  | n + 1 => by
    rw [cntK_succ_apply, cntK_range B1 g n, Finset.sum_range_succ]

/-- After the 25 points the counts scratch holds the segment counts. -/
theorem cntK_total (B1 : Vec Ideal S50000x1 .i32) (g : Fin 256) :
    cntK B1 25 (ix2 g (0 : Fin 1)) = segCnt B1 g := by
  rw [cntK_range]
  exact sum_blocks (fun r => if B1 (ix2 r (0 : Fin 1)) = BitVec.ofNat 32 g.val then (1 : EReal) else 0)

/-- The kernel's result at an index, over the segment sums and counts. -/
theorem poolK_apply (H : Vec Ideal S50000x256 .f32) (B1 : Vec Ideal S50000x1 .i32) (wfc : Vec Ideal S256x64 .f32)
    (bfc : Vec Ideal S64 .f32) (g : Fin 256) (o : Fin 64) :
    poolK H B1 wfc bfc (ix2 g o)
      = (∑ k : Fin 256, Ideal.div (segSum H B1 g k) (max (segCnt B1 g) (Ideal.ofBits .f32 0x3F800000#32)) * wfc (ix2 k o))
        + bfc (ix1 o) := by
  unfold poolK
  rw [pay6_apply, cntK_total]
  simp only [accK_total]

end KernelSide

/-! ## The reference's two scatters decided -/

section ReferenceSide

open Cert.ReferenceIdeal Cert.ReferenceIdeal.Read

/-- An update lands on an element exactly when, on every axis, its start plus its window coordinate is the
    element's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      have e := Option.some.inj h
      intro a
      have ha : (d.start j idx a + (d.window j a : Int)).toNat = (i a).val := congrArg (fun f => (f a).val) e
      have := (hc a).1
      omega
    · cases h
  · intro h
    have hc : ∀ a, 0 ≤ d.start j idx a + (d.window j a : Int) ∧ d.start j idx a + (d.window j a : Int) < s.size a := fun a => by
      rw [h a]; exact ⟨Int.natCast_nonneg _, by exact_mod_cast (i a).isLt⟩
    rw [dif_pos hc]
    refine congrArg some (funext fun a => Fin.ext ?_)
    show (d.start j idx a + (d.window j a : Int)).toNat = (i a).val
    rw [h a]; exact Int.toNat_natCast _

/-- A graph id below 256, read signed, is itself. -/
theorem toInt_ofNat_small (g : ℕ) (hg : g < 256) : (BitVec.ofNat 32 g).toInt = (g : Int) := by
  have e := BitVec.toInt_eq_toNat_cond (BitVec.ofNat 32 g)
  have t : (BitVec.ofNat 32 g).toNat = g := by rw [BitVec.toNat_ofNat]; exact Nat.mod_eq_of_lt (by omega)
  rw [t] at e; rw [e]; split <;> omega

/-- A word reads signed as a number below 256 exactly when it is that number's word. -/
theorem toInt_eq_iff (b : BitVec 32) (g : ℕ) (hg : g < 256) : b.toInt = (g : Int) ↔ b = BitVec.ofNat 32 g :=
  ⟨fun h => BitVec.eq_of_toInt_eq (h.trans (toInt_ofNat_small g hg).symm), fun h => h ▸ toInt_ofNat_small g hg⟩

theorem sum_start0 (idx : IVec S50000x1 32) (r : Fin 50000) (c : Fin 256) :
    scatter_S256x256_S50000x1_S50000x256_1_0_0_1.start (ix2 r c) idx 0 = (idx (ix2 r (0 : Fin 1))).toInt := by
  unfold ScatterDims.start
  rw [dif_pos (show (0 : Fin S256x256.rank) ∈ scatter_S256x256_S50000x1_S50000x256_1_0_0_1.scatterDimsToOperandDims by decide)]
  refine congrArg (fun z => (idx z).toInt) (funext fun b => ?_)
  match b with
  | ⟨0, _⟩ => rfl
  | ⟨1, _⟩ => rfl
theorem sum_start1 (idx : IVec S50000x1 32) (r : Fin 50000) (c : Fin 256) :
    scatter_S256x256_S50000x1_S50000x256_1_0_0_1.start (ix2 r c) idx 1 = 0 := by
  unfold ScatterDims.start
  rw [dif_neg (show ¬(1 : Fin S256x256.rank) ∈ scatter_S256x256_S50000x1_S50000x256_1_0_0_1.scatterDimsToOperandDims by decide)]
theorem sum_window0 (r : Fin 50000) (c : Fin 256) :
    scatter_S256x256_S50000x1_S50000x256_1_0_0_1.window (ix2 r c) 0 = 0 := by
  unfold ScatterDims.window
  rw [dif_neg (show ¬(0 : Fin S256x256.rank) ∈ scatter_S256x256_S50000x1_S50000x256_1_0_0_1.sKept by decide)]
theorem sum_window1 (r : Fin 50000) (c : Fin 256) :
    scatter_S256x256_S50000x1_S50000x256_1_0_0_1.window (ix2 r c) 1 = c.val := by
  unfold ScatterDims.window
  rw [dif_pos (show (1 : Fin S256x256.rank) ∈ scatter_S256x256_S50000x1_S50000x256_1_0_0_1.sKept by decide)]
  rfl

/-- Row r, column c of the updates lands on (g, k) exactly when row r's graph id is g and c is k. -/
theorem sum_lands_iff (idx : IVec S50000x1 32) (r : Fin 50000) (c g k : Fin 256) :
    scatter_S256x256_S50000x1_S50000x256_1_0_0_1.resultIdx? (ix2 r c) idx = some (ix2 g k)
      ↔ (idx (ix2 r (0 : Fin 1)) = BitVec.ofNat 32 g.val ∧ c = k) := by
  rw [resultIdx?_eq_some_iff]
  constructor
  · intro h
    have h0 := h 0
    have h1 := h 1
    rw [sum_start0, sum_window0] at h0
    rw [sum_start1, sum_window1] at h1
    have h0' : (idx (ix2 r (0 : Fin 1))).toInt + ((0 : ℕ) : Int) = (g.val : Int) := h0
    have h1' : (0 : Int) + ((c.val : ℕ) : Int) = (k.val : Int) := h1
    exact ⟨(toInt_eq_iff _ g.val g.isLt).1 (by omega), Fin.ext (by omega)⟩
  · rintro ⟨hb, rfl⟩ a
    match a with
    | ⟨0, _⟩ =>
      show scatter_S256x256_S50000x1_S50000x256_1_0_0_1.start (ix2 r c) idx 0
        + (scatter_S256x256_S50000x1_S50000x256_1_0_0_1.window (ix2 r c) 0 : Int) = (g.val : Int)
      rw [sum_start0, sum_window0, hb, toInt_ofNat_small g.val g.isLt]; simp
    | ⟨1, _⟩ =>
      show scatter_S256x256_S50000x1_S50000x256_1_0_0_1.start (ix2 r c) idx 1
        + (scatter_S256x256_S50000x1_S50000x256_1_0_0_1.window (ix2 r c) 1 : Int) = (c.val : Int)
      rw [sum_start1, sum_window1]; simp

/-- The segment-sum scatter at (g, k): the operand there plus the rows whose graph id is g, at feature k. -/
theorem scatterSum_apply (x : S256x256.Idx → EReal) (idx : IVec S50000x1 32) (H : S50000x256.Idx → EReal) (g k : Fin 256) :
    Ideal.hostScatterAdd scatter_S256x256_S50000x1_S50000x256_1_0_0_1 x idx H (ix2 g k)
      = x (ix2 g k) + ∑ r : Fin 50000, if idx (ix2 r (0 : Fin 1)) = BitVec.ofNat 32 g.val then H (ix2 r k) else 0 := by
  unfold Ideal.hostScatterAdd
  refine congrArg (x (ix2 g k) + ·) ?_
  rw [Finset.sum_filter, sum_idx2]
  refine Finset.sum_congr rfl fun r _ => ?_
  simp only [sum_lands_iff]
  by_cases hP : idx (ix2 r (0 : Fin 1)) = BitVec.ofNat 32 g.val
  · simp [hP]
  · simp [hP]

theorem cnt_start0 (idx : IVec S50000x1 32) (r : Fin 50000) :
    scatter_S256_S50000x1_S50000_n_0_0_1.start (ix1 r) idx 0 = (idx (ix2 r (0 : Fin 1))).toInt := by
  unfold ScatterDims.start
  rw [dif_pos (show (0 : Fin S256.rank) ∈ scatter_S256_S50000x1_S50000_n_0_0_1.scatterDimsToOperandDims by decide)]
  refine congrArg (fun z => (idx z).toInt) (funext fun b => ?_)
  match b with
  | ⟨0, _⟩ => rfl
  | ⟨1, _⟩ => rfl
theorem cnt_window0 (r : Fin 50000) : scatter_S256_S50000x1_S50000_n_0_0_1.window (ix1 r) 0 = 0 := by
  unfold ScatterDims.window
  rw [dif_neg (show ¬(0 : Fin S256.rank) ∈ scatter_S256_S50000x1_S50000_n_0_0_1.sKept by decide)]

/-- Row r of the ones lands on g exactly when row r's graph id is g. -/
theorem cnt_lands_iff (idx : IVec S50000x1 32) (r : Fin 50000) (g : Fin 256) :
    scatter_S256_S50000x1_S50000_n_0_0_1.resultIdx? (ix1 r) idx = some (ix1 g)
      ↔ idx (ix2 r (0 : Fin 1)) = BitVec.ofNat 32 g.val := by
  rw [resultIdx?_eq_some_iff]
  constructor
  · intro h
    have h0 := h 0
    rw [cnt_start0, cnt_window0] at h0
    have h0' : (idx (ix2 r (0 : Fin 1))).toInt + ((0 : ℕ) : Int) = (g.val : Int) := h0
    exact (toInt_eq_iff _ g.val g.isLt).1 (by omega)
  · intro hb a
    match a with
    | ⟨0, _⟩ =>
      show scatter_S256_S50000x1_S50000_n_0_0_1.start (ix1 r) idx 0
        + (scatter_S256_S50000x1_S50000_n_0_0_1.window (ix1 r) 0 : Int) = (g.val : Int)
      rw [cnt_start0, cnt_window0, hb, toInt_ofNat_small g.val g.isLt]; simp

/-- The segment-count scatter at g: the operand there plus the updates of the rows whose graph id is g. -/
theorem scatterCnt_apply (x : S256.Idx → EReal) (idx : IVec S50000x1 32) (U : S50000.Idx → EReal) (g : Fin 256) :
    Ideal.hostScatterAdd scatter_S256_S50000x1_S50000_n_0_0_1 x idx U (ix1 g)
      = x (ix1 g) + ∑ r : Fin 50000, if idx (ix2 r (0 : Fin 1)) = BitVec.ofNat 32 g.val then U (ix1 r) else 0 := by
  unfold Ideal.hostScatterAdd
  refine congrArg (x (ix1 g) + ·) ?_
  rw [Finset.sum_filter, ← Equiv.sum_comp (idxEquiv1 (n := 50000)).symm]
  refine Finset.sum_congr rfl fun r _ => ?_
  show (if scatter_S256_S50000x1_S50000_n_0_0_1.resultIdx? (ix1 r) idx = some (ix1 g) then U (ix1 r) else 0) = _
  simp only [cnt_lands_iff]

/-! ## The reference's pooling chain -/

/-- The reference's operations from the segment sums to the result, over the node features H they pool. -/
def poolR (H : (⟨S50000x256, .f32⟩ : BufTy).Contents (Elt Ideal)) (B : (⟨S50000, .i32⟩ : BufTy).Contents (Elt Ideal))
    (wfc : (⟨S256x64, .f32⟩ : BufTy).Contents (Elt Ideal)) (bfc : (⟨S64, .f32⟩ : BufTy).Contents (Elt Ideal)) :
    (⟨S256x64, .f32⟩ : BufTy).Contents (Elt Ideal) :=
  addf (F := Ideal) (φ := .f32) (Host.dotGeneral (F := Ideal) (φ₁ := .f32) (φ₂ := .f32) dot_S256x256_S256x64_S256x64_1_0_0_1_n_n none
    (Host.divf (F := Ideal) (φ := .f32) (Host.scatterAdd (F := Ideal) (φ := .f32) scatter_S256x256_S50000x1_S50000x256_1_0_0_1 (val_main_v96 (F := Ideal)) (val_main_v97 (F := Ideal) B) H)
      (val_main_v106 (F := Ideal) B)) wfc) (val_main_v110 (F := Ideal) bfc)

/-- The reference's result is its pooling chain applied to its last hidden layer. -/
theorem val_main_v111_eq_poolR (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 x13 x14 : (⟨S256, .f32⟩ : BufTy).Contents (Elt Ideal)) (x15 : (⟨S256x64, .f32⟩ : BufTy).Contents (Elt Ideal)) (x16 : (⟨S64, .f32⟩ : BufTy).Contents (Elt Ideal)) :
    val_main_v111 (F := Ideal) x0 x1 x2 x3 x4 x5 x6 x7 x8 x9 x10 x11 x12 x13 x14 x15 x16
      = poolR (val_main_v95 (F := Ideal) x0 x1 x3 x4 x5 x6 x7 x8 x9 x10 x11 x12 x13 x14) x2 x15 x16 := by
  unfold val_main_v111 val_main_v108 val_main_v107 val_main_v98 poolR
  rfl

/-- The final linear layer's product at an index. -/
theorem fc_apply (y0 : (⟨S256x256, .f32⟩ : BufTy).Contents (Elt Ideal)) (w : (⟨S256x64, .f32⟩ : BufTy).Contents (Elt Ideal))
    (g : Fin 256) (o : Fin 64) :
    Host.dotGeneral (F := Ideal) (φ₁ := .f32) (φ₂ := .f32) dot_S256x256_S256x64_S256x64_1_0_0_1_n_n none y0 w (ix2 g o) = ∑ k : Fin 256, y0 (ix2 g k) * w (ix2 k o) := by
  simp only [Host.dotGeneral]
  rw [Ideal.dotGeneral_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 g o) ((contrEquiv1 dot_S256x256_S256x64_S256x64_1_0_0_1_n_n 256 rfl rfl).symm k) = ix2 g k := funext fun a => Fin.ext (by
    match a with
    | ⟨0, _⟩ => exact lhs_main_v108_0 _ _
    | ⟨1, _⟩ => exact (lhs_main_v108_1 _ _).trans hk)
  have er : dot_S256x256_S256x64_S256x64_1_0_0_1_n_n.rhsIdx (ix2 g o) ((contrEquiv1 dot_S256x256_S256x64_S256x64_1_0_0_1_n_n 256 rfl rfl).symm k) = ix2 k o := funext fun a => Fin.ext (by
    match a with
    | ⟨0, _⟩ => exact (rhs_main_v108_0 _ _).trans hk
    | ⟨1, _⟩ => exact rhs_main_v108_1 _ _)
  rw [el, er]

/-- The reference's graph ids as a column: row r holds the id of node r. -/
theorem v97_apply (B : (⟨S50000, .i32⟩ : BufTy).Contents (Elt Ideal)) (r : Fin 50000) (u : Fin 1) :
    val_main_v97 (F := Ideal) B (ix2 r u) = B (ix1 r) := by
  rw [val_main_v97_apply]
  exact congrArg B (funext fun a => match a with | ⟨0, _⟩ => rfl)

/-- The reference's segment sums. -/
theorem refSum_apply (H : (⟨S50000x256, .f32⟩ : BufTy).Contents (Elt Ideal)) (B : (⟨S50000, .i32⟩ : BufTy).Contents (Elt Ideal)) (g k : Fin 256) :
    Host.scatterAdd (F := Ideal) (φ := .f32) scatter_S256x256_S50000x1_S50000x256_1_0_0_1 (val_main_v96 (F := Ideal)) (val_main_v97 (F := Ideal) B) H (ix2 g k)
      = segSum H (val_main_v97 (F := Ideal) B) g k := by
  show Ideal.hostScatterAdd scatter_S256x256_S50000x1_S50000x256_1_0_0_1 (val_main_v96 (F := Ideal)) (val_main_v97 (F := Ideal) B) H (ix2 g k) = _
  rw [scatterSum_apply, val_main_v96_apply, val_main_cst_14_apply]
  show Ideal.ofBits .f32 0x00000000#32 + _ = _
  rw [Ideal.ofBits_zero_f32, zero_add]
  rfl

/-- The reference's divisor: the segment count, at least one. -/
theorem refCnt_apply (B : (⟨S50000, .i32⟩ : BufTy).Contents (Elt Ideal)) (g k : Fin 256) :
    val_main_v106 (F := Ideal) B (ix2 g k) = max (segCnt (val_main_v97 (F := Ideal) B) g) (Ideal.ofBits .f32 0x3F800000#32) := by
  rw [val_main_v106_apply, val_main_v105_apply, val_main_v104_apply, val_main_v103_apply, val_main_cst_17_apply]
  have ei : idx_main_v105 (idx_main_v106 (ix2 g k)) = ix1 g := funext fun a => match a with | ⟨0, _⟩ => rfl
  rw [ei]
  show max (val_main_v102 (F := Ideal) B (ix1 g)) (Ideal.ofBits .f32 0x3F800000#32) = _
  refine congrArg (max · (Ideal.ofBits .f32 0x3F800000#32)) ?_
  unfold val_main_v102
  show Ideal.hostScatterAdd scatter_S256_S50000x1_S50000_n_0_0_1 (val_main_v100 (F := Ideal)) (val_main_v101 (F := Ideal) B) (val_main_v99 (F := Ideal)) (ix1 g) = _
  rw [scatterCnt_apply, val_main_v100_apply, val_main_cst_16_apply]
  show Ideal.ofBits .f32 0x00000000#32 + _ = _
  rw [Ideal.ofBits_zero_f32, zero_add]
  unfold segCnt
  refine Finset.sum_congr rfl fun r _ => ?_
  rw [val_main_v99_apply, val_main_cst_15_apply]
  show (if val_main_v101 (F := Ideal) B (ix2 r (0 : Fin 1)) = BitVec.ofNat 32 g.val then Ideal.ofBits .f32 0x3F800000#32 else 0) = _
  rw [ofBits_one_f32]
  rfl

/-- The chain from the sums X and the divisors Y to the result, at an index. -/
theorem poolR_core (X Y : (⟨S256x256, .f32⟩ : BufTy).Contents (Elt Ideal))
    (wfc : (⟨S256x64, .f32⟩ : BufTy).Contents (Elt Ideal)) (bfc : (⟨S64, .f32⟩ : BufTy).Contents (Elt Ideal)) (g : Fin 256) (o : Fin 64) :
    addf (F := Ideal) (φ := .f32) (Host.dotGeneral (F := Ideal) (φ₁ := .f32) (φ₂ := .f32) dot_S256x256_S256x64_S256x64_1_0_0_1_n_n none
      (Host.divf (F := Ideal) (φ := .f32) X Y) wfc) (val_main_v110 (F := Ideal) bfc) (ix2 g o)
      = (∑ k : Fin 256, Ideal.div (X (ix2 g k)) (Y (ix2 g k)) * wfc (ix2 k o)) + bfc (ix1 o) := by
  refine (congrArg₂ (· + ·) (fc_apply (Host.divf (F := Ideal) (φ := .f32) X Y) wfc g o)
    ((val_main_v110_apply bfc (ix2 g o)).trans (val_main_v109_apply bfc _))).trans ?_
  refine congrArg₂ (· + ·) (Finset.sum_congr rfl fun k _ => rfl) (congrArg bfc (funext fun a => match a with | ⟨0, _⟩ => rfl))

/-- The reference's result at an index, over the segment sums and counts. -/
theorem poolR_apply (H : (⟨S50000x256, .f32⟩ : BufTy).Contents (Elt Ideal)) (B : (⟨S50000, .i32⟩ : BufTy).Contents (Elt Ideal))
    (wfc : (⟨S256x64, .f32⟩ : BufTy).Contents (Elt Ideal)) (bfc : (⟨S64, .f32⟩ : BufTy).Contents (Elt Ideal)) (g : Fin 256) (o : Fin 64) :
    poolR H B wfc bfc (ix2 g o)
      = (∑ k : Fin 256, Ideal.div (segSum H (val_main_v97 (F := Ideal) B) g k)
          (max (segCnt (val_main_v97 (F := Ideal) B) g) (Ideal.ofBits .f32 0x3F800000#32)) * wfc (ix2 k o))
        + bfc (ix1 o) := by
  unfold poolR
  rw [poolR_core]
  simp only [refSum_apply, refCnt_apply]

end ReferenceSide

/-! ## The kernel's pooling is the reference's -/

section Bridge

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The kernel's reshape of the graph ids to a column and the reference's broadcast of them are the same column. -/
theorem ids_column_eq (B : (⟨Cert.ReferenceIdeal.S50000, .i32⟩ : BufTy).Contents (Elt Ideal))
    (h : Cert.KernelIdeal.S50000.ShapeCasts Cert.KernelIdeal.S50000x1) :
    Cert.ReferenceIdeal.Read.val_main_v97 (F := Ideal) B = shapeCast Cert.KernelIdeal.S50000x1 B h := by
  funext i
  obtain ⟨r, u, rfl⟩ : ∃ (r : Fin 50000) (u : Fin 1), i = ix2 r u := ⟨i 0, i 1, eq_ix2 i⟩
  rw [v97_apply]
  exact (shapeCast_a_a1_apply B h r u).symm

/-- The pooling kernel's result, from the graph ids reshaped to a column, is the reference's pooling chain. -/
theorem poolK_eq_poolR (H : (⟨Cert.ReferenceIdeal.S50000x256, .f32⟩ : BufTy).Contents (Elt Ideal))
    (B : (⟨Cert.ReferenceIdeal.S50000, .i32⟩ : BufTy).Contents (Elt Ideal))
    (wfc : (⟨Cert.ReferenceIdeal.S256x64, .f32⟩ : BufTy).Contents (Elt Ideal))
    (bfc : (⟨Cert.ReferenceIdeal.S64, .f32⟩ : BufTy).Contents (Elt Ideal))
    (h : Cert.KernelIdeal.S50000.ShapeCasts Cert.KernelIdeal.S50000x1) :
    poolK H (shapeCast Cert.KernelIdeal.S50000x1 B h) wfc bfc = poolR H B wfc bfc := by
  funext i
  obtain ⟨g, o, rfl⟩ : ∃ (g : Fin 256) (o : Fin 64), i = ix2 g o := ⟨i 0, i 1, eq_ix2 i⟩
  rw [poolK_apply, poolR_apply, ids_column_eq B h]

end Bridge

end Cert.Bridge.Pool

end
-- ==== Proof.Arr4.lean ====
/- FROM THE ONE OUTPUT BLOCK TO THE ARRAY, for region 4 of @main (the pooling and final linear layer): the output
   window's block is the whole 256x64 array at every grid point and is written back once, by the last point; what that
   point stores is the body's last payload of the two accumulators after all 25 points and of the weight and the bias
   read whole. So the output array after the region is that payload (`Gen.arrAt4`). -/
import proofs.«403320_j14680198218264_1_alg».proof.Proof.Reg4I
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered: the parameter the region's half is stated at
variable (V : (c : Dev nD) → (b : Ref sig .tc) → Buf (Elt F) ((c : Thread nD τ).loc b))

/-- The origin of a rank-2 and of a rank-1 rectangle, as the constant function. -/
private theorem origin2 : (![0, 0] : Fin 2 → Nat) = fun _ => 0 := funext fun a => by fin_cases a <;> rfl
private theorem origin1 : (![0] : Fin 1 → Nat) = fun _ => 0 := funext fun a => by fin_cases a <;> rfl

/-- The printed index maps over the grid: the weight's, the bias's and the output's windows stay at block 0. -/
theorem idx_facts4 : ∀ t : Fin cfg4.N, win4_2.index t (0 : Fin 2) = 0 ∧ win4_2.index t (1 : Fin 2) = 0
    ∧ win4_3.index t (0 : Fin 1) = 0
    ∧ win4_4.index t (0 : Fin 2) = 0 ∧ win4_4.index t (1 : Fin 2) = 0 :=
  (by decide +kernel : ∀ t : Fin grid4.N, _)

/-- WHAT A POINT WOULD WRITE BACK is the whole output array at the last payload of the accumulators after all 25
    points and of the weight and bias arrays as the region finds them (the one block is the array). -/
theorem flushed4_eq (c : Dev nD) (t : Fin cfg4.N) :
    (dat4 V c).flushed 4 t = ((cfg4.win 4).blk t).view.read (Elt F) (k4_pay6 (acc4 V c 25) (cnt4 V c 25) (V c main_arg15) (V c main_arg16)) := by
  show (cfg4.win 4).cut (grid4.coords t) ((dat4 V c).after 4 t) = _
  rw [after4_4]
  unfold outStep4
  rw [View.canon_unit_zero origin2]
  simp only [View.ld_unit_zero (S := S256x256) origin2, View.ld_unit_zero (S := S256x1) origin2, View.ld_unit_zero (S := S256x64) origin2, View.ld_unit_zero (S := S64) origin1]
  obtain ⟨e20, e21, e30, e40, e41⟩ := idx_facts4 t
  funext j
  show k4_pay6 (acc4 V c 25) (cnt4 V c 25) (iblk4 V c 2 t) (iblk4 V c 3 t) j
    = k4_pay6 (acc4 V c 25) (cnt4 V c 25) (V c main_arg15) (V c main_arg16) (((cfg4.win 4).blk t).view.emb j)
  have h2 : (iblk4 V c 2 t : Vec F S256x64 .f32) = V c main_arg15 := by
    funext y
    show V c main_arg15 (((cfg4.win 2).blk t).view.emb y) = V c main_arg15 y
    refine congrArg _ (funext fun a => Fin.ext ?_)
    match a with
    | ⟨0, _⟩ => show win4_2.index t (0 : Fin 2) * 256 + 1 * (y 0).val = (y 0).val; omega
    | ⟨1, _⟩ => show win4_2.index t (1 : Fin 2) * 64 + 1 * (y 1).val = (y 1).val; omega
  have h3 : (iblk4 V c 3 t : Vec F S64 .f32) = V c main_arg16 := by
    funext y
    show V c main_arg16 (((cfg4.win 3).blk t).view.emb y) = V c main_arg16 y
    refine congrArg _ (funext fun a => Fin.ext ?_)
    match a with
    | ⟨0, _⟩ => show win4_3.index t (0 : Fin 1) * 64 + 1 * (y 0).val = (y 0).val; omega
  have hj : ((cfg4.win 4).blk t).view.emb j = j := by
    funext a; apply Fin.ext
    match a with
    | ⟨0, _⟩ => show win4_4.index t (0 : Fin 2) * 256 + 1 * (j 0).val = (j 0).val; omega
    | ⟨1, _⟩ => show win4_4.index t (1 : Fin 2) * 64 + 1 * (j 1).val = (j 1).val; omega
  rw [h2, h3, hj]

/-- An index of the output array is in point `t`'s block iff each coordinate is in the block's range on its axis. -/
theorem mem_blk4 (t : Fin cfg4.N) (i : S256x64.Idx) :
    i ∈ ((cfg4.win 4).blk t).view.set ↔ ∀ a : Fin 2, win4_4.index t a * S256x64.size a ≤ (i a).val ∧ (i a).val < win4_4.index t a * S256x64.size a + S256x64.size a := by
  show i ∈ ((View.whole main_v51).slice (win4_4.rect t)).set ↔ _
  rw [View.set_slice_whole, Rect.mem_set_unit]
  exact Iff.rfl

/-- Every index of the output array is in the last point's block, the one point that writes back. -/
theorem cover4 (i : S256x64.Idx) : ∃ t : Fin cfg4.N, (cfg4.win 4).flush t = true ∧ i ∈ ((cfg4.win 4).blk t).view.set := by
  have hi0 : (i 0).val < 256 := (i 0).isLt
  have hi1 : (i 1).val < 64 := (i 1).isLt
  have hN : cfg4.N = 25 := N_4
  let t : Fin cfg4.N := ⟨24, by rw [hN]; omega⟩
  obtain ⟨-, -, -, e40, e41⟩ := idx_facts4 t
  refine ⟨t, (flush4_4 t).mpr rfl, ?_⟩
  rw [mem_blk4]
  intro a
  match a with
  | ⟨0, _⟩ => show win4_4.index t (0 : Fin 2) * 256 ≤ (i 0).val ∧ (i 0).val < win4_4.index t (0 : Fin 2) * 256 + 256; omega
  | ⟨1, _⟩ => show win4_4.index t (1 : Fin 2) * 64 ≤ (i 1).val ∧ (i 1).val < win4_4.index t (1 : Fin 2) * 64 + 64; omega

/-- THE OUTPUT ARRAY after region 4: the body's last payload of the accumulators after all 25 points and of the
    weight and the bias. -/
theorem arrAt4 (c : Dev nD) : (dat4 (F := F) V c).arrAt 4 cfg4.N = k4_pay6 (acc4 V c 25) (cnt4 V c 25) (V c main_arg15) (V c main_arg16) :=
  (dat4 V c).arrAt_eq_of_cover 4 (k4_pay6 (acc4 V c 25) (cnt4 V c 25) (V c main_arg15) (V c main_arg16)) (fun t _ => flushed4_eq V c t) cover4

end Cert.KernelIdeal.Gen
-- ==== Proof.PoolArr.lean ====
import proofs.«403320_j14680198218264_1_alg».proof.Proof.PoolLaw
import proofs.«403320_j14680198218264_1_alg».proof.Proof.Arr4
import Idealize.ShloMosaic.Lib.Pipeline.Value

/-! Region 4's output array is the pooling kernel's result: the two carried scratch buffers, followed point by
    point over the row blocks the windows read, are the value side's recursion. -/

noncomputable section

namespace Cert.Bridge.Pool

open Idealize.ShloMosaic Idealize.SL.Sem Idealize.ShloMosaic.ValueIdx
open Cert.KernelIdeal Cert.KernelIdeal.Gen
open Idealize.ShloMosaic.TcCoe

variable (V : (c : Dev nD) → (b : Ref sig .tc) → Buf (Elt Ideal) ((c : Thread nD τ).loc b))

/-- The whole-buffer accesses start at the origin. -/
theorem origin2 : (![0, 0] : Fin 2 → Nat) = fun _ => 0 :=
  funext fun a => match a with | ⟨0, _⟩ => rfl | ⟨1, _⟩ => rfl

/-! ## The windows' blocks are the row blocks -/

/-- The printed index maps of the two moving windows, decided over the grid: block `t` of the rows, block `0` of the columns. -/
theorem blk_idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What the body loads from window 0's buffer at point `n` is the `n`-th block of 2000 rows of the node features. -/
theorem ld_blk0 (c : Dev nD) (n : ℕ) (h : n < cfg4.N) :
    View.ld (iblk4 V c 0 ⟨n, h⟩) r4_0 = hblk (V c main_v50) n := by
  refine (View.ld_unit_zero (S := S2000x256) origin2 inb_S2000x256_S2000x256_0_0 _).trans ?_
  obtain ⟨e0, e1, -, -⟩ := blk_idx_facts ⟨n, h⟩
  have hn : n < 25 := h
  funext y
  show V c main_v50 (((cfg4.win 0).blk ⟨n, h⟩).view.emb y) = V c main_v50 (ix2 (rowAt n (y 0).val) (⟨(y 1).val, (y 1).isLt⟩ : Fin 256))
  refine congrArg (V c main_v50) (funext fun a => Fin.ext ?_)
  match a with
  | ⟨0, _⟩ =>
    show win4_0.index ⟨n, h⟩ (0 : Fin 2) * 2000 + 1 * (y 0).val = (2000 * n + (y 0).val) % 50000
    have hy : (y 0).val < 2000 := (y 0).isLt
    rw [e0]; show n * 2000 + 1 * (y 0).val = _; omega
  | ⟨1, _⟩ =>
    show win4_0.index ⟨n, h⟩ (1 : Fin 2) * 256 + 1 * (y 1).val = (y 1).val
    rw [e1]; omega

/-- What the body loads from window 1's buffer at point `n` is the `n`-th block of 2000 rows of the graph-id column. -/
theorem ld_blk1 (c : Dev nD) (n : ℕ) (h : n < cfg4.N) :
    View.ld (iblk4 V c 1 ⟨n, h⟩) r4_1 = bblk (V c main_v4) n := by
  refine (View.ld_unit_zero (S := S2000x1) origin2 inb_S2000x1_S2000x1_0_0 _).trans ?_
  obtain ⟨-, -, e0, e1⟩ := blk_idx_facts ⟨n, h⟩
  have hn : n < 25 := h
  funext y
  show V c main_v4 (((cfg4.win 1).blk ⟨n, h⟩).view.emb y) = V c main_v4 (ix2 (rowAt n (y 0).val) (⟨(y 1).val, (y 1).isLt⟩ : Fin 1))
  refine congrArg (V c main_v4) (funext fun a => Fin.ext ?_)
  match a with
  | ⟨0, _⟩ =>
    show win4_1.index ⟨n, h⟩ (0 : Fin 2) * 2000 + 1 * (y 0).val = (2000 * n + (y 0).val) % 50000
    have hy : (y 0).val < 2000 := (y 0).isLt
    rw [e0]; show n * 2000 + 1 * (y 0).val = _; omega
  | ⟨1, _⟩ =>
    show win4_1.index ⟨n, h⟩ (1 : Fin 2) * 1 + 1 * (y 1).val = (y 1).val
    rw [e1]; omega

/-! ## The scratch buffers after n points -/

/-- The sums scratch after n points is the value side's recursion over the row blocks. -/
theorem acc4_eq (c : Dev nD) : ∀ n : ℕ, n ≤ 25 → acc4 (F := Ideal) V c n = accK (V c main_v50) (V c main_v4) n
  | 0, _ => by
    rw [acc4_zero]
    exact View.canon_unit_zero origin2 _ _
  | n + 1, hn => by
    have h : n < cfg4.N := lt_of_lt_of_eq (by omega : n < 25) (show cfg4.N = 25 from N_4).symm
    rw [acc4_succ V c n h, View.canon_unit_zero origin2, ld_blk0 V c n h, ld_blk1 V c n h, View.ld_unit_zero origin2,
      acc4_eq c n (by omega)]
    rfl

/-- The counts scratch after n points is the value side's recursion over the row blocks. -/
theorem cnt4_eq (c : Dev nD) : ∀ n : ℕ, n ≤ 25 → cnt4 (F := Ideal) V c n = cntK (V c main_v4) n
  | 0, _ => by
    rw [cnt4_zero]
    exact View.canon_unit_zero origin2 _ _
  | n + 1, hn => by
    have h : n < cfg4.N := lt_of_lt_of_eq (by omega : n < 25) (show cfg4.N = 25 from N_4).symm
    rw [cnt4_succ V c n h, View.canon_unit_zero origin2, ld_blk1 V c n h, View.ld_unit_zero origin2,
      cnt4_eq c n (by omega)]
    rfl

/-! ## The output array -/

/-- After the region the output array holds the pooling kernel's result. -/
theorem arrAt4 (c : Dev nD) :
    (dat4 (F := Ideal) V c).arrAt 4 cfg4.N = poolK (V c main_v50) (V c main_v4) (V c main_arg15) (V c main_arg16) := by
  rw [Cert.KernelIdeal.Gen.arrAt4 (F := Ideal) V c, acc4_eq V c 25 (le_refl _), cnt4_eq V c 25 (le_refl _)]
  rfl

end Cert.Bridge.Pool

end
-- ==== Proof.HostLaw.lean ====
/- The host stretches of the kernel's program, as functions of the buffers they read. Between two kernel regions the
   program runs a straight line of host operations; what the line leaves in a buffer a later region reads is one
   function of the buffers the line reads, whatever it starts from: the neighbour-sum aggregation
   x + Σ_{edges into a node} x[source] (128 and 256 columns), the column means and column variances of a 50000x256
   array (twice), the edge list's two rows, and the graph ids as a column. -/
import proofs.«403320_j14680198218264_1_alg».proof.Proof.LaunchI

noncomputable section

namespace Cert.Bridge.Host

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the 2x800000 edge list. -/
def srcK (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000
/-- The edges' destination nodes: row 1 of the edge list. -/
def dstK (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000
/-- A negative node index counted from the end: s + 50000 where s < 0, else s. -/
def wrapK (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s
/-- x plus, at every node, the sum of the rows of x at the sources of the edges arriving there (128 columns). -/
def aggK1 (x0 : (⟨S50000x128, .f32⟩ : BufTy).Contents (Elt F)) (s d : (⟨S800000, .i32⟩ : BufTy).Contents (Elt F)) :
    (⟨S50000x128, .f32⟩ : BufTy).Contents (Elt F) :=
  addf x0 (Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x0
      (broadcastInDim S800000x1 ![0] bcast_S800000_S800000x1_0 (wrapK s))))
/-- The same aggregation over 256 columns. -/
def aggK2 (H : (⟨S50000x256, .f32⟩ : BufTy).Contents (Elt F)) (s d : (⟨S800000, .i32⟩ : BufTy).Contents (Elt F)) :
    (⟨S50000x256, .f32⟩ : BufTy).Contents (Elt F) :=
  addf H (Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 H
      (broadcastInDim S800000x1 ![0] bcast_S800000_S800000x1_0 (wrapK s))))
/-- The column means of a 50000x256 array: the column sums divided by 50000. -/
def meanK (H : (⟨S50000x256, .f32⟩ : BufTy).Contents (Elt F)) : (⟨S256, .f32⟩ : BufTy).Contents (Elt F) :=
  Host.divf (Host.reduceAdd H (constant S_ .f32 0x00000000#32) reducesTo_S50000x256_S256_d0 h_S_)
    (broadcastInDim S256 ![] bcast_S_S256 (constant S_ .f32 0x47435000#32))
/-- The column variances: the column means of the squared deviations from the column means. -/
def varK (H : (⟨S50000x256, .f32⟩ : BufTy).Contents (Elt F)) : (⟨S256, .f32⟩ : BufTy).Contents (Elt F) :=
  Host.divf (Host.reduceAdd
      (mulf (subf H (broadcastInDim S50000x256 ![0, 1] bcast_S1x256_S50000x256_0_1 (broadcastInDim S1x256 ![1] bcast_S256_S1x256_1 (meanK H))))
            (subf H (broadcastInDim S50000x256 ![0, 1] bcast_S1x256_S50000x256_0_1 (broadcastInDim S1x256 ![1] bcast_S256_S1x256_1 (meanK H)))))
      (constant S_ .f32 0x00000000#32) reducesTo_S50000x256_S256_d0 h_S_)
    (broadcastInDim S256 ![] bcast_S_S256 (constant S_ .f32 0x47435000#32))

theorem host0_v1 (V : Valuation τ sig (Elt F)) :
    (StableHlo.after hostOps0 V main_v1 : (⟨S800000, .i32⟩ : BufTy).Contents (Elt F)) = srcK (V main_arg1) := by
  after_results
  rfl
theorem host0_v3 (V : Valuation τ sig (Elt F)) :
    (StableHlo.after hostOps0 V main_v3 : (⟨S800000, .i32⟩ : BufTy).Contents (Elt F)) = dstK (V main_arg1) := by
  after_results
  rfl
theorem host0_v4 (V : Valuation τ sig (Elt F)) :
    (StableHlo.after hostOps0 V main_v4 : (⟨S50000x1, .i32⟩ : BufTy).Contents (Elt F))
      = shapeCast S50000x1 (V main_arg2 : (⟨S50000, .i32⟩ : BufTy).Contents (Elt F)) shapeCasts_S50000_S50000x1 := by
  after_results_simp
  rfl
set_option maxHeartbeats 4000000 in
theorem host0_v15 (V : Valuation τ sig (Elt F)) :
    (StableHlo.after hostOps0 V main_v15 : (⟨S50000x128, .f32⟩ : BufTy).Contents (Elt F))
      = aggK1 (V main_arg0) (srcK (V main_arg1)) (dstK (V main_arg1)) := by
  after_results_simp
  rfl
theorem host1_mean (V : Valuation τ sig (Elt F)) :
    (StableHlo.after hostOps1 V main_v19 : (⟨S256, .f32⟩ : BufTy).Contents (Elt F)) = meanK (V main_v16) := by
  after_results
  rfl
theorem host1_var (V : Valuation τ sig (Elt F)) :
    (StableHlo.after hostOps1 V main_v26 : (⟨S256, .f32⟩ : BufTy).Contents (Elt F)) = varK (V main_v16) := by
  after_results
  rfl
set_option maxHeartbeats 4000000 in
theorem host2_v38 (V : Valuation τ sig (Elt F)) :
    (StableHlo.after hostOps2 V main_v38 : (⟨S50000x256, .f32⟩ : BufTy).Contents (Elt F))
      = aggK2 (V main_v27) (V main_v1) (V main_v3) := by
  after_results_simp
  rfl
theorem host3_mean (V : Valuation τ sig (Elt F)) :
    (StableHlo.after hostOps3 V main_v42 : (⟨S256, .f32⟩ : BufTy).Contents (Elt F)) = meanK (V main_v39) := by
  after_results
  rfl
theorem host3_var (V : Valuation τ sig (Elt F)) :
    (StableHlo.after hostOps3 V main_v49 : (⟨S256, .f32⟩ : BufTy).Contents (Elt F)) = varK (V main_v39) := by
  after_results
  rfl

end Cert.Bridge.Host

end
-- ==== Proof.Arr02.lean ====
/- FROM BLOCKS TO THE ARRAY, for regions 0 and 2 of @main (the two MLP kernels): the region's output array after its
   25 grid points, as ONE function of the five arrays the region finds (`Gen.blockval0`, `Gen.blockval2`). Point `t`
   writes back the body's payload of row block `t` of the first operand and of the four whole parameter arrays; the
   output's row blocks tile the array (row `r` lies in block `r / 2000`), so the array ends holding, at row `r` and
   column `q`, the payload of the block that holds `r`, read at `(r % 2000, q)` (`Gen.arrAt0`, `Gen.arrAt2`). -/
import proofs.«403320_j14680198218264_1_alg».proof.Proof.Reg0I
import proofs.«403320_j14680198218264_1_alg».proof.Proof.Reg2I
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when a region is entered: the parameter both regions' halves are stated at
variable (V : (c : Dev nD) → (b : Ref sig .tc) → Buf (Elt F) ((c : Thread nD τ).loc b))

/-- The origin of a rank-2 and of a rank-1 rectangle, as the constant function. -/
theorem hz_2 : (![0, 0] : Fin 2 → Nat) = fun _ => 0 := funext fun a => by fin_cases a <;> rfl
theorem hz_1 : (![0] : Fin 1 → Nat) = fun _ => 0 := funext fun a => by fin_cases a <;> rfl

/-- Where index `i` of a 50000x256 array sits inside its 2000-row block: row `i 0 % 2000`, the same column. -/
abbrev inBlock (i : S50000x256.Idx) : S2000x256.Idx := fun a => match a with
  | ⟨0, _⟩ => ⟨(i 0).val % 2000, Nat.mod_lt _ (by decide)⟩
  | ⟨1, _⟩ => ⟨(i 1).val, (i 1).isLt⟩

/-! # Region 0: the output array after the region, as one function of the arrays the region finds -/

/-- Row `y 0` of the 2000-row block that holds row `i 0`: row `2000 · (i 0 / 2000) + y 0` of the 50000-row array,
    the column kept. -/
abbrev blockRow0 (i : S50000x256.Idx) (y : S2000x128.Idx) : S50000x128.Idx := fun a => match a with
  | ⟨0, _⟩ => ⟨2000 * ((i 0).val / 2000) + (y 0).val, by have hi : (i 0).val < 50000 := (i 0).isLt; have hy : (y 0).val < 2000 := (y 0).isLt; show 2000 * ((i 0).val / 2000) + (y 0).val < 50000; omega⟩
  | ⟨1, _⟩ => ⟨(y 1).val, (y 1).isLt⟩

/-- The output array of region 0 as a function of its five input arrays, index by index: at row `r`, column `q` the
    body's payload of the 2000-row block of `a0` that holds `r` and of the four whole arrays, read at
    `(r % 2000, q)`. -/
def blockval0 (a0 : (⟨S50000x128, .f32⟩ : BufTy).Contents (Elt F)) (a1 : (⟨S128x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F)) : S50000x256.Idx → Elt F .f32 :=
  fun i => k0_pay1 (fun y => a0 (blockRow0 i y)) a1 a2 a3 a4 (inBlock i)

theorem blockval0_apply (a0 : (⟨S50000x128, .f32⟩ : BufTy).Contents (Elt F)) (a1 : (⟨S128x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F)) (i : S50000x256.Idx) :
    blockval0 a0 a1 a2 a3 a4 i = k0_pay1 (fun y => a0 (blockRow0 i y)) a1 a2 a3 a4 (inBlock i) := rfl

/-- At the row of the block where `i` sits, the block's row is `i`'s own. -/
theorem blockRow0_inBlock_val (i : S50000x256.Idx) (y : S2000x128.Idx) (h : (y 0).val = (i 0).val % 2000) : (blockRow0 i y 0).val = (i 0).val := by
  show 2000 * ((i 0).val / 2000) + (y 0).val = (i 0).val
  omega

/-- The printed index maps over the grid: windows 0 and 5 are at row block `t`, column block 0; windows 1–4 stay at
    block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of `blockval0` of the arrays as the region finds them. -/
theorem flushed0_eq (c : Dev nD) (t : Fin cfg0.N) :
    (dat0 V c).flushed 5 t = ((cfg0.win 5).blk t).view.read (Elt F) (blockval0 (V c main_v15) (V c main_arg3) (V c main_arg4) (V c main_arg5) (V c main_arg6)) := by
  show (cfg0.win 5).cut (grid0.coords t) ((dat0 V c).after 5 t) = _
  rw [after0_5]
  unfold out0_5
  rw [View.canon_unit_zero hz_2]
  simp only [View.ld_unit_zero (S := S2000x128) hz_2, View.ld_unit_zero (S := S128x256) hz_2, View.ld_unit_zero (S := S256x256) hz_2, View.ld_unit_zero (S := S256) hz_1]
  obtain ⟨e00, e01, e10, e11, e20, e30, e31, e40, e50, e51⟩ := idx_facts0 t
  funext j
  show k0_pay1 (iblk0 V c 0 t) (iblk0 V c 1 t) (iblk0 V c 2 t) (iblk0 V c 3 t) (iblk0 V c 4 t) j
    = k0_pay1 (fun y => V c main_v15 (blockRow0 (((cfg0.win 5).blk t).view.emb j) y)) (V c main_arg3) (V c main_arg4) (V c main_arg5) (V c main_arg6) (inBlock (((cfg0.win 5).blk t).view.emb j))
  have hj0 : (j 0).val < 2000 := (j 0).isLt
  have h0 : (iblk0 V c 0 t : Vec F S2000x128 .f32) = fun y => V c main_v15 (blockRow0 (((cfg0.win 5).blk t).view.emb j) y) := by
    funext y
    show V c main_v15 (((cfg0.win 0).blk t).view.emb y) = V c main_v15 (blockRow0 (((cfg0.win 5).blk t).view.emb j) y)
    refine congrArg _ (funext fun a => Fin.ext ?_)
    match a with
    | ⟨0, _⟩ => show win0_0.index t (0 : Fin 2) * 2000 + 1 * (y 0).val = 2000 * ((win0_5.index t (0 : Fin 2) * 2000 + 1 * (j 0).val) / 2000) + (y 0).val; omega
    | ⟨1, _⟩ => show win0_0.index t (1 : Fin 2) * 128 + 1 * (y 1).val = (y 1).val; omega
  have h1 : (iblk0 V c 1 t : Vec F S128x256 .f32) = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  have h2 : (iblk0 V c 2 t : Vec F S256 .f32) = V c main_arg4 := by
    funext y
    show V c main_arg4 (((cfg0.win 2).blk t).view.emb y) = V c main_arg4 y
    refine congrArg _ (funext fun a => Fin.ext ?_)
    match a with
    | ⟨0, _⟩ => show win0_2.index t (0 : Fin 1) * 256 + 1 * (y 0).val = (y 0).val; omega
  have h3 : (iblk0 V c 3 t : Vec F S256x256 .f32) = V c main_arg5 := by
    funext y
    show V c main_arg5 (((cfg0.win 3).blk t).view.emb y) = V c main_arg5 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have h4 : (iblk0 V c 4 t : Vec F S256 .f32) = V c main_arg6 := by
    funext y
    show V c main_arg6 (((cfg0.win 4).blk t).view.emb y) = V c main_arg6 y
    refine congrArg _ (funext fun a => Fin.ext ?_)
    match a with
    | ⟨0, _⟩ => show win0_4.index t (0 : Fin 1) * 256 + 1 * (y 0).val = (y 0).val; omega
  have hj : inBlock (((cfg0.win 5).blk t).view.emb j) = j := by
    funext a; apply Fin.ext
    match a with
    | ⟨0, _⟩ => show (win0_5.index t (0 : Fin 2) * 2000 + 1 * (j 0).val) % 2000 = (j 0).val; omega
    | ⟨1, _⟩ => show win0_5.index t (1 : Fin 2) * 256 + 1 * (j 1).val = (j 1).val; omega
  rw [h0, h1, h2, h3, h4, hj]

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v16).slice (win0_5.rect t)).set ↔ _
  rw [View.set_slice_whole, Rect.mem_set_unit]
  exact Iff.rfl

/-- Every index of the output array is in the block of the point its row names: row `r` is in row block `r / 2000`. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨-, -, -, -, -, -, -, -, e50, e51⟩ := idx_facts0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after region 0: `blockval0` of the arrays the region finds. -/
theorem arrAt0 (c : Dev nD) : (dat0 (F := F) V c).arrAt 5 cfg0.N = blockval0 (V c main_v15) (V c main_arg3) (V c main_arg4) (V c main_arg5) (V c main_arg6) :=
  (dat0 V c).arrAt_eq_of_cover 5 (blockval0 (V c main_v15) (V c main_arg3) (V c main_arg4) (V c main_arg5) (V c main_arg6)) (fun t _ => flushed0_eq V c t) cover0

/-! # Region 2: the output array after the region, as one function of the arrays the region finds -/

/-- Row `y 0` of the 2000-row block that holds row `i 0`: row `2000 · (i 0 / 2000) + y 0` of the 50000-row array,
    the column kept. -/
abbrev blockRow2 (i : S50000x256.Idx) (y : S2000x256.Idx) : S50000x256.Idx := fun a => match a with
  | ⟨0, _⟩ => ⟨2000 * ((i 0).val / 2000) + (y 0).val, by have hi : (i 0).val < 50000 := (i 0).isLt; have hy : (y 0).val < 2000 := (y 0).isLt; show 2000 * ((i 0).val / 2000) + (y 0).val < 50000; omega⟩
  | ⟨1, _⟩ => ⟨(y 1).val, (y 1).isLt⟩

/-- The output array of region 2 as a function of its five input arrays, index by index: at row `r`, column `q` the
    body's payload of the 2000-row block of `a0` that holds `r` and of the four whole arrays, read at
    `(r % 2000, q)`. -/
def blockval2 (a0 : (⟨S50000x256, .f32⟩ : BufTy).Contents (Elt F)) (a1 : (⟨S256x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F)) : S50000x256.Idx → Elt F .f32 :=
  fun i => k2_pay1 (fun y => a0 (blockRow2 i y)) a1 a2 a3 a4 (inBlock i)

theorem blockval2_apply (a0 : (⟨S50000x256, .f32⟩ : BufTy).Contents (Elt F)) (a1 : (⟨S256x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F)) (i : S50000x256.Idx) :
    blockval2 a0 a1 a2 a3 a4 i = k2_pay1 (fun y => a0 (blockRow2 i y)) a1 a2 a3 a4 (inBlock i) := rfl

/-- At the row of the block where `i` sits, the block's row is `i`'s own. -/
theorem blockRow2_inBlock_val (i : S50000x256.Idx) (y : S2000x256.Idx) (h : (y 0).val = (i 0).val % 2000) : (blockRow2 i y 0).val = (i 0).val := by
  show 2000 * ((i 0).val / 2000) + (y 0).val = (i 0).val
  omega

/-- The printed index maps over the grid: windows 0 and 5 are at row block `t`, column block 0; windows 1–4 stay at
    block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- WHAT POINT `t` WRITES BACK is block `t` of `blockval2` of the arrays as the region finds them. -/
theorem flushed2_eq (c : Dev nD) (t : Fin cfg2.N) :
    (dat2 V c).flushed 5 t = ((cfg2.win 5).blk t).view.read (Elt F) (blockval2 (V c main_v38) (V c main_arg9) (V c main_arg10) (V c main_arg11) (V c main_arg12)) := by
  show (cfg2.win 5).cut (grid2.coords t) ((dat2 V c).after 5 t) = _
  rw [after2_5]
  unfold out2_5
  rw [View.canon_unit_zero hz_2]
  simp only [View.ld_unit_zero (S := S2000x256) hz_2, View.ld_unit_zero (S := S256x256) hz_2, View.ld_unit_zero (S := S256x256) hz_2, View.ld_unit_zero (S := S256) hz_1]
  obtain ⟨e00, e01, e10, e11, e20, e30, e31, e40, e50, e51⟩ := idx_facts2 t
  funext j
  show k2_pay1 (iblk2 V c 0 t) (iblk2 V c 1 t) (iblk2 V c 2 t) (iblk2 V c 3 t) (iblk2 V c 4 t) j
    = k2_pay1 (fun y => V c main_v38 (blockRow2 (((cfg2.win 5).blk t).view.emb j) y)) (V c main_arg9) (V c main_arg10) (V c main_arg11) (V c main_arg12) (inBlock (((cfg2.win 5).blk t).view.emb j))
  have hj0 : (j 0).val < 2000 := (j 0).isLt
  have h0 : (iblk2 V c 0 t : Vec F S2000x256 .f32) = fun y => V c main_v38 (blockRow2 (((cfg2.win 5).blk t).view.emb j) y) := by
    funext y
    show V c main_v38 (((cfg2.win 0).blk t).view.emb y) = V c main_v38 (blockRow2 (((cfg2.win 5).blk t).view.emb j) y)
    refine congrArg _ (funext fun a => Fin.ext ?_)
    match a with
    | ⟨0, _⟩ => show win2_0.index t (0 : Fin 2) * 2000 + 1 * (y 0).val = 2000 * ((win2_5.index t (0 : Fin 2) * 2000 + 1 * (j 0).val) / 2000) + (y 0).val; omega
    | ⟨1, _⟩ => show win2_0.index t (1 : Fin 2) * 256 + 1 * (y 1).val = (y 1).val; omega
  have h1 : (iblk2 V c 1 t : Vec F S256x256 .f32) = V c main_arg9 := by
    funext y
    show V c main_arg9 (((cfg2.win 1).blk t).view.emb y) = V c main_arg9 y
    refine congrArg _ (funext fun a => Fin.ext ?_)
    match a with
    | ⟨0, _⟩ => show win2_1.index t (0 : Fin 2) * 256 + 1 * (y 0).val = (y 0).val; omega
    | ⟨1, _⟩ => show win2_1.index t (1 : Fin 2) * 256 + 1 * (y 1).val = (y 1).val; omega
  have h2 : (iblk2 V c 2 t : Vec F S256 .f32) = V c main_arg10 := by
    funext y
    show V c main_arg10 (((cfg2.win 2).blk t).view.emb y) = V c main_arg10 y
    refine congrArg _ (funext fun a => Fin.ext ?_)
    match a with
    | ⟨0, _⟩ => show win2_2.index t (0 : Fin 1) * 256 + 1 * (y 0).val = (y 0).val; omega
  have h3 : (iblk2 V c 3 t : Vec F S256x256 .f32) = V c main_arg11 := by
    funext y
    show V c main_arg11 (((cfg2.win 3).blk t).view.emb y) = V c main_arg11 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 256 + 1 * (y 1).val = (y 1).val; omega
  have h4 : (iblk2 V c 4 t : Vec F S256 .f32) = V c main_arg12 := by
    funext y
    show V c main_arg12 (((cfg2.win 4).blk t).view.emb y) = V c main_arg12 y
    refine congrArg _ (funext fun a => Fin.ext ?_)
    match a with
    | ⟨0, _⟩ => show win2_4.index t (0 : Fin 1) * 256 + 1 * (y 0).val = (y 0).val; omega
  have hj : inBlock (((cfg2.win 5).blk t).view.emb j) = j := by
    funext a; apply Fin.ext
    match a with
    | ⟨0, _⟩ => show (win2_5.index t (0 : Fin 2) * 2000 + 1 * (j 0).val) % 2000 = (j 0).val; omega
    | ⟨1, _⟩ => show win2_5.index t (1 : Fin 2) * 256 + 1 * (j 1).val = (j 1).val; omega
  rw [h0, h1, h2, h3, h4, hj]

/-- An index of the output array is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v39).slice (win2_5.rect t)).set ↔ _
  rw [View.set_slice_whole, Rect.mem_set_unit]
  exact Iff.rfl

/-- Every index of the output array is in the block of the point its row names: row `r` is in row block `r / 2000`. -/
theorem cover2 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  have ht : t.val = (i 0).val / 2000 := rfl
  obtain ⟨-, -, -, -, -, -, -, -, e50, e51⟩ := idx_facts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE OUTPUT ARRAY after region 2: `blockval2` of the arrays the region finds. -/
theorem arrAt2 (c : Dev nD) : (dat2 (F := F) V c).arrAt 5 cfg2.N = blockval2 (V c main_v38) (V c main_arg9) (V c main_arg10) (V c main_arg11) (V c main_arg12) :=
  (dat2 V c).arrAt_eq_of_cover 5 (blockval2 (V c main_v38) (V c main_arg9) (V c main_arg10) (V c main_arg11) (V c main_arg12)) (fun t _ => flushed2_eq V c t) cover2

end Cert.KernelIdeal.Gen
-- ==== Proof.Arr13.lean ====
/- From blocks to the array, for the two batch-norm regions (1 and 3 of @main): the array each region leaves is one
   function of the arrays it reads — at row `r`, column `q`, the region's payload of the 2000-row block that holds `r`
   and of the four 256-vectors, read at row `r % 2000`, column `q` (`blockval1`, `blockval3`). Point `t` of the grid
   writes back block `t` of that function, and row `r` lies in the block of point `r / 2000`, so the 25 blocks tile
   the 50000 rows and the array ends holding it (`arrAt1`, `arrAt3`). -/
import proofs.«403320_j14680198218264_1_alg».proof.Proof.Reg1I
import proofs.«403320_j14680198218264_1_alg».proof.Proof.Reg3I
import Idealize.ShloMosaic.Lib.Pipeline.Value

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]

/-! ## Rows in blocks of 2000

The 50000 rows are 25 blocks of 2000: row `r` is row `r % 2000` of block `r / 2000`. -/

/-- The block of 2000 rows that holds an index's row. -/
def rowBlockOf (i : S50000x256.Idx) : Fin 25 :=
  ⟨(i 0).val / 2000, by have h : (i 0).val < 50000 := (i 0).isLt; omega⟩

/-- An index's place inside its block of rows: row `r % 2000`, the same column. -/
def inRowBlock (i : S50000x256.Idx) : S2000x256.Idx := fun a => match a with
  | ⟨0, _⟩ => (⟨(i 0).val % 2000, Nat.mod_lt _ (by decide)⟩ : Fin 2000)
  | ⟨1, _⟩ => (⟨(i 1).val, (i 1).isLt⟩ : Fin 256)

/-- Place `y` of block `b`, as an index of the 50000 rows: row `2000 * b + y 0`, the same column. -/
def ofRowBlock (b : Fin 25) (y : S2000x256.Idx) : S50000x256.Idx := fun a => match a with
  | ⟨0, _⟩ => (⟨b.val * 2000 + (y 0).val, by have h : (y 0).val < 2000 := (y 0).isLt; have := b.isLt; omega⟩ : Fin 50000)
  | ⟨1, _⟩ => (⟨(y 1).val, (y 1).isLt⟩ : Fin 256)

/-- Block `b` of an array of 50000 rows, as a 2000-row vector. -/
def rowBlock (a : S50000x256.Idx → Elt F .f32) (b : Fin 25) : Vec F S2000x256 .f32 := fun y => a (ofRowBlock b y)

/-- An index is its place in its block of rows. -/
theorem ofRowBlock_inRowBlock (i : S50000x256.Idx) : ofRowBlock (rowBlockOf i) (inRowBlock i) = i := by
  funext a; apply Fin.ext
  match a with
  | ⟨0, _⟩ => show (i 0).val / 2000 * 2000 + (i 0).val % 2000 = (i 0).val; omega
  | ⟨1, _⟩ => rfl

/-- So an array's block of rows, read at an index's place in it, is the array at the index. -/
theorem rowBlock_at (a : S50000x256.Idx → Elt F .f32) (i : S50000x256.Idx) : rowBlock a (rowBlockOf i) (inRowBlock i) = a i := by
  unfold rowBlock; rw [ofRowBlock_inRowBlock]

/-- The column of an index's place in its block is the index's column. -/
theorem inRowBlock_col (i : S50000x256.Idx) : ((inRowBlock i) 1).val = (i 1).val := rfl
theorem inRowBlock_row (i : S50000x256.Idx) : ((inRowBlock i) 0).val = (i 0).val % 2000 := rfl

/-! ## The arrays regions 1 and 3 leave, as one function of the arrays they read -/

/-- What region 1 leaves in its output array, from the five arrays it reads (`a0` by blocks of 2000 rows, the four
    256-vectors whole): at row `r`, column `q`, the payload of the block of `a0` that holds `r` and the four
    vectors, at row `r % 2000`, column `q`. -/
def blockval1 (a0 : (⟨S50000x256, .f32⟩ : BufTy).Contents (Elt F)) (a1 a2 a3 a4 : (⟨S256, .f32⟩ : BufTy).Contents (Elt F)) :
    S50000x256.Idx → Elt F .f32 :=
  fun i => k1_pay1 (rowBlock a0 (rowBlockOf i)) a1 a2 a3 a4 (inRowBlock i)

/-- The same of region 3. -/
def blockval3 (a0 : (⟨S50000x256, .f32⟩ : BufTy).Contents (Elt F)) (a1 a2 a3 a4 : (⟨S256, .f32⟩ : BufTy).Contents (Elt F)) :
    S50000x256.Idx → Elt F .f32 :=
  fun i => k3_pay1 (rowBlock a0 (rowBlockOf i)) a1 a2 a3 a4 (inRowBlock i)

theorem blockval1_apply (a0 : (⟨S50000x256, .f32⟩ : BufTy).Contents (Elt F)) (a1 a2 a3 a4 : (⟨S256, .f32⟩ : BufTy).Contents (Elt F)) (i : S50000x256.Idx) :
    blockval1 a0 a1 a2 a3 a4 i = k1_pay1 (rowBlock a0 (rowBlockOf i)) a1 a2 a3 a4 (inRowBlock i) := rfl
theorem blockval3_apply (a0 : (⟨S50000x256, .f32⟩ : BufTy).Contents (Elt F)) (a1 a2 a3 a4 : (⟨S256, .f32⟩ : BufTy).Contents (Elt F)) (i : S50000x256.Idx) :
    blockval3 a0 a1 a2 a3 a4 i = k3_pay1 (rowBlock a0 (rowBlockOf i)) a1 a2 a3 a4 (inRowBlock i) := rfl

/-! ## The zero offsets of the whole-buffer accesses -/

private theorem zero2 : (![0, 0] : Fin 2 → Nat) = fun _ => 0 := funext fun a => by fin_cases a <;> rfl
private theorem zero1 : (![0] : Fin 1 → Nat) = fun _ => 0 := funext fun a => by fin_cases a <;> rfl

-- the TensorCore's buffer contents when a region is entered
variable (V : (c : Dev nD) → (b : Ref sig .tc) → Buf (Elt F) ((c : Thread nD τ).loc b))

/-! ## Region 1: from the blocks to the array -/

/-- The index maps over the grid: point `t` reads and writes the block of rows `t`, column block 0; the four
    vectors are read whole at every point. -/
theorem idx_facts1 : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- What point `t` writes back is block `t` of `blockval1` of the arrays as the region finds them. -/
theorem flushed1_eq (c : Dev nD) (t : Fin cfg1.N) :
    (dat1 V c).flushed 5 t = ((cfg1.win 5).blk t).view.read (Elt F) (blockval1 (V c main_v16) (V c main_v19) (V c main_v26) (V c main_arg7) (V c main_arg8)) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256) zero1]
  obtain ⟨e00, e01, e1, e2, e3, e4, e50, e51⟩ := idx_facts1 t
  have h1 : iblk1 V c 1 t = V c main_v19 := by
    funext y
    show V c main_v19 (((cfg1.win 1).blk t).view.emb y) = V c main_v19 y
    congr 1; funext a; apply Fin.ext
    match a with
    | ⟨0, _⟩ => show win1_1.index t (0 : Fin 1) * 256 + 1 * (y 0).val = (y 0).val; omega
  have h2 : iblk1 V c 2 t = V c main_v26 := by
    funext y
    show V c main_v26 (((cfg1.win 2).blk t).view.emb y) = V c main_v26 y
    congr 1; funext a; apply Fin.ext
    match a with
    | ⟨0, _⟩ => show win1_2.index t (0 : Fin 1) * 256 + 1 * (y 0).val = (y 0).val; omega
  have h3 : iblk1 V c 3 t = V c main_arg7 := by
    funext y
    show V c main_arg7 (((cfg1.win 3).blk t).view.emb y) = V c main_arg7 y
    congr 1; funext a; apply Fin.ext
    match a with
    | ⟨0, _⟩ => show win1_3.index t (0 : Fin 1) * 256 + 1 * (y 0).val = (y 0).val; omega
  have h4 : iblk1 V c 4 t = V c main_arg8 := by
    funext y
    show V c main_arg8 (((cfg1.win 4).blk t).view.emb y) = V c main_arg8 y
    congr 1; funext a; apply Fin.ext
    match a with
    | ⟨0, _⟩ => show win1_4.index t (0 : Fin 1) * 256 + 1 * (y 0).val = (y 0).val; omega
  rw [h1, h2, h3, h4]
  funext j
  have hj0 : (j 0).val < 2000 := (j 0).isLt
  show k1_pay1 (iblk1 V c 0 t) (V c main_v19) (V c main_v26) (V c main_arg7) (V c main_arg8) j
    = blockval1 (V c main_v16) (V c main_v19) (V c main_v26) (V c main_arg7) (V c main_arg8) (((cfg1.win 5).blk t).view.emb j)
  rw [blockval1_apply]
  have hj : inRowBlock (((cfg1.win 5).blk t).view.emb j) = j := by
    funext a; apply Fin.ext
    match a with
    | ⟨0, _⟩ => show (win1_5.index t (0 : Fin 2) * 2000 + 1 * (j 0).val) % 2000 = (j 0).val; omega
    | ⟨1, _⟩ => show win1_5.index t (1 : Fin 2) * 256 + 1 * (j 1).val = (j 1).val; omega
  have hX : rowBlock (V c main_v16) (rowBlockOf (((cfg1.win 5).blk t).view.emb j)) = iblk1 V c 0 t := by
    funext y
    show V c main_v16 (ofRowBlock (rowBlockOf (((cfg1.win 5).blk t).view.emb j)) y) = V c main_v16 (((cfg1.win 0).blk t).view.emb y)
    congr 1; funext a; apply Fin.ext
    match a with
    | ⟨0, _⟩ => show (win1_5.index t (0 : Fin 2) * 2000 + 1 * (j 0).val) / 2000 * 2000 + (y 0).val = win1_0.index t (0 : Fin 2) * 2000 + 1 * (y 0).val; omega
    | ⟨1, _⟩ => show (y 1).val = win1_0.index t (1 : Fin 2) * 256 + 1 * (y 1).val; omega
  rw [hj, hX]

/-- An index of the array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v27).slice (win1_5.rect t)).set ↔ _
  rw [View.set_slice_whole, Rect.mem_set_unit]
  exact Iff.rfl

/-- Every index is in some point's block: row `r` is in the block of point `r / 2000`. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have hlt : (i 0).val / 2000 < cfg1.N := by rw [hN]; omega
  obtain ⟨e00, e01, e1, e2, e3, e4, e50, e51⟩ := idx_facts1 ⟨(i 0).val / 2000, hlt⟩
  have e50' : win1_5.index ⟨(i 0).val / 2000, hlt⟩ (0 : Fin 2) = (i 0).val / 2000 := e50
  refine ⟨⟨(i 0).val / 2000, hlt⟩, flush1_5 _, ?_⟩
  rw [mem_blk1]
  intro a
  match a with
  | ⟨0, _⟩ => show win1_5.index ⟨(i 0).val / 2000, hlt⟩ (0 : Fin 2) * 2000 ≤ (i 0).val ∧ (i 0).val < win1_5.index ⟨(i 0).val / 2000, hlt⟩ (0 : Fin 2) * 2000 + 2000; omega
  | ⟨1, _⟩ => show win1_5.index ⟨(i 0).val / 2000, hlt⟩ (1 : Fin 2) * 256 ≤ (i 1).val ∧ (i 1).val < win1_5.index ⟨(i 0).val / 2000, hlt⟩ (1 : Fin 2) * 256 + 256; omega

/-- The array region 1 leaves: `blockval1` of the arrays it reads, as it finds them. -/
theorem arrAt1 (c : Dev nD) : (dat1 (F := F) V c).arrAt 5 cfg1.N = blockval1 (V c main_v16) (V c main_v19) (V c main_v26) (V c main_arg7) (V c main_arg8) :=
  (dat1 V c).arrAt_eq_of_cover 5 (blockval1 (V c main_v16) (V c main_v19) (V c main_v26) (V c main_arg7) (V c main_arg8)) (fun t _ => flushed1_eq V c t) cover1

/-! ## Region 3: from the blocks to the array -/

/-- The index maps over the grid: point `t` reads and writes the block of rows `t`, column block 0; the four
    vectors are read whole at every point. -/
theorem idx_facts3 : ∀ t : Fin cfg3.N,
    win3_0.index t (0 : Fin 2) = t.val ∧ win3_0.index t (1 : Fin 2) = 0
    ∧ win3_1.index t (0 : Fin 1) = 0 ∧ win3_2.index t (0 : Fin 1) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- What point `t` writes back is block `t` of `blockval3` of the arrays as the region finds them. -/
theorem flushed3_eq (c : Dev nD) (t : Fin cfg3.N) :
    (dat3 V c).flushed 5 t = ((cfg3.win 5).blk t).view.read (Elt F) (blockval3 (V c main_v39) (V c main_v42) (V c main_v49) (V c main_arg13) (V c main_arg14)) := by
  show (cfg3.win 5).cut (grid3.coords t) ((dat3 V c).after 5 t) = _
  rw [after3_5]
  unfold out3_5
  rw [View.canon_unit_zero zero2]
  simp only [View.ld_unit_zero (S := S2000x256) zero2, View.ld_unit_zero (S := S256) zero1]
  obtain ⟨e00, e01, e1, e2, e3, e4, e50, e51⟩ := idx_facts3 t
  have h1 : iblk3 V c 1 t = V c main_v42 := by
    funext y
    show V c main_v42 (((cfg3.win 1).blk t).view.emb y) = V c main_v42 y
    congr 1; funext a; apply Fin.ext
    match a with
    | ⟨0, _⟩ => show win3_1.index t (0 : Fin 1) * 256 + 1 * (y 0).val = (y 0).val; omega
  have h2 : iblk3 V c 2 t = V c main_v49 := by
    funext y
    show V c main_v49 (((cfg3.win 2).blk t).view.emb y) = V c main_v49 y
    congr 1; funext a; apply Fin.ext
    match a with
    | ⟨0, _⟩ => show win3_2.index t (0 : Fin 1) * 256 + 1 * (y 0).val = (y 0).val; omega
  have h3 : iblk3 V c 3 t = V c main_arg13 := by
    funext y
    show V c main_arg13 (((cfg3.win 3).blk t).view.emb y) = V c main_arg13 y
    congr 1; funext a; apply Fin.ext
    match a with
    | ⟨0, _⟩ => show win3_3.index t (0 : Fin 1) * 256 + 1 * (y 0).val = (y 0).val; omega
  have h4 : iblk3 V c 4 t = V c main_arg14 := by
    funext y
    show V c main_arg14 (((cfg3.win 4).blk t).view.emb y) = V c main_arg14 y
    congr 1; funext a; apply Fin.ext
    match a with
    | ⟨0, _⟩ => show win3_4.index t (0 : Fin 1) * 256 + 1 * (y 0).val = (y 0).val; omega
  rw [h1, h2, h3, h4]
  funext j
  have hj0 : (j 0).val < 2000 := (j 0).isLt
  show k3_pay1 (iblk3 V c 0 t) (V c main_v42) (V c main_v49) (V c main_arg13) (V c main_arg14) j
    = blockval3 (V c main_v39) (V c main_v42) (V c main_v49) (V c main_arg13) (V c main_arg14) (((cfg3.win 5).blk t).view.emb j)
  rw [blockval3_apply]
  have hj : inRowBlock (((cfg3.win 5).blk t).view.emb j) = j := by
    funext a; apply Fin.ext
    match a with
    | ⟨0, _⟩ => show (win3_5.index t (0 : Fin 2) * 2000 + 1 * (j 0).val) % 2000 = (j 0).val; omega
    | ⟨1, _⟩ => show win3_5.index t (1 : Fin 2) * 256 + 1 * (j 1).val = (j 1).val; omega
  have hX : rowBlock (V c main_v39) (rowBlockOf (((cfg3.win 5).blk t).view.emb j)) = iblk3 V c 0 t := by
    funext y
    show V c main_v39 (ofRowBlock (rowBlockOf (((cfg3.win 5).blk t).view.emb j)) y) = V c main_v39 (((cfg3.win 0).blk t).view.emb y)
    congr 1; funext a; apply Fin.ext
    match a with
    | ⟨0, _⟩ => show (win3_5.index t (0 : Fin 2) * 2000 + 1 * (j 0).val) / 2000 * 2000 + (y 0).val = win3_0.index t (0 : Fin 2) * 2000 + 1 * (y 0).val; omega
    | ⟨1, _⟩ => show (y 1).val = win3_0.index t (1 : Fin 2) * 256 + 1 * (y 1).val; omega
  rw [hj, hX]

/-- An index of the array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v50).slice (win3_5.rect t)).set ↔ _
  rw [View.set_slice_whole, Rect.mem_set_unit]
  exact Iff.rfl

/-- Every index is in some point's block: row `r` is in the block of point `r / 2000`. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  have hlt : (i 0).val / 2000 < cfg3.N := by rw [hN]; omega
  obtain ⟨e00, e01, e1, e2, e3, e4, e50, e51⟩ := idx_facts3 ⟨(i 0).val / 2000, hlt⟩
  have e50' : win3_5.index ⟨(i 0).val / 2000, hlt⟩ (0 : Fin 2) = (i 0).val / 2000 := e50
  refine ⟨⟨(i 0).val / 2000, hlt⟩, flush3_5 _, ?_⟩
  rw [mem_blk3]
  intro a
  match a with
  | ⟨0, _⟩ => show win3_5.index ⟨(i 0).val / 2000, hlt⟩ (0 : Fin 2) * 2000 ≤ (i 0).val ∧ (i 0).val < win3_5.index ⟨(i 0).val / 2000, hlt⟩ (0 : Fin 2) * 2000 + 2000; omega
  | ⟨1, _⟩ => show win3_5.index ⟨(i 0).val / 2000, hlt⟩ (1 : Fin 2) * 256 ≤ (i 1).val ∧ (i 1).val < win3_5.index ⟨(i 0).val / 2000, hlt⟩ (1 : Fin 2) * 256 + 256; omega

/-- The array region 3 leaves: `blockval3` of the arrays it reads, as it finds them. -/
theorem arrAt3 (c : Dev nD) : (dat3 (F := F) V c).arrAt 5 cfg3.N = blockval3 (V c main_v39) (V c main_v42) (V c main_v49) (V c main_arg13) (V c main_arg14) :=
  (dat3 V c).arrAt_eq_of_cover 5 (blockval3 (V c main_v39) (V c main_v42) (V c main_v49) (V c main_arg13) (V c main_arg14)) (fun t _ => flushed3_eq V c t) cover3

end Cert.KernelIdeal.Gen

end
-- ==== Proof.MlpLaw.lean ====
/- The two-layer perceptron of the network's two layers, kernel against reference, at the ideal
   instance: one row of it as a function of the input row (`mlpAt`); each region's payload at an
   index of its block, and the reference's operation chain at an index, are that function of the
   row; hence the array made of the payloads of the row blocks is the reference's chain. -/
import proofs.«403320_j14680198218264_1_alg».proof.Proof.Arr02
import proofs.«403320_j14680198218264_1_alg».proof.Proof.RefRun
import Idealize.ShloMosaic.PureOps.Ideal.Laws
import Idealize.ShloMosaic.Lib.Pipeline.Value
import Idealize.ShloMosaic.Lib.ValueIdx
import Idealize.ShloMosaic.Lib.ValueLayout

noncomputable section

namespace Cert.Bridge.Mlp

open Idealize.ShloMosaic Idealize.SL.Sem Idealize.ShloMosaic.ValueIdx
open scoped BigOperators

/-- One row of the two-layer perceptron: from the input row `h` of width `n`, column `q` of
    `relu (h · w1 + b1) · w2 + b2`, the zero of the relu kept as the float word it is printed as. -/
def mlpAt {n : Nat} (h : Fin n → EReal) (w1 : (⟨2, ![n, 256]⟩ : Shape).Idx → EReal) (b1 : (⟨1, ![256]⟩ : Shape).Idx → EReal)
    (w2 : (⟨2, ![256, 256]⟩ : Shape).Idx → EReal) (b2 : (⟨1, ![256]⟩ : Shape).Idx → EReal) (q : Fin 256) : EReal :=
  (∑ k : Fin 256, max ((∑ j : Fin n, h j * w1 (ix2 j k)) + b1 (ix1 k)) (Ideal.ofBits .f32 0x00000000#32) * w2 (ix2 k q)) + b2 (ix1 q)

/-! ## The kernel's first product (rows of width 128) at an index -/

theorem lhs_dK1_0 (i : Cert.KernelIdeal.S2000x256.Idx) (q : Cert.KernelIdeal.dot_S2000x128_S128x256_S2000x256_1_0_0_1_n_n.contr.Idx) :
    (Cert.KernelIdeal.dot_S2000x128_S128x256_S2000x256_1_0_0_1_n_n.lhsIdx i q 0).val = (i 0).val := by
  unfold DotDims.lhsIdx
  rw [dif_neg (show ¬(0 : Fin Cert.KernelIdeal.S2000x128.rank) ∈ Cert.KernelIdeal.dot_S2000x128_S128x256_S2000x256_1_0_0_1_n_n.lhsBatch by decide), dif_pos (show (0 : Fin Cert.KernelIdeal.S2000x128.rank) ∈ Cert.KernelIdeal.dot_S2000x128_S128x256_S2000x256_1_0_0_1_n_n.lhsNonContracting by decide)]
  rfl
theorem lhs_dK1_1 (i : Cert.KernelIdeal.S2000x256.Idx) (q : Cert.KernelIdeal.dot_S2000x128_S128x256_S2000x256_1_0_0_1_n_n.contr.Idx) :
    (Cert.KernelIdeal.dot_S2000x128_S128x256_S2000x256_1_0_0_1_n_n.lhsIdx i q 1).val = (q ⟨0, by decide⟩).val :=
  Cert.KernelIdeal.dot_S2000x128_S128x256_S2000x256_1_0_0_1_n_n.lhsIdx_val_of_single rfl i q
theorem rhs_dK1_0 (i : Cert.KernelIdeal.S2000x256.Idx) (q : Cert.KernelIdeal.dot_S2000x128_S128x256_S2000x256_1_0_0_1_n_n.contr.Idx) :
    (Cert.KernelIdeal.dot_S2000x128_S128x256_S2000x256_1_0_0_1_n_n.rhsIdx i q 0).val = (q ⟨0, by decide⟩).val :=
  Cert.KernelIdeal.dot_S2000x128_S128x256_S2000x256_1_0_0_1_n_n.rhsIdx_val_of_single rfl i q
theorem rhs_dK1_1 (i : Cert.KernelIdeal.S2000x256.Idx) (q : Cert.KernelIdeal.dot_S2000x128_S128x256_S2000x256_1_0_0_1_n_n.contr.Idx) :
    (Cert.KernelIdeal.dot_S2000x128_S128x256_S2000x256_1_0_0_1_n_n.rhsIdx i q 1).val = (i 1).val := by
  unfold DotDims.rhsIdx
  rw [dif_neg (show ¬(1 : Fin Cert.KernelIdeal.S128x256.rank) ∈ Cert.KernelIdeal.dot_S2000x128_S128x256_S2000x256_1_0_0_1_n_n.rhsBatch by decide), dif_pos (show (1 : Fin Cert.KernelIdeal.S128x256.rank) ∈ Cert.KernelIdeal.dot_S2000x128_S128x256_S2000x256_1_0_0_1_n_n.rhsNonContracting by decide)]
  rfl

/-- The first product into a zero accumulator, at row `p`, column `k`: the row of the left operand against the column of the right. -/
theorem mmK1_apply (a : FVec Ideal Cert.KernelIdeal.S2000x128 .bf16) (b : FVec Ideal Cert.KernelIdeal.S128x256 .bf16) (p : Fin 2000) (k : Fin 256) :
    matmul Cert.KernelIdeal.dot_S2000x128_S128x256_S2000x256_1_0_0_1_n_n none a b (constant Cert.KernelIdeal.S2000x256 .f32 0x00000000#32) (ix2 p k)
      = ∑ j : Fin 128, a (ix2 p j) * b (ix2 j k) := by
  refine (Ideal.matmul_constant_zero_apply Cert.KernelIdeal.dot_S2000x128_S128x256_S2000x256_1_0_0_1_n_n none a b (ix2 p k)).trans ?_
  rw [← Equiv.sum_comp (ValueIdx.contrEquiv1 Cert.KernelIdeal.dot_S2000x128_S128x256_S2000x256_1_0_0_1_n_n 128 rfl rfl).symm]
  refine Finset.sum_congr rfl fun j _ => ?_
  have hk := ValueIdx.contrEquiv1_symm_val Cert.KernelIdeal.dot_S2000x128_S128x256_S2000x256_1_0_0_1_n_n 128 rfl rfl j
  have el : Cert.KernelIdeal.dot_S2000x128_S128x256_S2000x256_1_0_0_1_n_n.lhsIdx (ix2 p k) ((ValueIdx.contrEquiv1 Cert.KernelIdeal.dot_S2000x128_S128x256_S2000x256_1_0_0_1_n_n 128 rfl rfl).symm j) = ix2 p j := funext fun a => Fin.ext (by
    match a with
    | ⟨0, _⟩ => exact lhs_dK1_0 _ _
    | ⟨1, _⟩ => exact (lhs_dK1_1 _ _).trans hk)
  have er : Cert.KernelIdeal.dot_S2000x128_S128x256_S2000x256_1_0_0_1_n_n.rhsIdx (ix2 p k) ((ValueIdx.contrEquiv1 Cert.KernelIdeal.dot_S2000x128_S128x256_S2000x256_1_0_0_1_n_n 128 rfl rfl).symm j) = ix2 j k := funext fun a => Fin.ext (by
    match a with
    | ⟨0, _⟩ => exact (rhs_dK1_0 _ _).trans hk
    | ⟨1, _⟩ => exact rhs_dK1_1 _ _)
  rw [el, er]

/-! ## The kernel's second product (rows of width 256) at an index -/

theorem lhs_dK2_0 (i : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.lhsIdx i q 0).val = (i 0).val := by
  unfold DotDims.lhsIdx
  rw [dif_neg (show ¬(0 : Fin Cert.KernelIdeal.S2000x256.rank) ∈ Cert.KernelIdeal.dot_S2000x256_S256x256_S2000x256_1_0_0_1_n_n.lhsBatch by decide), dif_pos (show (0 : Fin Cert.KernelIdeal.S2000x256.rank) ∈ Cert.KernelIdeal.dot_S2000x256_S256x256_S2000x256_1_0_0_1_n_n.lhsNonContracting by decide)]
  rfl
theorem lhs_dK2_1 (i : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.lhsIdx i q 1).val = (q ⟨0, by decide⟩).val :=
  Cert.KernelIdeal.dot_S2000x256_S256x256_S2000x256_1_0_0_1_n_n.lhsIdx_val_of_single rfl i q
theorem rhs_dK2_0 (i : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.rhsIdx i q 0).val = (q ⟨0, by decide⟩).val :=
  Cert.KernelIdeal.dot_S2000x256_S256x256_S2000x256_1_0_0_1_n_n.rhsIdx_val_of_single rfl i q
theorem rhs_dK2_1 (i : Cert.KernelIdeal.S2000x256.Idx) (q : Cert.KernelIdeal.dot_S2000x256_S256x256_S2000x256_1_0_0_1_n_n.contr.Idx) :
    (Cert.KernelIdeal.dot_S2000x256_S256x256_S2000x256_1_0_0_1_n_n.rhsIdx i q 1).val = (i 1).val := by
  unfold DotDims.rhsIdx
  rw [dif_neg (show ¬(1 : Fin Cert.KernelIdeal.S256x256.rank) ∈ Cert.KernelIdeal.dot_S2000x256_S256x256_S2000x256_1_0_0_1_n_n.rhsBatch by decide), dif_pos (show (1 : Fin Cert.KernelIdeal.S256x256.rank) ∈ Cert.KernelIdeal.dot_S2000x256_S256x256_S2000x256_1_0_0_1_n_n.rhsNonContracting by decide)]
  rfl

/-- The second product into a zero accumulator, at row `p`, column `q`. -/
theorem mmK2_apply (a : FVec Ideal Cert.KernelIdeal.S2000x256 .bf16) (b : FVec Ideal Cert.KernelIdeal.S256x256 .bf16) (p : Fin 2000) (q : Fin 256) :
    matmul Cert.KernelIdeal.dot_S2000x256_S256x256_S2000x256_1_0_0_1_n_n none a b (constant Cert.KernelIdeal.S2000x256 .f32 0x00000000#32) (ix2 p q)
      = ∑ k : Fin 256, a (ix2 p k) * b (ix2 k q) := by
  refine (Ideal.matmul_constant_zero_apply Cert.KernelIdeal.dot_S2000x256_S256x256_S2000x256_1_0_0_1_n_n none a b (ix2 p q)).trans ?_
  rw [← Equiv.sum_comp (ValueIdx.contrEquiv1 Cert.KernelIdeal.dot_S2000x256_S256x256_S2000x256_1_0_0_1_n_n 256 rfl rfl).symm]
  refine Finset.sum_congr rfl fun j _ => ?_
  have hk := ValueIdx.contrEquiv1_symm_val Cert.KernelIdeal.dot_S2000x256_S256x256_S2000x256_1_0_0_1_n_n 256 rfl rfl j
  have el : Cert.KernelIdeal.dot_S2000x256_S256x256_S2000x256_1_0_0_1_n_n.lhsIdx (ix2 p q) ((ValueIdx.contrEquiv1 Cert.KernelIdeal.dot_S2000x256_S256x256_S2000x256_1_0_0_1_n_n 256 rfl rfl).symm j) = ix2 p j := funext fun a => Fin.ext (by
    match a with
    | ⟨0, _⟩ => exact lhs_dK2_0 _ _
    | ⟨1, _⟩ => exact (lhs_dK2_1 _ _).trans hk)
  have er : Cert.KernelIdeal.dot_S2000x256_S256x256_S2000x256_1_0_0_1_n_n.rhsIdx (ix2 p q) ((ValueIdx.contrEquiv1 Cert.KernelIdeal.dot_S2000x256_S256x256_S2000x256_1_0_0_1_n_n 256 rfl rfl).symm j) = ix2 j q := funext fun a => Fin.ext (by
    match a with
    | ⟨0, _⟩ => exact (rhs_dK2_0 _ _).trans hk
    | ⟨1, _⟩ => exact rhs_dK2_1 _ _)
  rw [el, er]

/-! ## The bias row at an index -/

/-- A bias vector of 256 entries, laid out as one row and repeated over the 2000 rows of a block, reads its entry at the column. -/
theorem biasK_apply {α : Type} (b : Cert.KernelIdeal.S256.Idx → α) (p : Fin 2000) (q : Fin 256) :
    broadcastTo Cert.KernelIdeal.S2000x256 (shapeCast Cert.KernelIdeal.S1x256 b Cert.KernelIdeal.Gen.shapeCasts_S256_S1x256) Cert.KernelIdeal.Gen.broadcasts_S1x256_S2000x256 (ix2 p q) = b (ix1 q) :=
  (broadcastTo_1b_ab_apply _ Cert.KernelIdeal.Gen.broadcasts_S1x256_S2000x256 p q).trans
    (shapeCast_a_1a_apply b Cert.KernelIdeal.Gen.shapeCasts_S256_S1x256 0 q)

/-! ## The payloads at an index -/

/-- Region 0's payload (input rows of width 128) at row `p`, column `q` of the block: the perceptron of the block's row `p`. -/
theorem k0_pay1_apply (v0 : Vec Ideal Cert.KernelIdeal.S2000x128 .f32) (v3 : Vec Ideal Cert.KernelIdeal.S128x256 .f32) (v6 : Vec Ideal Cert.KernelIdeal.S256 .f32)
    (v13 : Vec Ideal Cert.KernelIdeal.S256x256 .f32) (v16 : Vec Ideal Cert.KernelIdeal.S256 .f32) (p : Fin 2000) (q : Fin 256) :
    Cert.KernelIdeal.Gen.k0_pay1 (F := Ideal) v0 v3 v6 v13 v16 (ix2 p q) = mlpAt (fun j => v0 (ix2 p j)) v3 v6 v13 v16 q := by
  unfold Cert.KernelIdeal.Gen.k0_pay1 mlpAt
  rw [shapeCast_self]
  refine (congrArg₂ (· + ·) (mmK2_apply _ _ p q) (biasK_apply v16 p q)).trans ?_
  refine congrArg₂ (· + ·) (Finset.sum_congr rfl fun k _ => ?_) rfl
  refine congrArg₂ (· * ·) ?_ rfl
  refine congrArg₂ max ?_ rfl
  exact congrArg₂ (· + ·) (mmK1_apply _ _ p k) (biasK_apply v6 p k)

/-- Region 2's payload (input rows of width 256) at row `p`, column `q` of the block. -/
theorem k2_pay1_apply (v0 : Vec Ideal Cert.KernelIdeal.S2000x256 .f32) (v3 : Vec Ideal Cert.KernelIdeal.S256x256 .f32) (v6 : Vec Ideal Cert.KernelIdeal.S256 .f32)
    (v13 : Vec Ideal Cert.KernelIdeal.S256x256 .f32) (v16 : Vec Ideal Cert.KernelIdeal.S256 .f32) (p : Fin 2000) (q : Fin 256) :
    Cert.KernelIdeal.Gen.k2_pay1 (F := Ideal) v0 v3 v6 v13 v16 (ix2 p q) = mlpAt (fun j => v0 (ix2 p j)) v3 v6 v13 v16 q := by
  unfold Cert.KernelIdeal.Gen.k2_pay1 mlpAt
  rw [shapeCast_self]
  refine (congrArg₂ (· + ·) (mmK2_apply _ _ p q) (biasK_apply v16 p q)).trans ?_
  refine congrArg₂ (· + ·) (Finset.sum_congr rfl fun k _ => ?_) rfl
  refine congrArg₂ (· * ·) ?_ rfl
  refine congrArg₂ max ?_ rfl
  exact congrArg₂ (· + ·) (mmK2_apply _ _ p k) (biasK_apply v6 p k)

/-! ## The reference's two products at an index -/

theorem lhs_dR1_0 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide), dif_pos (show (0 : Fin Cert.ReferenceIdeal.S50000x128.rank) ∈ Cert.ReferenceIdeal.dot_S50000x128_S128x256_S50000x256_1_0_0_1_n_n.lhsNonContracting by decide)]
  rfl
theorem lhs_dR1_1 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem rhs_dR1_0 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem rhs_dR1_1 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide), dif_pos (show (1 : Fin Cert.ReferenceIdeal.S128x256.rank) ∈ Cert.ReferenceIdeal.dot_S50000x128_S128x256_S50000x256_1_0_0_1_n_n.rhsNonContracting by decide)]
  rfl

/-- The reference's first product (contraction over 128) at row `r`, column `k`. -/
theorem dgR1_apply (a : FVec Ideal Cert.ReferenceIdeal.S50000x128 .f32) (b : FVec Ideal Cert.ReferenceIdeal.S128x256 .f32) (r : Fin 50000) (k : Fin 256) :
    Host.dotGeneral Cert.ReferenceIdeal.dot_S50000x128_S128x256_S50000x256_1_0_0_1_n_n none a b (ix2 r k)
      = ∑ j : Fin 128, a (ix2 r j) * b (ix2 j k) := by
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun j _ => ?_
  have hk := ValueIdx.contrEquiv1_symm_val Cert.ReferenceIdeal.dot_S50000x128_S128x256_S50000x256_1_0_0_1_n_n 128 rfl rfl j
  have el : Cert.ReferenceIdeal.dot_S50000x128_S128x256_S50000x256_1_0_0_1_n_n.lhsIdx (ix2 r k) ((ValueIdx.contrEquiv1 Cert.ReferenceIdeal.dot_S50000x128_S128x256_S50000x256_1_0_0_1_n_n 128 rfl rfl).symm j) = ix2 r j := funext fun a => Fin.ext (by
    match a with
    | ⟨0, _⟩ => exact lhs_dR1_0 _ _
    | ⟨1, _⟩ => exact (lhs_dR1_1 _ _).trans hk)
  have er : Cert.ReferenceIdeal.dot_S50000x128_S128x256_S50000x256_1_0_0_1_n_n.rhsIdx (ix2 r k) ((ValueIdx.contrEquiv1 Cert.ReferenceIdeal.dot_S50000x128_S128x256_S50000x256_1_0_0_1_n_n 128 rfl rfl).symm j) = ix2 j k := funext fun a => Fin.ext (by
    match a with
    | ⟨0, _⟩ => exact (rhs_dR1_0 _ _).trans hk
    | ⟨1, _⟩ => exact rhs_dR1_1 _ _)
  rw [el, er]

theorem lhs_dR2_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
theorem lhs_dR2_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_dR2_0 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_dR2_1 (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

/-- The reference's product with contraction over 256, at row `r`, column `q`. -/
theorem dgR2_apply (a : FVec Ideal Cert.ReferenceIdeal.S50000x256 .f32) (b : FVec Ideal Cert.ReferenceIdeal.S256x256 .f32) (r : Fin 50000) (q : Fin 256) :
    Host.dotGeneral Cert.ReferenceIdeal.dot_S50000x256_S256x256_S50000x256_1_0_0_1_n_n none a b (ix2 r q)
      = ∑ k : Fin 256, a (ix2 r k) * b (ix2 k q) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun j _ => ?_
  have hk := ValueIdx.contrEquiv1_symm_val Cert.ReferenceIdeal.dot_S50000x256_S256x256_S50000x256_1_0_0_1_n_n 256 rfl rfl j
  have el : Cert.ReferenceIdeal.dot_S50000x256_S256x256_S50000x256_1_0_0_1_n_n.lhsIdx (ix2 r q) ((ValueIdx.contrEquiv1 Cert.ReferenceIdeal.dot_S50000x256_S256x256_S50000x256_1_0_0_1_n_n 256 rfl rfl).symm j) = ix2 r j := funext fun a => Fin.ext (by
    match a with
    | ⟨0, _⟩ => exact lhs_dR2_0 _ _
    | ⟨1, _⟩ => exact (lhs_dR2_1 _ _).trans hk)
  have er : Cert.ReferenceIdeal.dot_S50000x256_S256x256_S50000x256_1_0_0_1_n_n.rhsIdx (ix2 r q) ((ValueIdx.contrEquiv1 Cert.ReferenceIdeal.dot_S50000x256_S256x256_S50000x256_1_0_0_1_n_n 256 rfl rfl).symm j) = ix2 j q := funext fun a => Fin.ext (by
    match a with
    | ⟨0, _⟩ => exact (rhs_dR2_0 _ _).trans hk
    | ⟨1, _⟩ => exact rhs_dR2_1 _ _)
  rw [el, er]

/-- The reference's bias: 256 entries laid out as one row, repeated over the 50000 rows, reads its entry at the column. -/
theorem biasR_apply {α : Type} (b : Cert.ReferenceIdeal.S256.Idx → α) (r : Fin 50000) (q : Fin 256) :
    broadcastInDim Cert.ReferenceIdeal.S50000x256 ![0, 1] Cert.ReferenceIdeal.Gen.bcast_S1x256_S50000x256_0_1
      (broadcastInDim Cert.ReferenceIdeal.S1x256 ![1] Cert.ReferenceIdeal.Gen.bcast_S256_S1x256_1 b) (ix2 r q) = b (ix1 q) := by
  refine (broadcastInDim_apply _ Cert.ReferenceIdeal.Gen.bcast_S1x256_S50000x256_0_1 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ Cert.ReferenceIdeal.Gen.bcast_S256_S1x256_1 b (ix2 (0 : Fin 1) q) (ix1 q) (fun a => match a with
    | ⟨0, _⟩ => by show q.val = if (256 : Nat) = 1 then 0 else q.val; rw [if_neg (by decide)])

/-! ## The reference's perceptrons as functions of the layer's input -/

/-- The reference's first perceptron (product, bias, relu, product, bias) as a function of its input array `H` and the four parameter arrays. -/
def mlpR1 (H : (⟨Cert.ReferenceIdeal.S50000x128, .f32⟩ : BufTy).Contents (Elt Ideal)) (w1 : (⟨Cert.ReferenceIdeal.S128x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) : (⟨Cert.ReferenceIdeal.S50000x256, .f32⟩ : BufTy).Contents (Elt Ideal) :=
  addf (Host.dotGeneral (φ₁ := .f32) (φ₂ := .f32) Cert.ReferenceIdeal.dot_S50000x256_S256x256_S50000x256_1_0_0_1_n_n none
      (maximumf (addf (Host.dotGeneral (φ₁ := .f32) (φ₂ := .f32) Cert.ReferenceIdeal.dot_S50000x128_S128x256_S50000x256_1_0_0_1_n_n none H w1)
          (broadcastInDim Cert.ReferenceIdeal.S50000x256 ![0, 1] Cert.ReferenceIdeal.Gen.bcast_S1x256_S50000x256_0_1 (broadcastInDim Cert.ReferenceIdeal.S1x256 ![1] Cert.ReferenceIdeal.Gen.bcast_S256_S1x256_1 b1)))
        (broadcastInDim Cert.ReferenceIdeal.S50000x256 ![] Cert.ReferenceIdeal.Gen.bcast_S_S50000x256 (constant (F := Ideal) Cert.ReferenceIdeal.S_ .f32 0x00000000#32)))
      w2)
    (broadcastInDim Cert.ReferenceIdeal.S50000x256 ![0, 1] Cert.ReferenceIdeal.Gen.bcast_S1x256_S50000x256_0_1 (broadcastInDim Cert.ReferenceIdeal.S1x256 ![1] Cert.ReferenceIdeal.Gen.bcast_S256_S1x256_1 b2))

/-- The reference's second perceptron: the same chain with an input of width 256. -/
def mlpR2 (H : (⟨Cert.ReferenceIdeal.S50000x256, .f32⟩ : BufTy).Contents (Elt Ideal)) (w1 : (⟨Cert.ReferenceIdeal.S256x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) : (⟨Cert.ReferenceIdeal.S50000x256, .f32⟩ : BufTy).Contents (Elt Ideal) :=
  addf (Host.dotGeneral (φ₁ := .f32) (φ₂ := .f32) Cert.ReferenceIdeal.dot_S50000x256_S256x256_S50000x256_1_0_0_1_n_n none
      (maximumf (addf (Host.dotGeneral (φ₁ := .f32) (φ₂ := .f32) Cert.ReferenceIdeal.dot_S50000x256_S256x256_S50000x256_1_0_0_1_n_n none H w1)
          (broadcastInDim Cert.ReferenceIdeal.S50000x256 ![0, 1] Cert.ReferenceIdeal.Gen.bcast_S1x256_S50000x256_0_1 (broadcastInDim Cert.ReferenceIdeal.S1x256 ![1] Cert.ReferenceIdeal.Gen.bcast_S256_S1x256_1 b1)))
        (broadcastInDim Cert.ReferenceIdeal.S50000x256 ![] Cert.ReferenceIdeal.Gen.bcast_S_S50000x256 (constant (F := Ideal) Cert.ReferenceIdeal.S_ .f32 0x00000000#32)))
      w2)
    (broadcastInDim Cert.ReferenceIdeal.S50000x256 ![0, 1] Cert.ReferenceIdeal.Gen.bcast_S1x256_S50000x256_0_1 (broadcastInDim Cert.ReferenceIdeal.S1x256 ![1] Cert.ReferenceIdeal.Gen.bcast_S256_S1x256_1 b2))

/-- The reference's first perceptron at row `r`, column `q`: the perceptron of row `r` of its input. -/
theorem mlpR1_apply (H : (⟨Cert.ReferenceIdeal.S50000x128, .f32⟩ : BufTy).Contents (Elt Ideal)) (w1 : (⟨Cert.ReferenceIdeal.S128x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) (r : Fin 50000) (q : Fin 256) :
    mlpR1 H w1 b1 w2 b2 (ix2 r q) = mlpAt (fun j => H (ix2 r j)) w1 b1 w2 b2 q := by
  unfold mlpR1 mlpAt
  refine (congrArg₂ (· + ·) (dgR2_apply _ _ r q) (biasR_apply b2 r q)).trans ?_
  refine congrArg₂ (· + ·) (Finset.sum_congr rfl fun k _ => ?_) rfl
  refine congrArg₂ (· * ·) ?_ rfl
  refine congrArg₂ max ?_ rfl
  exact congrArg₂ (· + ·) (dgR1_apply _ _ r k) (biasR_apply b1 r k)

/-- The reference's second perceptron at row `r`, column `q`. -/
theorem mlpR2_apply (H : (⟨Cert.ReferenceIdeal.S50000x256, .f32⟩ : BufTy).Contents (Elt Ideal)) (w1 : (⟨Cert.ReferenceIdeal.S256x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) (r : Fin 50000) (q : Fin 256) :
    mlpR2 H w1 b1 w2 b2 (ix2 r q) = mlpAt (fun j => H (ix2 r j)) w1 b1 w2 b2 q := by
  unfold mlpR2 mlpAt
  refine (congrArg₂ (· + ·) (dgR2_apply _ _ r q) (biasR_apply b2 r q)).trans ?_
  refine congrArg₂ (· + ·) (Finset.sum_congr rfl fun k _ => ?_) rfl
  refine congrArg₂ (· * ·) ?_ rfl
  refine congrArg₂ max ?_ rfl
  exact congrArg₂ (· + ·) (dgR2_apply _ _ r k) (biasR_apply b1 r k)

/-! ## The reference's stages are these functions of the layer's input -/

/-- The reference's stage after its first perceptron is `mlpR1` of the stage before it. -/
theorem val_main_v23_eq_mlpR1 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) :
    Cert.ReferenceIdeal.Read.val_main_v23 (F := Ideal) x0 x1 x3 x4 x5 x6 = mlpR1 (Cert.ReferenceIdeal.Read.val_main_v14 (F := Ideal) x0 x1) x3 x4 x5 x6 := rfl

/-- The reference's stage after its second perceptron is `mlpR2` of the stage before it. -/
theorem val_main_v69_eq_mlpR2 (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 x7 x8 : (⟨Cert.ReferenceIdeal.S256, .f32⟩ : BufTy).Contents (Elt Ideal))
    (x9 : (⟨Cert.ReferenceIdeal.S256x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) :
    Cert.ReferenceIdeal.Read.val_main_v69 (F := Ideal) x0 x1 x3 x4 x5 x6 x7 x8 x9 x10 x11 x12
      = mlpR2 (Cert.ReferenceIdeal.Read.val_main_v60 (F := Ideal) x0 x1 x3 x4 x5 x6 x7 x8) x9 x10 x11 x12 := rfl

/-! ## The kernel's whole-array value is the reference's perceptron -/

/-- An index's place inside its block, by coordinates. -/
theorem inBlock_ix2 (r : Fin 50000) (q : Fin 256) :
    Cert.KernelIdeal.Gen.inBlock (ix2 r q) = ix2 (⟨r.val % 2000, Nat.mod_lt _ (by decide)⟩ : Fin 2000) q :=
  funext fun a => match a with | ⟨0, _⟩ => rfl | ⟨1, _⟩ => rfl

/-- The row of the block that holds row `r`, at `r`'s place inside the block, is row `r` (input of width 128). -/
theorem blockRow0_ix2 (r : Fin 50000) (q : Fin 256) (j : Fin 128) :
    Cert.KernelIdeal.Gen.blockRow0 (ix2 r q) (ix2 (⟨r.val % 2000, Nat.mod_lt _ (by decide)⟩ : Fin 2000) j) = ix2 r j :=
  funext fun a => Fin.ext (match a with
    | ⟨0, _⟩ => by show 2000 * (r.val / 2000) + r.val % 2000 = r.val; omega
    | ⟨1, _⟩ => rfl)

/-- The same for an input of width 256. -/
theorem blockRow2_ix2 (r : Fin 50000) (q : Fin 256) (j : Fin 256) :
    Cert.KernelIdeal.Gen.blockRow2 (ix2 r q) (ix2 (⟨r.val % 2000, Nat.mod_lt _ (by decide)⟩ : Fin 2000) j) = ix2 r j :=
  funext fun a => Fin.ext (match a with
    | ⟨0, _⟩ => by show 2000 * (r.val / 2000) + r.val % 2000 = r.val; omega
    | ⟨1, _⟩ => rfl)

/-- Layer 1: the array whose every row block is region 0's payload of the matching block of `H` is the reference's perceptron of `H`. -/
theorem mlpK1_eq_mlpR1 (H : (⟨Cert.ReferenceIdeal.S50000x128, .f32⟩ : BufTy).Contents (Elt Ideal)) (w1 : (⟨Cert.ReferenceIdeal.S128x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) :
    Cert.KernelIdeal.Gen.blockval0 (F := Ideal) H w1 b1 w2 b2 = mlpR1 H w1 b1 w2 b2 := by
  funext i
  obtain ⟨r, q, rfl⟩ : ∃ (r : Fin 50000) (q : Fin 256), i = ix2 r q := ⟨i 0, i 1, eq_ix2 i⟩
  rw [mlpR1_apply]
  show Cert.KernelIdeal.Gen.k0_pay1 (F := Ideal) (fun y => H (Cert.KernelIdeal.Gen.blockRow0 (ix2 r q) y)) w1 b1 w2 b2 (Cert.KernelIdeal.Gen.inBlock (ix2 r q)) = _
  rw [inBlock_ix2, k0_pay1_apply]
  exact congrArg (fun h => mlpAt h w1 b1 w2 b2 q) (funext fun j => congrArg H (blockRow0_ix2 r q j))

/-- Layer 2: the same for region 2, whose input rows have width 256. -/
theorem mlpK2_eq_mlpR2 (H : (⟨Cert.ReferenceIdeal.S50000x256, .f32⟩ : BufTy).Contents (Elt Ideal)) (w1 : (⟨Cert.ReferenceIdeal.S256x256, .f32⟩ : BufTy).Contents (Elt Ideal))
    (b1 : (⟨Cert.ReferenceIdeal.S256, .f32⟩ : BufTy).Contents (Elt Ideal)) (w2 : (⟨Cert.ReferenceIdeal.S256x256, .f32⟩ : BufTy).Contents (Elt Ideal))
    (b2 : (⟨Cert.ReferenceIdeal.S256, .f32⟩ : BufTy).Contents (Elt Ideal)) :
    Cert.KernelIdeal.Gen.blockval2 (F := Ideal) H w1 b1 w2 b2 = mlpR2 H w1 b1 w2 b2 := by
  funext i
  obtain ⟨r, q, rfl⟩ : ∃ (r : Fin 50000) (q : Fin 256), i = ix2 r q := ⟨i 0, i 1, eq_ix2 i⟩
  rw [mlpR2_apply]
  show Cert.KernelIdeal.Gen.k2_pay1 (F := Ideal) (fun y => H (Cert.KernelIdeal.Gen.blockRow2 (ix2 r q) y)) w1 b1 w2 b2 (Cert.KernelIdeal.Gen.inBlock (ix2 r q)) = _
  rw [inBlock_ix2, k2_pay1_apply]
  exact congrArg (fun h => mlpAt h w1 b1 w2 b2 q) (funext fun j => congrArg H (blockRow2_ix2 r q j))

end Cert.Bridge.Mlp

end
-- ==== Proof.BnLaw.lean ====
/- Batch norm followed by relu, kernel against reference, for both layers. The reference's column means, column
   variances and normalisation are functions of the array they normalise (`meanR`, `varR`, `bnR`), each its stage of
   that name by unfolding; one element of `bnR` is `bnElt`: `max ((y - mean) * rsqrt (var + eps) * gamma + beta) 0`,
   `eps` and `0` kept as their binary words. The kernel's payload of a 2000-row block at an index is `bnElt` of the
   block's element and the four row vectors at its column, so each batch-norm region's whole-array value is `bnR`. -/
import proofs.«403320_j14680198218264_1_alg».proof.Proof.Gen.KernelIdeal.Skeleton
import proofs.«403320_j14680198218264_1_alg».proof.Proof.RefRun
import proofs.«403320_j14680198218264_1_alg».proof.Proof.Arr13
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Bn

open Cert.ReferenceIdeal Cert.ReferenceIdeal.Gen Idealize.ShloMosaic Idealize.ShloMosaic.TcCoe Idealize.SL.Sem Idealize.ShloMosaic.StableHlo
open Idealize.ShloMosaic.ValueIdx

/-! ## The reference's chains as functions of the array they normalise -/

/-- The column means of a 50000x256 array: the column sums divided by 50000. -/
def meanR (Y : (⟨S50000x256, .f32⟩ : BufTy).Contents (Elt Ideal)) : (⟨S256, .f32⟩ : BufTy).Contents (Elt Ideal) :=
  Host.divf (F := Ideal) (Host.reduceAdd (F := Ideal) Y (constant (F := Ideal) S_ .f32 0x00000000#32) reducesTo_S50000x256_S256_d0 h_S_)
    (broadcastInDim S256 ![] bcast_S_S256 (constant (F := Ideal) S_ .f32 0x47435000#32))

/-- The column variances: the column means of the squared deviations from the column means. -/
def varR (Y : (⟨S50000x256, .f32⟩ : BufTy).Contents (Elt Ideal)) : (⟨S256, .f32⟩ : BufTy).Contents (Elt Ideal) :=
  Host.divf (F := Ideal)
    (Host.reduceAdd (F := Ideal)
      (mulf (F := Ideal)
        (subf (F := Ideal) Y (broadcastInDim S50000x256 ![0, 1] bcast_S1x256_S50000x256_0_1 (broadcastInDim S1x256 ![1] bcast_S256_S1x256_1 (meanR Y))))
        (subf (F := Ideal) Y (broadcastInDim S50000x256 ![0, 1] bcast_S1x256_S50000x256_0_1 (broadcastInDim S1x256 ![1] bcast_S256_S1x256_1 (meanR Y)))))
      (constant (F := Ideal) S_ .f32 0x00000000#32) reducesTo_S50000x256_S256_d0 h_S_)
    (broadcastInDim S256 ![] bcast_S_S256 (constant (F := Ideal) S_ .f32 0x47435000#32))

/-- Batch norm followed by relu, as the reference writes it: the row vectors broadcast over the 50000 rows. -/
def bnR (Y : (⟨S50000x256, .f32⟩ : BufTy).Contents (Elt Ideal)) (mean var gamma beta : (⟨S256, .f32⟩ : BufTy).Contents (Elt Ideal)) :
    (⟨S50000x256, .f32⟩ : BufTy).Contents (Elt Ideal) :=
  maximumf (F := Ideal)
    (addf (F := Ideal)
      (mulf (F := Ideal)
        (mulf (F := Ideal)
          (subf (F := Ideal) Y (broadcastInDim S50000x256 ![0, 1] bcast_S1x256_S50000x256_0_1 (broadcastInDim S1x256 ![1] bcast_S256_S1x256_1 mean)))
          (broadcastInDim S50000x256 ![0, 1] bcast_S1x256_S50000x256_0_1 (broadcastInDim S1x256 ![1] bcast_S256_S1x256_1
            (Host.rsqrt (F := Ideal) (addf (F := Ideal) var (broadcastInDim S256 ![] bcast_S_S256 (constant (F := Ideal) S_ .f32 0x3727C5AC#32)))))))
        (broadcastInDim S50000x256 ![0, 1] bcast_S1x256_S50000x256_0_1 (broadcastInDim S1x256 ![1] bcast_S256_S1x256_1 gamma)))
      (broadcastInDim S50000x256 ![0, 1] bcast_S1x256_S50000x256_0_1 (broadcastInDim S1x256 ![1] bcast_S256_S1x256_1 beta)))
    (broadcastInDim S50000x256 ![] bcast_S_S50000x256 (constant (F := Ideal) S_ .f32 0x00000000#32))

/-! ## The reference's stages are these chains

Each equation is by unfolding: the stage's operation terms are the chain's, over the stage that feeds it. -/

/-- Layer 1: the mean stage is `meanR` of the first MLP's result. -/
theorem val_main_v26_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    Read.val_main_v26 (F := Ideal) x0 x1 x3 x4 x5 x6 = meanR (Read.val_main_v23 (F := Ideal) x0 x1 x3 x4 x5 x6) := rfl

/-- Layer 1: the variance stage is `varR` of the first MLP's result. -/
theorem val_main_v33_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    Read.val_main_v33 (F := Ideal) x0 x1 x3 x4 x5 x6 = varR (Read.val_main_v23 (F := Ideal) x0 x1 x3 x4 x5 x6) := rfl

/-- Layer 1: the batch-norm + relu stage is `bnR` of the MLP's result, its mean, its variance and the two parameter vectors. -/
theorem val_main_v49_eq_bnR (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 x8 : (⟨S256, .f32⟩ : BufTy).Contents (Elt Ideal)) :
    Read.val_main_v49 (F := Ideal) x0 x1 x3 x4 x5 x6 x7 x8
      = bnR (Read.val_main_v23 (F := Ideal) x0 x1 x3 x4 x5 x6) (Read.val_main_v26 (F := Ideal) x0 x1 x3 x4 x5 x6) (Read.val_main_v33 (F := Ideal) x0 x1 x3 x4 x5 x6) x7 x8 := rfl

/-- Layer 2: the mean stage is `meanR` of the second MLP's result. -/
theorem val_main_v72_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    Read.val_main_v72 (F := Ideal) x0 x1 x3 x4 x5 x6 x7 x8 x9 x10 x11 x12 = meanR (Read.val_main_v69 (F := Ideal) x0 x1 x3 x4 x5 x6 x7 x8 x9 x10 x11 x12) := rfl

/-- Layer 2: the variance stage is `varR` of the second MLP's result. -/
theorem val_main_v79_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    Read.val_main_v79 (F := Ideal) x0 x1 x3 x4 x5 x6 x7 x8 x9 x10 x11 x12 = varR (Read.val_main_v69 (F := Ideal) x0 x1 x3 x4 x5 x6 x7 x8 x9 x10 x11 x12) := rfl

/-- Layer 2: the batch-norm + relu stage is `bnR` of the MLP's result, its mean, its variance and the two parameter vectors. -/
theorem val_main_v95_eq_bnR (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 x7 x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 x14 : (⟨S256, .f32⟩ : BufTy).Contents (Elt Ideal)) :
    Read.val_main_v95 (F := Ideal) x0 x1 x3 x4 x5 x6 x7 x8 x9 x10 x11 x12 x13 x14
      = bnR (Read.val_main_v69 (F := Ideal) x0 x1 x3 x4 x5 x6 x7 x8 x9 x10 x11 x12) (Read.val_main_v72 (F := Ideal) x0 x1 x3 x4 x5 x6 x7 x8 x9 x10 x11 x12) (Read.val_main_v79 (F := Ideal) x0 x1 x3 x4 x5 x6 x7 x8 x9 x10 x11 x12) x13 x14 := rfl

/-! ## One element -/

/-- Batch norm + relu at one element: `max ((y - mean) * rsqrt (var + eps) * gamma + beta) 0`. -/
def bnElt (y mean var gamma beta : EReal) : EReal :=
  max ((y - mean) * Ideal.rsqrt (var + Ideal.ofBits .f32 0x3727C5AC#32) * gamma + beta) (Ideal.ofBits .f32 0x00000000#32)

/-- A row vector broadcast to `[1, 256]` and then over the 50000 rows reads, at `i`, the vector at `i`'s column. -/
theorem rowBcast_apply (x : S256.Idx → EReal) (i : S50000x256.Idx) :
    broadcastInDim S50000x256 ![0, 1] bcast_S1x256_S50000x256_0_1 (broadcastInDim S1x256 ![1] bcast_S256_S1x256_1 x) i = x (ix1 (i 1)) :=
  (broadcastInDim_apply _ bcast_S1x256_S50000x256_0_1 _ i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])).trans
  (broadcastInDim_apply _ bcast_S256_S1x256_1 x (ix2 (0 : Fin 1) (i 1)) (ix1 (i 1)) (fun a => match a with
    | ⟨0, _⟩ => by show (i 1).val = if (256 : Nat) = 1 then 0 else (i 1).val; rw [if_neg (by decide)]))

/-- The reference's chain read at an index: the element function of the array's element and the row vectors at its column. -/
theorem bnR_apply (Y : S50000x256.Idx → EReal) (mean var gamma beta : S256.Idx → EReal) (i : S50000x256.Idx) :
    bnR Y mean var gamma beta i = bnElt (Y i) (mean (ix1 (i 1))) (var (ix1 (i 1))) (gamma (ix1 (i 1))) (beta (ix1 (i 1))) := by
  unfold bnR bnElt
  rw [maximumf_apply, addf_apply, mulf_apply, mulf_apply, subf_apply, rowBcast_apply, rowBcast_apply, rowBcast_apply, rowBcast_apply]
  rfl

/-! ## The kernel's payload at an index -/

/-- Layer 1's payload of a block and four row vectors, at row `p` and column `q` of the block. -/
theorem k1_pay1_ix (v0 : Vec Ideal Cert.KernelIdeal.S2000x256 .f32) (v2 v4 v6 v7 : Vec Ideal Cert.KernelIdeal.S256 .f32)
    (p : Fin 2000) (q : Fin 256) :
    Cert.KernelIdeal.Gen.k1_pay1 (F := Ideal) v0 v2 v4 v6 v7 (ix2 p q)
      = bnElt (v0 (ix2 p q)) (v2 (ix1 q)) (v4 (ix1 q)) (v6 (ix1 q)) (v7 (ix1 q)) := by
  unfold Cert.KernelIdeal.Gen.k1_pay1 bnElt
  simp only [maximumf_apply, addf_apply, mulf_apply, subf_apply, broadcast_apply, shapeCast_self,
    broadcastTo_1b_ab_apply, shapeCast_a_1a_apply]
  rfl

/-- The same at any index of the block. -/
theorem k1_pay1_apply (v0 : Vec Ideal Cert.KernelIdeal.S2000x256 .f32) (v2 v4 v6 v7 : Vec Ideal Cert.KernelIdeal.S256 .f32)
    (j : Cert.KernelIdeal.S2000x256.Idx) :
    Cert.KernelIdeal.Gen.k1_pay1 (F := Ideal) v0 v2 v4 v6 v7 j
      = bnElt (v0 j) (v2 (ix1 (j 1))) (v4 (ix1 (j 1))) (v6 (ix1 (j 1))) (v7 (ix1 (j 1))) := by
  obtain ⟨p, q, rfl⟩ : ∃ (p : Fin 2000) (q : Fin 256), j = ix2 p q := ⟨j 0, j 1, eq_ix2 j⟩
  exact k1_pay1_ix v0 v2 v4 v6 v7 p q

/-- Layer 2's payload of a block and four row vectors, at row `p` and column `q` of the block. -/
theorem k3_pay1_ix (v0 : Vec Ideal Cert.KernelIdeal.S2000x256 .f32) (v2 v4 v6 v7 : Vec Ideal Cert.KernelIdeal.S256 .f32)
    (p : Fin 2000) (q : Fin 256) :
    Cert.KernelIdeal.Gen.k3_pay1 (F := Ideal) v0 v2 v4 v6 v7 (ix2 p q)
      = bnElt (v0 (ix2 p q)) (v2 (ix1 q)) (v4 (ix1 q)) (v6 (ix1 q)) (v7 (ix1 q)) := by
  unfold Cert.KernelIdeal.Gen.k3_pay1 bnElt
  simp only [maximumf_apply, addf_apply, mulf_apply, subf_apply, broadcast_apply, shapeCast_self,
    broadcastTo_1b_ab_apply, shapeCast_a_1a_apply]
  rfl

/-- The same at any index of the block. -/
theorem k3_pay1_apply (v0 : Vec Ideal Cert.KernelIdeal.S2000x256 .f32) (v2 v4 v6 v7 : Vec Ideal Cert.KernelIdeal.S256 .f32)
    (j : Cert.KernelIdeal.S2000x256.Idx) :
    Cert.KernelIdeal.Gen.k3_pay1 (F := Ideal) v0 v2 v4 v6 v7 j
      = bnElt (v0 j) (v2 (ix1 (j 1))) (v4 (ix1 (j 1))) (v6 (ix1 (j 1))) (v7 (ix1 (j 1))) := by
  obtain ⟨p, q, rfl⟩ : ∃ (p : Fin 2000) (q : Fin 256), j = ix2 p q := ⟨j 0, j 1, eq_ix2 j⟩
  exact k3_pay1_ix v0 v2 v4 v6 v7 p q

/-! ## The kernel's whole-array value is the reference's chain -/

/-- Layer 1: the region's whole-array value — at each element, the payload of the 2000-row block holding its row —
    is the reference's batch norm + relu of the same array and vectors. -/
theorem bnK_eq_bnR (Y : (⟨S50000x256, .f32⟩ : BufTy).Contents (Elt Ideal)) (mean var gamma beta : (⟨S256, .f32⟩ : BufTy).Contents (Elt Ideal)) :
    Cert.KernelIdeal.Gen.blockval1 (F := Ideal) Y mean var gamma beta = bnR Y mean var gamma beta := by
  funext i
  rw [bnR_apply, Cert.KernelIdeal.Gen.blockval1_apply, k1_pay1_apply, Cert.KernelIdeal.Gen.rowBlock_at]
  rfl

/-- Layer 2: the same for the second batch-norm region. -/
theorem bnK3_eq_bnR (Y : (⟨S50000x256, .f32⟩ : BufTy).Contents (Elt Ideal)) (mean var gamma beta : (⟨S256, .f32⟩ : BufTy).Contents (Elt Ideal)) :
    Cert.KernelIdeal.Gen.blockval3 (F := Ideal) Y mean var gamma beta = bnR Y mean var gamma beta := by
  funext i
  rw [bnR_apply, Cert.KernelIdeal.Gen.blockval3_apply, k3_pay1_apply, Cert.KernelIdeal.Gen.rowBlock_at]
  rfl

end Cert.Bridge.Bn
-- ==== Proof.ResultLaw.lean ====
/-
  The kernel's result as ONE function of the launch contents, and that function is the reference's.

  In program order: the neighbour-sum aggregation of the node features, the first perceptron, batch norm + relu with
  the column means and variances of the perceptron's output, the aggregation again, the second perceptron, batch norm +
  relu again, and the mean pooling over graph ids followed by the final linear layer. Each region contributes its
  whole-array value (the block-wise payloads read as one array), each host stretch its function (HostLaw). The
  reference computes the same stages: the host stretches are the same operations on both sides, and each region's
  whole-array value is the reference's chain by its law (MlpLaw, BnLaw, PoolLaw).
-/
import proofs.«403320_j14680198218264_1_alg».proof.Proof.HostLaw
import proofs.«403320_j14680198218264_1_alg».proof.Proof.Arr02
import proofs.«403320_j14680198218264_1_alg».proof.Proof.Arr13
import proofs.«403320_j14680198218264_1_alg».proof.Proof.MlpLaw
import proofs.«403320_j14680198218264_1_alg».proof.Proof.BnLaw
import proofs.«403320_j14680198218264_1_alg».proof.Proof.PoolLaw
import proofs.«403320_j14680198218264_1_alg».proof.Proof.RefRun

noncomputable section

namespace Cert.Bridge.Result

open Cert.KernelIdeal Cert.KernelIdeal.Gen Idealize.ShloMosaic Idealize.ShloMosaic.TcCoe Idealize.SL.Sem
open Cert.Bridge.Host

/-! ## The kernel's result as one function of the launch contents

The composition, in program order, of the host stretches' functions and the regions' whole-array values. -/

section Stages
variable (m : (ℓ : Loc nD τ sig) → Buf (Elt Ideal) ℓ) (c : Dev nD)

/-- The launch contents of a reference on core `c`. -/
abbrev A (r : Ref sig .tc) : Buf (Elt Ideal) ((c : Thread nD τ).loc r) := m ((c : Thread nD τ).loc r)

/-- Layer 1's aggregated features. -/
def k15 : (⟨S50000x128, .f32⟩ : BufTy).Contents (Elt Ideal) := aggK1 (A m c main_arg0) (srcK (A m c main_arg1)) (dstK (A m c main_arg1))
/-- Layer 1's MLP output. -/
def k16 : (⟨S50000x256, .f32⟩ : BufTy).Contents (Elt Ideal) := blockval0 (F := Ideal) (k15 m c) (A m c main_arg3) (A m c main_arg4) (A m c main_arg5) (A m c main_arg6)
/-- Layer 1's normalised, rectified output. -/
def k27 : (⟨S50000x256, .f32⟩ : BufTy).Contents (Elt Ideal) := blockval1 (F := Ideal) (k16 m c) (meanK (k16 m c)) (varK (k16 m c)) (A m c main_arg7) (A m c main_arg8)
/-- Layer 2's aggregated features. -/
def k38 : (⟨S50000x256, .f32⟩ : BufTy).Contents (Elt Ideal) := aggK2 (k27 m c) (srcK (A m c main_arg1)) (dstK (A m c main_arg1))
/-- Layer 2's MLP output. -/
def k39 : (⟨S50000x256, .f32⟩ : BufTy).Contents (Elt Ideal) := blockval2 (F := Ideal) (k38 m c) (A m c main_arg9) (A m c main_arg10) (A m c main_arg11) (A m c main_arg12)
/-- Layer 2's normalised, rectified output. -/
def k50 : (⟨S50000x256, .f32⟩ : BufTy).Contents (Elt Ideal) := blockval3 (F := Ideal) (k39 m c) (meanK (k39 m c)) (varK (k39 m c)) (A m c main_arg13) (A m c main_arg14)
/-- The pooled, projected result. -/
def k51 : (⟨S256x64, .f32⟩ : BufTy).Contents (Elt Ideal) :=
  Cert.Bridge.Pool.poolK (k50 m c) (shapeCast S50000x1 (A m c main_arg2 : (⟨S50000, .i32⟩ : BufTy).Contents (Elt Ideal)) shapeCasts_S50000_S50000x1) (A m c main_arg15) (A m c main_arg16)

end Stages

/-! ## The kernel's function of the launch contents is the reference's

The host stretches of the two programs are the same operations; each region's whole-array value is the reference's
chain of the same stage by its law. -/

section Reference

/-- The kernel's first aggregation is the reference's. -/
theorem agg1_eq (x0 : (⟨Cert.ReferenceIdeal.S50000x128, .f32⟩ : BufTy).Contents (Elt Ideal)) (x1 : (⟨Cert.ReferenceIdeal.S2x800000, .i32⟩ : BufTy).Contents (Elt Ideal)) :
    aggK1 (F := Ideal) x0 (srcK x1) (dstK x1) = Cert.ReferenceIdeal.Read.val_main_v14 (F := Ideal) x0 x1 := rfl

/-- The kernel's second aggregation, of the reference's layer-1 output, is the reference's. -/
theorem agg2_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 x7 x8 : (⟨Cert.ReferenceIdeal.S256, .f32⟩ : BufTy).Contents (Elt Ideal)) :
    aggK2 (F := Ideal) (Cert.ReferenceIdeal.Read.val_main_v49 (F := Ideal) x0 x1 x3 x4 x5 x6 x7 x8) (srcK x1) (dstK x1)
      = Cert.ReferenceIdeal.Read.val_main_v60 (F := Ideal) x0 x1 x3 x4 x5 x6 x7 x8 := rfl

/-- The kernel's column means are the reference's. -/
theorem meanK_eq (H : (⟨Cert.ReferenceIdeal.S50000x256, .f32⟩ : BufTy).Contents (Elt Ideal)) : meanK (F := Ideal) H = Cert.Bridge.Bn.meanR H := rfl
/-- The kernel's column variances are the reference's. -/
theorem varK_eq (H : (⟨Cert.ReferenceIdeal.S50000x256, .f32⟩ : BufTy).Contents (Elt Ideal)) : varK (F := Ideal) H = Cert.Bridge.Bn.varR H := rfl

variable (m : (ℓ : Loc nD τ sig) → Buf (Elt Ideal) ℓ) (c : Dev nD)

theorem R15 : k15 m c = Cert.ReferenceIdeal.Read.val_main_v14 (F := Ideal) (A m c main_arg0) (A m c main_arg1) := agg1_eq _ _

theorem R16 : k16 m c = Cert.ReferenceIdeal.Read.val_main_v23 (F := Ideal) (A m c main_arg0) (A m c main_arg1) (A m c main_arg3) (A m c main_arg4) (A m c main_arg5) (A m c main_arg6) := by
  unfold k16
  rw [R15 m c, Cert.Bridge.Mlp.mlpK1_eq_mlpR1]
  exact (Cert.Bridge.Mlp.val_main_v23_eq_mlpR1 _ _ _ _ _ _).symm

theorem R27 : k27 m c = Cert.ReferenceIdeal.Read.val_main_v49 (F := Ideal) (A m c main_arg0) (A m c main_arg1) (A m c main_arg3) (A m c main_arg4) (A m c main_arg5) (A m c main_arg6) (A m c main_arg7) (A m c main_arg8) := by
  unfold k27
  rw [R16 m c, meanK_eq, varK_eq, Cert.Bridge.Bn.bnK_eq_bnR, ← Cert.Bridge.Bn.val_main_v26_eq, ← Cert.Bridge.Bn.val_main_v33_eq]
  exact (Cert.Bridge.Bn.val_main_v49_eq_bnR _ _ _ _ _ _ _ _).symm

theorem R38 : k38 m c = Cert.ReferenceIdeal.Read.val_main_v60 (F := Ideal) (A m c main_arg0) (A m c main_arg1) (A m c main_arg3) (A m c main_arg4) (A m c main_arg5) (A m c main_arg6) (A m c main_arg7) (A m c main_arg8) := by
  unfold k38
  rw [R27 m c]
  exact agg2_eq _ _ _ _ _ _ _ _

theorem R39 : k39 m c = Cert.ReferenceIdeal.Read.val_main_v69 (F := Ideal) (A m c main_arg0) (A m c main_arg1) (A m c main_arg3) (A m c main_arg4) (A m c main_arg5) (A m c main_arg6) (A m c main_arg7) (A m c main_arg8) (A m c main_arg9) (A m c main_arg10) (A m c main_arg11) (A m c main_arg12) := by
  unfold k39
  rw [R38 m c, Cert.Bridge.Mlp.mlpK2_eq_mlpR2]
  exact (Cert.Bridge.Mlp.val_main_v69_eq_mlpR2 _ _ _ _ _ _ _ _ _ _ _ _).symm

theorem R50 : k50 m c = Cert.ReferenceIdeal.Read.val_main_v95 (F := Ideal) (A m c main_arg0) (A m c main_arg1) (A m c main_arg3) (A m c main_arg4) (A m c main_arg5) (A m c main_arg6) (A m c main_arg7) (A m c main_arg8) (A m c main_arg9) (A m c main_arg10) (A m c main_arg11) (A m c main_arg12) (A m c main_arg13) (A m c main_arg14) := by
  unfold k50
  rw [R39 m c, meanK_eq, varK_eq, Cert.Bridge.Bn.bnK3_eq_bnR, ← Cert.Bridge.Bn.val_main_v72_eq, ← Cert.Bridge.Bn.val_main_v79_eq]
  exact (Cert.Bridge.Bn.val_main_v95_eq_bnR _ _ _ _ _ _ _ _ _ _ _ _ _ _).symm

/-- The kernel's result, as a function of the launch contents, is the reference's last stage of the same arrays. -/
theorem R51 : k51 m c = Cert.ReferenceIdeal.Read.val_main_v111 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) := by
  unfold k51
  rw [R50 m c, Cert.Bridge.Pool.poolK_eq_poolR]
  exact (Cert.Bridge.Pool.val_main_v111_eq_poolR _ _ _ _ _ _ _ _ _ _ _ _ _ _ _ _ _).symm

end Reference

end Cert.Bridge.Result

end
-- ==== Proof.Assemble.lean ====
/-
  The assembly of the algebraic claim.

  The kernel's run ends with every unscoped buffer at the last valuation of the fold through @main (RunI). Read stage by
  stage — a region changes only its output array, a host stretch only the buffers its operations write — the result
  array holds the function `k51` of the launch contents (ResultLaw), which is the reference's last stage of the same
  arrays; the reference's generated run ends at that stage of ITS launch contents, and the two launches agree on the
  arguments.
-/
import proofs.«403320_j14680198218264_1_alg».proof.Defs
import proofs.«403320_j14680198218264_1_alg».proof.Proof.RunI
import proofs.«403320_j14680198218264_1_alg».proof.Proof.PoolArr
import proofs.«403320_j14680198218264_1_alg».proof.Proof.ResultLaw
import proofs.«403320_j14680198218264_1_alg».proof.Proof.Gen.ReferenceIdeal
import proofs.«403320_j14680198218264_1_alg».proof.Proof.Gen.Pre_finite_inputs

noncomputable section

namespace Cert.Bridge.Assemble

open Cert.KernelIdeal Cert.KernelIdeal.Gen Idealize.ShloMosaic Idealize.ShloMosaic.TcCoe Idealize.SL.Sem Idealize.ShloMosaic.StableHlo
open Cert.Bridge.Host Cert.Bridge.Result

/-! ## What each item of the kernel's program keeps

A region changes only its output array; a host stretch only the buffers its operations write. -/

section Keep

variable (m : (ℓ : Loc nD τ sig) → Buf (Elt Ideal) ℓ) (ρ : Dev nD → PrngReg) (c : Dev nD)

theorem W2_keep (r : Ref sig .tc) (h : r ≠ main_v16) : W2 m ρ c (Proc.devRef .tc r) = W1 m ρ c (Proc.devRef .tc r) := by
  by_cases hr : ∃ w, Pipeline.arrRef spec0 w = r
  · obtain ⟨w, rfl⟩ := hr
    exact W2_in m ρ c w ((by decide : ∀ w : Fin cfg0.W, Pipeline.arrRef spec0 w ≠ main_v16 → (cfg0.win w).isOut = false) w h)
  · exact W2_of_ne m ρ c r (fun w e => hr ⟨w, e⟩)
theorem W4_keep (r : Ref sig .tc) (h : r ≠ main_v27) : W4 m ρ c (Proc.devRef .tc r) = W3 m ρ c (Proc.devRef .tc r) := by
  by_cases hr : ∃ w, Pipeline.arrRef spec1 w = r
  · obtain ⟨w, rfl⟩ := hr
    exact W4_in m ρ c w ((by decide : ∀ w : Fin cfg1.W, Pipeline.arrRef spec1 w ≠ main_v27 → (cfg1.win w).isOut = false) w h)
  · exact W4_of_ne m ρ c r (fun w e => hr ⟨w, e⟩)
theorem W6_keep (r : Ref sig .tc) (h : r ≠ main_v39) : W6 m ρ c (Proc.devRef .tc r) = W5 m ρ c (Proc.devRef .tc r) := by
  by_cases hr : ∃ w, Pipeline.arrRef spec2 w = r
  · obtain ⟨w, rfl⟩ := hr
    exact W6_in m ρ c w ((by decide : ∀ w : Fin cfg2.W, Pipeline.arrRef spec2 w ≠ main_v39 → (cfg2.win w).isOut = false) w h)
  · exact W6_of_ne m ρ c r (fun w e => hr ⟨w, e⟩)
theorem W8_keep (r : Ref sig .tc) (h : r ≠ main_v50) : W8 m ρ c (Proc.devRef .tc r) = W7 m ρ c (Proc.devRef .tc r) := by
  by_cases hr : ∃ w, Pipeline.arrRef spec3 w = r
  · obtain ⟨w, rfl⟩ := hr
    exact W8_in m ρ c w ((by decide : ∀ w : Fin cfg3.W, Pipeline.arrRef spec3 w ≠ main_v50 → (cfg3.win w).isOut = false) w h)
  · exact W8_of_ne m ρ c r (fun w e => hr ⟨w, e⟩)

/-- A reference no item before region 4 writes: no host stretch's operation, no region's output. -/
def Untouched (r : Ref sig .tc) : Prop :=
  r ∉ (hostOps0_W : List (Ref sig .tc)) ∧ r ≠ main_v16 ∧ r ∉ (hostOps1_W : List (Ref sig .tc)) ∧ r ≠ main_v27
    ∧ r ∉ (hostOps2_W : List (Ref sig .tc)) ∧ r ≠ main_v39 ∧ r ∉ (hostOps3_W : List (Ref sig .tc)) ∧ r ≠ main_v50
instance (r : Ref sig .tc) : Decidable (Untouched r) := by unfold Untouched; infer_instance

variable {r : Ref sig .tc} (h : Untouched r)
include h
theorem keep1 : W1 m ρ c (Proc.devRef .tc r) = m ((c : Thread nD τ).loc r) := W1_of m ρ c r h.1
theorem keep2 : W2 m ρ c (Proc.devRef .tc r) = m ((c : Thread nD τ).loc r) := (W2_keep m ρ c r h.2.1).trans (keep1 m ρ c h)
theorem keep3 : W3 m ρ c (Proc.devRef .tc r) = m ((c : Thread nD τ).loc r) := (W3_of m ρ c r h.2.2.1).trans (keep2 m ρ c h)
theorem keep4 : W4 m ρ c (Proc.devRef .tc r) = m ((c : Thread nD τ).loc r) := (W4_keep m ρ c r h.2.2.2.1).trans (keep3 m ρ c h)
theorem keep5 : W5 m ρ c (Proc.devRef .tc r) = m ((c : Thread nD τ).loc r) := (W5_of m ρ c r h.2.2.2.2.1).trans (keep4 m ρ c h)
theorem keep6 : W6 m ρ c (Proc.devRef .tc r) = m ((c : Thread nD τ).loc r) := (W6_keep m ρ c r h.2.2.2.2.2.1).trans (keep5 m ρ c h)
theorem keep7 : W7 m ρ c (Proc.devRef .tc r) = m ((c : Thread nD τ).loc r) := (W7_of m ρ c r h.2.2.2.2.2.2.1).trans (keep6 m ρ c h)
theorem keep8 : W8 m ρ c (Proc.devRef .tc r) = m ((c : Thread nD τ).loc r) := (W8_keep m ρ c r h.2.2.2.2.2.2.2).trans (keep7 m ρ c h)
omit h

end Keep

/-! ## The kernel's result array after the run

Stage by stage through the program: each region's output array is its whole-array value of the arrays the region
reads, each host stretch's result the stretch's function of what it reads; what an item does not write it keeps. -/

section Chain

variable (m : (ℓ : Loc nD τ sig) → Buf (Elt Ideal) ℓ) (ρ : Dev nD → PrngReg) (c : Dev nD)

theorem K15 : W1 m ρ c (Proc.devRef .tc main_v15) = k15 m c := host0_v15 (W0 m ρ c)

theorem K16 : W2 m ρ c (Proc.devRef .tc main_v16) = k16 m c := by
  have h := (W2_arr m ρ c 5).trans (arrAt0 (V1 m ρ) c)
  dsimp only [V1] at h
  rw [K15 m ρ c, keep1 m ρ c (r := main_arg3) (by decide), keep1 m ρ c (r := main_arg4) (by decide),
    keep1 m ρ c (r := main_arg5) (by decide), keep1 m ρ c (r := main_arg6) (by decide)] at h
  exact h

theorem K16' : W3 m ρ c (Proc.devRef .tc main_v16) = k16 m c := (W3_of m ρ c main_v16 (by decide)).trans (K16 m ρ c)
theorem K19 : W3 m ρ c (Proc.devRef .tc main_v19) = meanK (k16 m c) :=
  (host1_mean (W2 m ρ c)).trans (congrArg meanK (K16 m ρ c))
theorem K26 : W3 m ρ c (Proc.devRef .tc main_v26) = varK (k16 m c) :=
  (host1_var (W2 m ρ c)).trans (congrArg varK (K16 m ρ c))

theorem K27 : W4 m ρ c (Proc.devRef .tc main_v27) = k27 m c := by
  have h := (W4_arr m ρ c 5).trans (arrAt1 (V3 m ρ) c)
  dsimp only [V3] at h
  rw [K16' m ρ c, K19 m ρ c, K26 m ρ c, keep3 m ρ c (r := main_arg7) (by decide), keep3 m ρ c (r := main_arg8) (by decide)] at h
  exact h

theorem Ksrc : W4 m ρ c (Proc.devRef .tc main_v1) = srcK (A m c main_arg1) :=
  (W4_keep m ρ c main_v1 (by decide)).trans <| (W3_of m ρ c main_v1 (by decide)).trans <|
    (W2_keep m ρ c main_v1 (by decide)).trans (host0_v1 (W0 m ρ c))
theorem Kdst : W4 m ρ c (Proc.devRef .tc main_v3) = dstK (A m c main_arg1) :=
  (W4_keep m ρ c main_v3 (by decide)).trans <| (W3_of m ρ c main_v3 (by decide)).trans <|
    (W2_keep m ρ c main_v3 (by decide)).trans (host0_v3 (W0 m ρ c))

theorem K38 : W5 m ρ c (Proc.devRef .tc main_v38) = k38 m c := by
  have h := host2_v38 (W4 m ρ c)
  rw [K27 m ρ c, Ksrc m ρ c, Kdst m ρ c] at h
  exact h

theorem K39 : W6 m ρ c (Proc.devRef .tc main_v39) = k39 m c := by
  have h := (W6_arr m ρ c 5).trans (arrAt2 (V5 m ρ) c)
  dsimp only [V5] at h
  rw [K38 m ρ c, keep5 m ρ c (r := main_arg9) (by decide), keep5 m ρ c (r := main_arg10) (by decide),
    keep5 m ρ c (r := main_arg11) (by decide), keep5 m ρ c (r := main_arg12) (by decide)] at h
  exact h

theorem K39' : W7 m ρ c (Proc.devRef .tc main_v39) = k39 m c := (W7_of m ρ c main_v39 (by decide)).trans (K39 m ρ c)
theorem K42 : W7 m ρ c (Proc.devRef .tc main_v42) = meanK (k39 m c) :=
  (host3_mean (W6 m ρ c)).trans (congrArg meanK (K39 m ρ c))
theorem K49 : W7 m ρ c (Proc.devRef .tc main_v49) = varK (k39 m c) :=
  (host3_var (W6 m ρ c)).trans (congrArg varK (K39 m ρ c))

theorem K50 : W8 m ρ c (Proc.devRef .tc main_v50) = k50 m c := by
  have h := (W8_arr m ρ c 5).trans (arrAt3 (V7 m ρ) c)
  dsimp only [V7] at h
  rw [K39' m ρ c, K42 m ρ c, K49 m ρ c, keep7 m ρ c (r := main_arg13) (by decide), keep7 m ρ c (r := main_arg14) (by decide)] at h
  exact h

theorem Kgid : W8 m ρ c (Proc.devRef .tc main_v4)
    = shapeCast S50000x1 (A m c main_arg2 : (⟨S50000, .i32⟩ : BufTy).Contents (Elt Ideal)) shapeCasts_S50000_S50000x1 :=
  (W8_keep m ρ c main_v4 (by decide)).trans <| (W7_of m ρ c main_v4 (by decide)).trans <|
    (W6_keep m ρ c main_v4 (by decide)).trans <| (W5_of m ρ c main_v4 (by decide)).trans <|
    (W4_keep m ρ c main_v4 (by decide)).trans <| (W3_of m ρ c main_v4 (by decide)).trans <|
    (W2_keep m ρ c main_v4 (by decide)).trans (host0_v4 (W0 m ρ c))

/-- The kernel's result array, after the whole run, is `k51` of the launch contents. -/
theorem K51 : W9 m ρ c (Proc.devRef .tc main_v51) = k51 m c := by
  have h := (W9_main_v51 m ρ c).trans (Cert.Bridge.Pool.arrAt4 (V8 m ρ) c)
  dsimp only [V8] at h
  rw [K50 m ρ c, Kgid m ρ c, keep8 m ρ c (r := main_arg15) (by decide), keep8 m ρ c (r := main_arg16) (by decide)] at h
  exact h

end Chain

/-! ## The claims -/

section Claims

/-- The reference runs and leaves its arguments as launched: its generated run with the result dropped. -/
theorem frame_ReferenceIdeal : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- At the ideal instance the kernel's result array ends at `k51` of the launch contents (the run through the five
    regions), the reference's at its last stage of its own launch contents (its generated run); the arguments agree, and
    the two functions are one (`R51`). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => k51 m c, ?_, ?_⟩
  · exact (θ_run Cert.KernelIdeal.defs _ _).mono (fun r h c =>
      ⟨(h c _ (mem_uc main_v51 (by decide))).trans (K51 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)
      (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v111_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (R51 m c).symm

end Claims

end Cert.Bridge.Assemble

end
-- ==== Proof.lean ====
/- The certificate of the two-layer graph-isomorphism network against its reference.

   Both programs aggregate neighbour rows (a gather and an accumulating scatter), add them to the node features,
   apply a two-layer perceptron, normalise each of the 256 columns by its mean and variance over the 50000 rows,
   clamp at zero, do all of that a second time, and end with the mean of the rows of each graph followed by a
   linear layer. The kernel runs the perceptrons, the normalisations and the pooling as five grid regions over
   row blocks of 2000; the reference states them as whole-array operations. Over the extended reals the two
   agree operation by operation: a matrix product into a zero accumulator is the host's contraction, a change
   of float format is the identity, and the pooled sums agree because a product with a 0/1 indicator keeps or
   drops a summand exactly (0 · x = 0 and 1 · x = x for every extended real) while addition is commutative and
   associative; rows whose graph id lies outside 0..255 are dropped on both sides.

   The frames: each region's body is run once at a symbolic grid point against proof data that name what every
   staging buffer holds; the regions and the host stretches between them are chained from the launch to the
   return. The word-level program and its idealization are the same text, so one development, generic in the
   float family, serves both. The reference has no kernel: its frame is its run with the result dropped. -/
import proofs.«403320_j14680198218264_1_alg».proof.Defs
import proofs.«403320_j14680198218264_1_alg».proof.Proof.RunK
import proofs.«403320_j14680198218264_1_alg».proof.Proof.RunI
import proofs.«403320_j14680198218264_1_alg».proof.Proof.Assemble
import proofs.«403320_j14680198218264_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame (F := Bits) m ρ,
    fun m ρ _ => Cert.KernelIdeal.Gen.frame (F := Ideal) m ρ,
    Cert.Bridge.Assemble.frame_ReferenceIdeal,
    trivial,
    Cert.Bridge.Assemble.algebraic⟩

end Cert.Proof

end
